-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4)) (m ((c.tc : Thread Cert.Kernel.nD Cert.Kernel.τ).loc Cert.Kernel.main_arg5)) (m ((c.tc : Thread Cert.Kernel.nD Cert.Kernel.τ).loc Cert.Kernel.main_arg6)) (m ((c.tc : Thread Cert.Kernel.nD Cert.Kernel.τ).loc Cert.Kernel.main_arg7)) (m ((c.tc : Thread Cert.Kernel.nD Cert.Kernel.τ).loc Cert.Kernel.main_arg8)) (m ((c.tc : Thread Cert.Kernel.nD Cert.Kernel.τ).loc Cert.Kernel.main_arg9)) (m ((c.tc : Thread Cert.Kernel.nD Cert.Kernel.τ).loc Cert.Kernel.main_arg10)) (m ((c.tc : Thread Cert.Kernel.nD Cert.Kernel.τ).loc Cert.Kernel.main_arg11)) (m ((c.tc : Thread Cert.Kernel.nD Cert.Kernel.τ).loc Cert.Kernel.main_arg12)) (m ((c.tc : Thread Cert.Kernel.nD Cert.Kernel.τ).loc Cert.Kernel.main_arg13))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8)) (m ((c.tc : Thread Cert.KernelIdeal.nD Cert.KernelIdeal.τ).loc Cert.KernelIdeal.main_arg9)) (m ((c.tc : Thread Cert.KernelIdeal.nD Cert.KernelIdeal.τ).loc Cert.KernelIdeal.main_arg10)) (m ((c.tc : Thread Cert.KernelIdeal.nD Cert.KernelIdeal.τ).loc Cert.KernelIdeal.main_arg11)) (m ((c.tc : Thread Cert.KernelIdeal.nD Cert.KernelIdeal.τ).loc Cert.KernelIdeal.main_arg12)) (m ((c.tc : Thread Cert.KernelIdeal.nD Cert.KernelIdeal.τ).loc Cert.KernelIdeal.main_arg13))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7)) (m ((c.tc : Thread Cert.ReferenceIdeal.nD Cert.ReferenceIdeal.τ).loc Cert.ReferenceIdeal.main_arg8)) (m ((c.tc : Thread Cert.ReferenceIdeal.nD Cert.ReferenceIdeal.τ).loc Cert.ReferenceIdeal.main_arg9)) (m ((c.tc : Thread Cert.ReferenceIdeal.nD Cert.ReferenceIdeal.τ).loc Cert.ReferenceIdeal.main_arg10)) (m ((c.tc : Thread Cert.ReferenceIdeal.nD Cert.ReferenceIdeal.τ).loc Cert.ReferenceIdeal.main_arg11)) (m ((c.tc : Thread Cert.ReferenceIdeal.nD Cert.ReferenceIdeal.τ).loc Cert.ReferenceIdeal.main_arg12)) (m ((c.tc : Thread Cert.ReferenceIdeal.nD Cert.ReferenceIdeal.τ).loc Cert.ReferenceIdeal.main_arg13))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5)
      ∧ r.2.mem ((c.tc : Thread Cert.Kernel.nD Cert.Kernel.τ).loc Cert.Kernel.main_arg6) = m ((c.tc : Thread Cert.Kernel.nD Cert.Kernel.τ).loc Cert.Kernel.main_arg6)
      ∧ r.2.mem ((c.tc : Thread Cert.Kernel.nD Cert.Kernel.τ).loc Cert.Kernel.main_arg7) = m ((c.tc : Thread Cert.Kernel.nD Cert.Kernel.τ).loc Cert.Kernel.main_arg7)
      ∧ r.2.mem ((c.tc : Thread Cert.Kernel.nD Cert.Kernel.τ).loc Cert.Kernel.main_arg8) = m ((c.tc : Thread Cert.Kernel.nD Cert.Kernel.τ).loc Cert.Kernel.main_arg8)
      ∧ r.2.mem ((c.tc : Thread Cert.Kernel.nD Cert.Kernel.τ).loc Cert.Kernel.main_arg9) = m ((c.tc : Thread Cert.Kernel.nD Cert.Kernel.τ).loc Cert.Kernel.main_arg9)
      ∧ r.2.mem ((c.tc : Thread Cert.Kernel.nD Cert.Kernel.τ).loc Cert.Kernel.main_arg10) = m ((c.tc : Thread Cert.Kernel.nD Cert.Kernel.τ).loc Cert.Kernel.main_arg10)
      ∧ r.2.mem ((c.tc : Thread Cert.Kernel.nD Cert.Kernel.τ).loc Cert.Kernel.main_arg11) = m ((c.tc : Thread Cert.Kernel.nD Cert.Kernel.τ).loc Cert.Kernel.main_arg11)
      ∧ r.2.mem ((c.tc : Thread Cert.Kernel.nD Cert.Kernel.τ).loc Cert.Kernel.main_arg12) = m ((c.tc : Thread Cert.Kernel.nD Cert.Kernel.τ).loc Cert.Kernel.main_arg12)
      ∧ r.2.mem ((c.tc : Thread Cert.Kernel.nD Cert.Kernel.τ).loc Cert.Kernel.main_arg13) = m ((c.tc : Thread Cert.Kernel.nD Cert.Kernel.τ).loc Cert.Kernel.main_arg13))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
      ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
      ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
      ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9)
      ∧ r.2.mem ((c.tc : Thread Cert.KernelIdeal.nD Cert.KernelIdeal.τ).loc Cert.KernelIdeal.main_arg10) = m ((c.tc : Thread Cert.KernelIdeal.nD Cert.KernelIdeal.τ).loc Cert.KernelIdeal.main_arg10)
      ∧ r.2.mem ((c.tc : Thread Cert.KernelIdeal.nD Cert.KernelIdeal.τ).loc Cert.KernelIdeal.main_arg11) = m ((c.tc : Thread Cert.KernelIdeal.nD Cert.KernelIdeal.τ).loc Cert.KernelIdeal.main_arg11)
      ∧ r.2.mem ((c.tc : Thread Cert.KernelIdeal.nD Cert.KernelIdeal.τ).loc Cert.KernelIdeal.main_arg12) = m ((c.tc : Thread Cert.KernelIdeal.nD Cert.KernelIdeal.τ).loc Cert.KernelIdeal.main_arg12)
      ∧ r.2.mem ((c.tc : Thread Cert.KernelIdeal.nD Cert.KernelIdeal.τ).loc Cert.KernelIdeal.main_arg13) = m ((c.tc : Thread Cert.KernelIdeal.nD Cert.KernelIdeal.τ).loc Cert.KernelIdeal.main_arg13))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6)
      ∧ r.2.mem ((c.tc : Thread Cert.ReferenceIdeal.nD Cert.ReferenceIdeal.τ).loc Cert.ReferenceIdeal.main_arg7) = m ((c.tc : Thread Cert.ReferenceIdeal.nD Cert.ReferenceIdeal.τ).loc Cert.ReferenceIdeal.main_arg7)
      ∧ r.2.mem ((c.tc : Thread Cert.ReferenceIdeal.nD Cert.ReferenceIdeal.τ).loc Cert.ReferenceIdeal.main_arg8) = m ((c.tc : Thread Cert.ReferenceIdeal.nD Cert.ReferenceIdeal.τ).loc Cert.ReferenceIdeal.main_arg8)
      ∧ r.2.mem ((c.tc : Thread Cert.ReferenceIdeal.nD Cert.ReferenceIdeal.τ).loc Cert.ReferenceIdeal.main_arg9) = m ((c.tc : Thread Cert.ReferenceIdeal.nD Cert.ReferenceIdeal.τ).loc Cert.ReferenceIdeal.main_arg9)
      ∧ r.2.mem ((c.tc : Thread Cert.ReferenceIdeal.nD Cert.ReferenceIdeal.τ).loc Cert.ReferenceIdeal.main_arg10) = m ((c.tc : Thread Cert.ReferenceIdeal.nD Cert.ReferenceIdeal.τ).loc Cert.ReferenceIdeal.main_arg10)
      ∧ r.2.mem ((c.tc : Thread Cert.ReferenceIdeal.nD Cert.ReferenceIdeal.τ).loc Cert.ReferenceIdeal.main_arg11) = m ((c.tc : Thread Cert.ReferenceIdeal.nD Cert.ReferenceIdeal.τ).loc Cert.ReferenceIdeal.main_arg11)
      ∧ r.2.mem ((c.tc : Thread Cert.ReferenceIdeal.nD Cert.ReferenceIdeal.τ).loc Cert.ReferenceIdeal.main_arg12) = m ((c.tc : Thread Cert.ReferenceIdeal.nD Cert.ReferenceIdeal.τ).loc Cert.ReferenceIdeal.main_arg12)
      ∧ r.2.mem ((c.tc : Thread Cert.ReferenceIdeal.nD Cert.ReferenceIdeal.τ).loc Cert.ReferenceIdeal.main_arg13) = m ((c.tc : Thread Cert.ReferenceIdeal.nD Cert.ReferenceIdeal.τ).loc Cert.ReferenceIdeal.main_arg13))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
      ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)
      ∧ m' ((c.tc : Thread Cert.ReferenceIdeal.nD Cert.ReferenceIdeal.τ).loc Cert.ReferenceIdeal.main_arg7) = m ((c.tc : Thread Cert.KernelIdeal.nD Cert.KernelIdeal.τ).loc Cert.KernelIdeal.main_arg7)
      ∧ m' ((c.tc : Thread Cert.ReferenceIdeal.nD Cert.ReferenceIdeal.τ).loc Cert.ReferenceIdeal.main_arg8) = m ((c.tc : Thread Cert.KernelIdeal.nD Cert.KernelIdeal.τ).loc Cert.KernelIdeal.main_arg8)
      ∧ m' ((c.tc : Thread Cert.ReferenceIdeal.nD Cert.ReferenceIdeal.τ).loc Cert.ReferenceIdeal.main_arg9) = m ((c.tc : Thread Cert.KernelIdeal.nD Cert.KernelIdeal.τ).loc Cert.KernelIdeal.main_arg9)
      ∧ m' ((c.tc : Thread Cert.ReferenceIdeal.nD Cert.ReferenceIdeal.τ).loc Cert.ReferenceIdeal.main_arg10) = m ((c.tc : Thread Cert.KernelIdeal.nD Cert.KernelIdeal.τ).loc Cert.KernelIdeal.main_arg10)
      ∧ m' ((c.tc : Thread Cert.ReferenceIdeal.nD Cert.ReferenceIdeal.τ).loc Cert.ReferenceIdeal.main_arg11) = m ((c.tc : Thread Cert.KernelIdeal.nD Cert.KernelIdeal.τ).loc Cert.KernelIdeal.main_arg11)
      ∧ m' ((c.tc : Thread Cert.ReferenceIdeal.nD Cert.ReferenceIdeal.τ).loc Cert.ReferenceIdeal.main_arg12) = m ((c.tc : Thread Cert.KernelIdeal.nD Cert.KernelIdeal.τ).loc Cert.KernelIdeal.main_arg12)
      ∧ m' ((c.tc : Thread Cert.ReferenceIdeal.nD Cert.ReferenceIdeal.τ).loc Cert.ReferenceIdeal.main_arg13) = m ((c.tc : Thread Cert.KernelIdeal.nD Cert.KernelIdeal.τ).loc Cert.KernelIdeal.main_arg13)) →
    ∃ (v0 : (c : Dev Cert.KernelIdeal.nD) → Buf (Elt Ideal) ((c.tc : Thread Cert.KernelIdeal.nD Cert.KernelIdeal.τ).loc Cert.KernelIdeal.main_v35)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v35) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
          ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
          ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
          ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
          ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9)
          ∧ r.2.mem ((c.tc : Thread Cert.KernelIdeal.nD Cert.KernelIdeal.τ).loc Cert.KernelIdeal.main_arg10) = m ((c.tc : Thread Cert.KernelIdeal.nD Cert.KernelIdeal.τ).loc Cert.KernelIdeal.main_arg10)
          ∧ r.2.mem ((c.tc : Thread Cert.KernelIdeal.nD Cert.KernelIdeal.τ).loc Cert.KernelIdeal.main_arg11) = m ((c.tc : Thread Cert.KernelIdeal.nD Cert.KernelIdeal.τ).loc Cert.KernelIdeal.main_arg11)
          ∧ r.2.mem ((c.tc : Thread Cert.KernelIdeal.nD Cert.KernelIdeal.τ).loc Cert.KernelIdeal.main_arg12) = m ((c.tc : Thread Cert.KernelIdeal.nD Cert.KernelIdeal.τ).loc Cert.KernelIdeal.main_arg12)
          ∧ r.2.mem ((c.tc : Thread Cert.KernelIdeal.nD Cert.KernelIdeal.τ).loc Cert.KernelIdeal.main_arg13) = m ((c.tc : Thread Cert.KernelIdeal.nD Cert.KernelIdeal.τ).loc Cert.KernelIdeal.main_arg13))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v41) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5)
          ∧ r.2.mem ((c.tc : Thread Cert.ReferenceIdeal.nD Cert.ReferenceIdeal.τ).loc Cert.ReferenceIdeal.main_arg6) = m' ((c.tc : Thread Cert.ReferenceIdeal.nD Cert.ReferenceIdeal.τ).loc Cert.ReferenceIdeal.main_arg6)
          ∧ r.2.mem ((c.tc : Thread Cert.ReferenceIdeal.nD Cert.ReferenceIdeal.τ).loc Cert.ReferenceIdeal.main_arg7) = m' ((c.tc : Thread Cert.ReferenceIdeal.nD Cert.ReferenceIdeal.τ).loc Cert.ReferenceIdeal.main_arg7)
          ∧ r.2.mem ((c.tc : Thread Cert.ReferenceIdeal.nD Cert.ReferenceIdeal.τ).loc Cert.ReferenceIdeal.main_arg8) = m' ((c.tc : Thread Cert.ReferenceIdeal.nD Cert.ReferenceIdeal.τ).loc Cert.ReferenceIdeal.main_arg8)
          ∧ r.2.mem ((c.tc : Thread Cert.ReferenceIdeal.nD Cert.ReferenceIdeal.τ).loc Cert.ReferenceIdeal.main_arg9) = m' ((c.tc : Thread Cert.ReferenceIdeal.nD Cert.ReferenceIdeal.τ).loc Cert.ReferenceIdeal.main_arg9)
          ∧ r.2.mem ((c.tc : Thread Cert.ReferenceIdeal.nD Cert.ReferenceIdeal.τ).loc Cert.ReferenceIdeal.main_arg10) = m' ((c.tc : Thread Cert.ReferenceIdeal.nD Cert.ReferenceIdeal.τ).loc Cert.ReferenceIdeal.main_arg10)
          ∧ r.2.mem ((c.tc : Thread Cert.ReferenceIdeal.nD Cert.ReferenceIdeal.τ).loc Cert.ReferenceIdeal.main_arg11) = m' ((c.tc : Thread Cert.ReferenceIdeal.nD Cert.ReferenceIdeal.τ).loc Cert.ReferenceIdeal.main_arg11)
          ∧ r.2.mem ((c.tc : Thread Cert.ReferenceIdeal.nD Cert.ReferenceIdeal.τ).loc Cert.ReferenceIdeal.main_arg12) = m' ((c.tc : Thread Cert.ReferenceIdeal.nD Cert.ReferenceIdeal.τ).loc Cert.ReferenceIdeal.main_arg12)
          ∧ r.2.mem ((c.tc : Thread Cert.ReferenceIdeal.nD Cert.ReferenceIdeal.τ).loc Cert.ReferenceIdeal.main_arg13) = m' ((c.tc : Thread Cert.ReferenceIdeal.nD Cert.ReferenceIdeal.τ).loc Cert.ReferenceIdeal.main_arg13))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S2500x128 : Shape := ⟨2, ![2500, 128]⟩
abbrev S20000x500 : Shape := ⟨2, ![20000, 500]⟩
abbrev S640000 : Shape := ⟨1, ![640000]⟩
abbrev S128x128 : Shape := ⟨2, ![128, 128]⟩
abbrev S500x128 : Shape := ⟨2, ![500, 128]⟩
abbrev S128 : Shape := ⟨1, ![128]⟩
abbrev S128x16 : Shape := ⟨2, ![128, 16]⟩
abbrev S16 : Shape := ⟨1, ![16]⟩
abbrev S_ : Shape := ⟨0, ![]⟩

class Facts : Prop where
  bcast_S_S2500x128 : S_.BroadcastsInDim S2500x128 (![] : Fin 0 → Fin S2500x128.rank)
  reducesTo_S2500x128_S_d0_1 : S2500x128.ReducesTo [0, 1] S_
  h_S_ : 0 < S_.numel
  bcast_S_S20000x500 : S_.BroadcastsInDim S20000x500 (![] : Fin 0 → Fin S20000x500.rank)
  reducesTo_S20000x500_S_d0_1 : S20000x500.ReducesTo [0, 1] S_
  bcast_S_S128x128 : S_.BroadcastsInDim S128x128 (![] : Fin 0 → Fin S128x128.rank)
  reducesTo_S128x128_S_d0_1 : S128x128.ReducesTo [0, 1] S_
  bcast_S_S500x128 : S_.BroadcastsInDim S500x128 (![] : Fin 0 → Fin S500x128.rank)
  reducesTo_S500x128_S_d0_1 : S500x128.ReducesTo [0, 1] S_
  bcast_S_S128 : S_.BroadcastsInDim S128 (![] : Fin 0 → Fin S128.rank)
  reducesTo_S128_S_d0 : S128.ReducesTo [0] S_
  bcast_S_S128x16 : S_.BroadcastsInDim S128x16 (![] : Fin 0 → Fin S128x16.rank)
  reducesTo_S128x16_S_d0_1 : S128x16.ReducesTo [0, 1] S_
  bcast_S_S16 : S_.BroadcastsInDim S16 (![] : Fin 0 → Fin S16.rank)
  reducesTo_S16_S_d0 : S16.ReducesTo [0] S_
  bcast_S_S640000 : S_.BroadcastsInDim S640000 (![] : Fin 0 → Fin S640000.rank)
  reducesTo_S640000_S_d0 : S640000.ReducesTo [0] S_

variable [Facts]

def fn_part4 {F : FTy → Type} [FloatOps F] (main_arg3 : IVec S640000 32) (main_v66 : IVec S_ 1) (main_c_26 : IVec S_ 32) : IVec S_ 1 :=
  let main_v67 : IVec S640000 32 := broadcastInDim S640000 ![] bcast_S_S640000 main_c_26
  let main_v68 : IVec S640000 1 := cmpi .sge main_arg3 main_v67
  let main_c_27 : IVec S_ 1 := constantI S_ 1 1#1
  let main_v69 : IVec S_ 1 := (fun x v => Host.reduce IntOp.andi x v reducesTo_S640000_S_d0 h_S_) main_v68 main_c_27
  let main_v70 : IVec S_ 1 := andi main_v66 main_v69
  main_v70

def fn_part3 {F : FTy → Type} [FloatOps F] (main_arg2 : IVec S640000 32) (main_arg3 : IVec S640000 32) (main_arg13 : FVec F S16 .f32) (main_v48 : IVec S_ 1) (main_v49 : FVec F S128x16 .f32) (main_v50 : FVec F S128x16 .f32) : IVec S_ 1 :=
  let main_v51 : IVec S128x16 1 := cmpf .olt main_v49 main_v50
  let main_c_19 : IVec S_ 1 := constantI S_ 1 1#1
  let main_v52 : IVec S_ 1 := (fun x v => Host.reduce IntOp.andi x v reducesTo_S128x16_S_d0_1 h_S_) main_v51 main_c_19
  let main_v53 : IVec S_ 1 := andi main_v48 main_v52
  let main_v54 : FVec F S16 .f32 := Host.absf main_arg13
  let main_cst_20 : FVec F S_ .f32 := constant S_ .f32 0x7F800000#32
  let main_v55 : FVec F S16 .f32 := broadcastInDim S16 ![] bcast_S_S16 main_cst_20
  let main_v56 : IVec S16 1 := cmpf .olt main_v54 main_v55
  let main_c_21 : IVec S_ 1 := constantI S_ 1 1#1
  let main_v57 : IVec S_ 1 := (fun x v => Host.reduce IntOp.andi x v reducesTo_S16_S_d0 h_S_) main_v56 main_c_21
  let main_v58 : IVec S_ 1 := andi main_v53 main_v57
  let main_c_22 : IVec S_ 32 := constantI S_ 32 4294964796#32
  let main_v59 : IVec S640000 32 := broadcastInDim S640000 ![] bcast_S_S640000 main_c_22
  let main_v60 : IVec S640000 1 := cmpi .sge main_arg2 main_v59
  let main_c_23 : IVec S_ 1 := constantI S_ 1 1#1
  let main_v61 : IVec S_ 1 := (fun x v => Host.reduce IntOp.andi x v reducesTo_S640000_S_d0 h_S_) main_v60 main_c_23
  let main_v62 : IVec S_ 1 := andi main_v58 main_v61
  let main_c_24 : IVec S_ 32 := constantI S_ 32 2500#32
  let main_v63 : IVec S640000 32 := broadcastInDim S640000 ![] bcast_S_S640000 main_c_24
  let main_v64 : IVec S640000 1 := cmpi .slt main_arg2 main_v63
  let main_c_25 : IVec S_ 1 := constantI S_ 1 1#1
  let main_v65 : IVec S_ 1 := (fun x v => Host.reduce IntOp.andi x v reducesTo_S640000_S_d0 h_S_) main_v64 main_c_25
  let main_v66 : IVec S_ 1 := andi main_v62 main_v65
  let main_c_26 : IVec S_ 32 := constantI S_ 32 0#32
  fn_part4 (F := F) main_arg3 main_v66 main_c_26

def fn_part2 {F : FTy → Type} [FloatOps F] (main_arg2 : IVec S640000 32) (main_arg3 : IVec S640000 32) (main_arg9 : FVec F S128 .f32) (main_arg10 : FVec F S128x128 .f32) (main_arg11 : FVec F S128 .f32) (main_arg12 : FVec F S128x16 .f32) (main_arg13 : FVec F S16 .f32) (main_v33 : IVec S_ 1) : IVec S_ 1 :=
  let main_v34 : FVec F S128 .f32 := Host.absf main_arg9
  let main_cst_12 : FVec F S_ .f32 := constant S_ .f32 0x7F800000#32
  let main_v35 : FVec F S128 .f32 := broadcastInDim S128 ![] bcast_S_S128 main_cst_12
  let main_v36 : IVec S128 1 := cmpf .olt main_v34 main_v35
  let main_c_13 : IVec S_ 1 := constantI S_ 1 1#1
  let main_v37 : IVec S_ 1 := (fun x v => Host.reduce IntOp.andi x v reducesTo_S128_S_d0 h_S_) main_v36 main_c_13
  let main_v38 : IVec S_ 1 := andi main_v33 main_v37
  let main_v39 : FVec F S128x128 .f32 := Host.absf main_arg10
  let main_cst_14 : FVec F S_ .f32 := constant S_ .f32 0x7F800000#32
  let main_v40 : FVec F S128x128 .f32 := broadcastInDim S128x128 ![] bcast_S_S128x128 main_cst_14
  let main_v41 : IVec S128x128 1 := cmpf .olt main_v39 main_v40
  let main_c_15 : IVec S_ 1 := constantI S_ 1 1#1
  let main_v42 : IVec S_ 1 := (fun x v => Host.reduce IntOp.andi x v reducesTo_S128x128_S_d0_1 h_S_) main_v41 main_c_15
  let main_v43 : IVec S_ 1 := andi main_v38 main_v42
  let main_v44 : FVec F S128 .f32 := Host.absf main_arg11
  let main_cst_16 : FVec F S_ .f32 := constant S_ .f32 0x7F800000#32
  let main_v45 : FVec F S128 .f32 := broadcastInDim S128 ![] bcast_S_S128 main_cst_16
  let main_v46 : IVec S128 1 := cmpf .olt main_v44 main_v45
  let main_c_17 : IVec S_ 1 := constantI S_ 1 1#1
  let main_v47 : IVec S_ 1 := (fun x v => Host.reduce IntOp.andi x v reducesTo_S128_S_d0 h_S_) main_v46 main_c_17
  let main_v48 : IVec S_ 1 := andi main_v43 main_v47
  let main_v49 : FVec F S128x16 .f32 := Host.absf main_arg12
  let main_cst_18 : FVec F S_ .f32 := constant S_ .f32 0x7F800000#32
  let main_v50 : FVec F S128x16 .f32 := broadcastInDim S128x16 ![] bcast_S_S128x16 main_cst_18
  fn_part3 (F := F) main_arg2 main_arg3 main_arg13 main_v48 main_v49 main_v50

def fn_part1 {F : FTy → Type} [FloatOps F] (main_arg2 : IVec S640000 32) (main_arg3 : IVec S640000 32) (main_arg6 : FVec F S128 .f32) (main_arg7 : FVec F S128x128 .f32) (main_arg8 : FVec F S128x128 .f32) (main_arg9 : FVec F S128 .f32) (main_arg10 : FVec F S128x128 .f32) (main_arg11 : FVec F S128 .f32) (main_arg12 : FVec F S128x16 .f32) (main_arg13 : FVec F S16 .f32) (main_v13 : IVec S_ 1) (main_v16 : IVec S500x128 1) : IVec S_ 1 :=
  let main_c_5 : IVec S_ 1 := constantI S_ 1 1#1
  let main_v17 : IVec S_ 1 := (fun x v => Host.reduce IntOp.andi x v reducesTo_S500x128_S_d0_1 h_S_) main_v16 main_c_5
  let main_v18 : IVec S_ 1 := andi main_v13 main_v17
  let main_v19 : FVec F S128 .f32 := Host.absf main_arg6
  let main_cst_6 : FVec F S_ .f32 := constant S_ .f32 0x7F800000#32
  let main_v20 : FVec F S128 .f32 := broadcastInDim S128 ![] bcast_S_S128 main_cst_6
  let main_v21 : IVec S128 1 := cmpf .olt main_v19 main_v20
  let main_c_7 : IVec S_ 1 := constantI S_ 1 1#1
  let main_v22 : IVec S_ 1 := (fun x v => Host.reduce IntOp.andi x v reducesTo_S128_S_d0 h_S_) main_v21 main_c_7
  let main_v23 : IVec S_ 1 := andi main_v18 main_v22
  let main_v24 : FVec F S128x128 .f32 := Host.absf main_arg7
  let main_cst_8 : FVec F S_ .f32 := constant S_ .f32 0x7F800000#32
  let main_v25 : FVec F S128x128 .f32 := broadcastInDim S128x128 ![] bcast_S_S128x128 main_cst_8
  let main_v26 : IVec S128x128 1 := cmpf .olt main_v24 main_v25
  let main_c_9 : IVec S_ 1 := constantI S_ 1 1#1
  let main_v27 : IVec S_ 1 := (fun x v => Host.reduce IntOp.andi x v reducesTo_S128x128_S_d0_1 h_S_) main_v26 main_c_9
  let main_v28 : IVec S_ 1 := andi main_v23 main_v27
  let main_v29 : FVec F S128x128 .f32 := Host.absf main_arg8
  let main_cst_10 : FVec F S_ .f32 := constant S_ .f32 0x7F800000#32
  let main_v30 : FVec F S128x128 .f32 := broadcastInDim S128x128 ![] bcast_S_S128x128 main_cst_10
  let main_v31 : IVec S128x128 1 := cmpf .olt main_v29 main_v30
  let main_c_11 : IVec S_ 1 := constantI S_ 1 1#1
  let main_v32 : IVec S_ 1 := (fun x v => Host.reduce IntOp.andi x v reducesTo_S128x128_S_d0_1 h_S_) main_v31 main_c_11
  let main_v33 : IVec S_ 1 := andi main_v28 main_v32
  fn_part2 (F := F) main_arg2 main_arg3 main_arg9 main_arg10 main_arg11 main_arg12 main_arg13 main_v33

def fn {F : FTy → Type} [FloatOps F] (main_arg0 : FVec F S2500x128 .f32) (main_arg1 : FVec F S20000x500 .f32) (main_arg2 : IVec S640000 32) (main_arg3 : IVec S640000 32) (main_arg4 : FVec F S128x128 .f32) (main_arg5 : FVec F S500x128 .f32) (main_arg6 : FVec F S128 .f32) (main_arg7 : FVec F S128x128 .f32) (main_arg8 : FVec F S128x128 .f32) (main_arg9 : FVec F S128 .f32) (main_arg10 : FVec F S128x128 .f32) (main_arg11 : FVec F S128 .f32) (main_arg12 : FVec F S128x16 .f32) (main_arg13 : FVec F S16 .f32) : IVec S_ 1 :=
  let main_v0 : FVec F S2500x128 .f32 := Host.absf main_arg0
  let main_cst : FVec F S_ .f32 := constant S_ .f32 0x7F800000#32
  let main_v1 : FVec F S2500x128 .f32 := broadcastInDim S2500x128 ![] bcast_S_S2500x128 main_cst
  let main_v2 : IVec S2500x128 1 := cmpf .olt main_v0 main_v1
  let main_c : IVec S_ 1 := constantI S_ 1 1#1
  let main_v3 : IVec S_ 1 := (fun x v => Host.reduce IntOp.andi x v reducesTo_S2500x128_S_d0_1 h_S_) main_v2 main_c
  let main_v4 : FVec F S20000x500 .f32 := Host.absf main_arg1
  let main_cst_0 : FVec F S_ .f32 := constant S_ .f32 0x7F800000#32
  let main_v5 : FVec F S20000x500 .f32 := broadcastInDim S20000x500 ![] bcast_S_S20000x500 main_cst_0
  let main_v6 : IVec S20000x500 1 := cmpf .olt main_v4 main_v5
  let main_c_1 : IVec S_ 1 := constantI S_ 1 1#1
  let main_v7 : IVec S_ 1 := (fun x v => Host.reduce IntOp.andi x v reducesTo_S20000x500_S_d0_1 h_S_) main_v6 main_c_1
  let main_v8 : IVec S_ 1 := andi main_v3 main_v7
  let main_v9 : FVec F S128x128 .f32 := Host.absf main_arg4
  let main_cst_2 : FVec F S_ .f32 := constant S_ .f32 0x7F800000#32
  let main_v10 : FVec F S128x128 .f32 := broadcastInDim S128x128 ![] bcast_S_S128x128 main_cst_2
  let main_v11 : IVec S128x128 1 := cmpf .olt main_v9 main_v10
  let main_c_3 : IVec S_ 1 := constantI S_ 1 1#1
  let main_v12 : IVec S_ 1 := (fun x v => Host.reduce IntOp.andi x v reducesTo_S128x128_S_d0_1 h_S_) main_v11 main_c_3
  let main_v13 : IVec S_ 1 := andi main_v8 main_v12
  let main_v14 : FVec F S500x128 .f32 := Host.absf main_arg5
  let main_cst_4 : FVec F S_ .f32 := constant S_ .f32 0x7F800000#32
  let main_v15 : FVec F S500x128 .f32 := broadcastInDim S500x128 ![] bcast_S_S500x128 main_cst_4
  let main_v16 : IVec S500x128 1 := cmpf .olt main_v14 main_v15
  fn_part1 (F := F) main_arg2 main_arg3 main_arg6 main_arg7 main_arg8 main_arg9 main_arg10 main_arg11 main_arg12 main_arg13 main_v13 main_v16
-- ==== Kernel.lean ====
abbrev S2500x128 : Shape := ⟨2, ![2500, 128]⟩
abbrev S20000x500 : Shape := ⟨2, ![20000, 500]⟩
abbrev S640000 : Shape := ⟨1, ![640000]⟩
abbrev S128x128 : Shape := ⟨2, ![128, 128]⟩
abbrev S500x128 : Shape := ⟨2, ![500, 128]⟩
abbrev S128 : Shape := ⟨1, ![128]⟩
abbrev S128x16 : Shape := ⟨2, ![128, 16]⟩
abbrev S16 : Shape := ⟨1, ![16]⟩
abbrev S_ : Shape := ⟨0, ![]⟩
abbrev S20000x2500 : Shape := ⟨2, ![20000, 2500]⟩
abbrev S640000x1 : Shape := ⟨2, ![640000, 1]⟩
abbrev S640000x2 : Shape := ⟨2, ![640000, 2]⟩
abbrev S20000 : Shape := ⟨1, ![20000]⟩
abbrev S20000x1 : Shape := ⟨2, ![20000, 1]⟩
abbrev S1x128 : Shape := ⟨2, ![1, 128]⟩
abbrev S1x16 : Shape := ⟨2, ![1, 16]⟩
abbrev S20000x16 : Shape := ⟨2, ![20000, 16]⟩
abbrev S1000x2500 : Shape := ⟨2, ![1000, 2500]⟩
abbrev S1000x1 : Shape := ⟨2, ![1000, 1]⟩
abbrev S1000x500 : Shape := ⟨2, ![1000, 500]⟩
abbrev S1000x16 : Shape := ⟨2, ![1000, 16]⟩
abbrev S1000x128 : Shape := ⟨2, ![1000, 128]⟩

abbrev nBuf : Space → Nat
  | .hbm => 59
  | .vmem => 19
  | .smem => 0
  | _ => 0

abbrev bufTy : (tb : Table) → Fin (tcTables nBuf tb) → BufTy
  | .hbm, ⟨0, _⟩ => ⟨S2500x128, .f32⟩
  | .hbm, ⟨1, _⟩ => ⟨S20000x500, .f32⟩
  | .hbm, ⟨2, _⟩ => ⟨S640000, .i32⟩
  | .hbm, ⟨3, _⟩ => ⟨S640000, .i32⟩
  | .hbm, ⟨4, _⟩ => ⟨S128x128, .f32⟩
  | .hbm, ⟨5, _⟩ => ⟨S500x128, .f32⟩
  | .hbm, ⟨6, _⟩ => ⟨S128, .f32⟩
  | .hbm, ⟨7, _⟩ => ⟨S128x128, .f32⟩
  | .hbm, ⟨8, _⟩ => ⟨S128x128, .f32⟩
  | .hbm, ⟨9, _⟩ => ⟨S128, .f32⟩
  | .hbm, ⟨10, _⟩ => ⟨S128x128, .f32⟩
  | .hbm, ⟨11, _⟩ => ⟨S128, .f32⟩
  | .hbm, ⟨12, _⟩ => ⟨S128x16, .f32⟩
  | .hbm, ⟨13, _⟩ => ⟨S16, .f32⟩
  | .hbm, ⟨14, _⟩ => ⟨S_, .f32⟩
  | .hbm, ⟨15, _⟩ => ⟨S20000x2500, .f32⟩
  | .hbm, ⟨16, _⟩ => ⟨S_, .i32⟩
  | .hbm, ⟨17, _⟩ => ⟨S640000, .i32⟩
  | .hbm, ⟨18, _⟩ => ⟨S640000, .i1⟩
  | .hbm, ⟨19, _⟩ => ⟨S_, .i32⟩
  | .hbm, ⟨20, _⟩ => ⟨S640000, .i32⟩
  | .hbm, ⟨21, _⟩ => ⟨S640000, .i32⟩
  | .hbm, ⟨22, _⟩ => ⟨S640000, .i32⟩
  | .hbm, ⟨23, _⟩ => ⟨S_, .i32⟩
  | .hbm, ⟨24, _⟩ => ⟨S640000, .i32⟩
  | .hbm, ⟨25, _⟩ => ⟨S640000, .i1⟩
  | .hbm, ⟨26, _⟩ => ⟨S_, .i32⟩
  | .hbm, ⟨27, _⟩ => ⟨S640000, .i32⟩
  | .hbm, ⟨28, _⟩ => ⟨S640000, .i32⟩
  | .hbm, ⟨29, _⟩ => ⟨S640000, .i32⟩
  | .hbm, ⟨30, _⟩ => ⟨S640000x1, .i32⟩
  | .hbm, ⟨31, _⟩ => ⟨S640000x1, .i32⟩
  | .hbm, ⟨32, _⟩ => ⟨S640000x2, .i32⟩
  | .hbm, ⟨33, _⟩ => ⟨S_, .f32⟩
  | .hbm, ⟨34, _⟩ => ⟨S640000, .f32⟩
  | .hbm, ⟨35, _⟩ => ⟨S20000x2500, .f32⟩
  | .hbm, ⟨36, _⟩ => ⟨S_, .f32⟩
  | .hbm, ⟨37, _⟩ => ⟨S20000, .f32⟩
  | .hbm, ⟨38, _⟩ => ⟨S20000x1, .f32⟩
  | .hbm, ⟨39, _⟩ => ⟨S_, .f32⟩
  | .hbm, ⟨40, _⟩ => ⟨S20000x1, .f32⟩
  | .hbm, ⟨41, _⟩ => ⟨S20000x1, .f32⟩
  | .hbm, ⟨42, _⟩ => ⟨S_, .f32⟩
  | .hbm, ⟨43, _⟩ => ⟨S20000x1, .f32⟩
  | .hbm, ⟨44, _⟩ => ⟨S20000x1, .f32⟩
  | .hbm, ⟨45, _⟩ => ⟨S20000x2500, .bf16⟩
  | .hbm, ⟨46, _⟩ => ⟨S2500x128, .bf16⟩
  | .hbm, ⟨47, _⟩ => ⟨S20000x500, .bf16⟩
  | .hbm, ⟨48, _⟩ => ⟨S500x128, .bf16⟩
  | .hbm, ⟨49, _⟩ => ⟨S128x128, .bf16⟩
  | .hbm, ⟨50, _⟩ => ⟨S128x128, .bf16⟩
  | .hbm, ⟨51, _⟩ => ⟨S128x128, .bf16⟩
  | .hbm, ⟨52, _⟩ => ⟨S128x128, .bf16⟩
  | .hbm, ⟨53, _⟩ => ⟨S128x16, .bf16⟩
  | .hbm, ⟨54, _⟩ => ⟨S1x128, .f32⟩
  | .hbm, ⟨55, _⟩ => ⟨S1x128, .f32⟩
  | .hbm, ⟨56, _⟩ => ⟨S1x128, .f32⟩
  | .hbm, ⟨57, _⟩ => ⟨S1x16, .f32⟩
  | .hbm, ⟨58, _⟩ => ⟨S20000x16, .f32⟩
  | .local _ .vmem, ⟨0, _⟩ => ⟨S1000x2500, .bf16⟩
  | .local _ .vmem, ⟨1, _⟩ => ⟨S1000x2500, .bf16⟩
  | .local _ .vmem, ⟨2, _⟩ => ⟨S1000x1, .f32⟩
  | .local _ .vmem, ⟨3, _⟩ => ⟨S1000x1, .f32⟩
  | .local _ .vmem, ⟨4, _⟩ => ⟨S1000x500, .bf16⟩
  | .local _ .vmem, ⟨5, _⟩ => ⟨S1000x500, .bf16⟩
  | .local _ .vmem, ⟨6, _⟩ => ⟨S2500x128, .bf16⟩
  | .local _ .vmem, ⟨7, _⟩ => ⟨S500x128, .bf16⟩
  | .local _ .vmem, ⟨8, _⟩ => ⟨S128x128, .bf16⟩
  | .local _ .vmem, ⟨9, _⟩ => ⟨S1x128, .f32⟩
  | .local _ .vmem, ⟨10, _⟩ => ⟨S128x128, .bf16⟩
  | .local _ .vmem, ⟨11, _⟩ => ⟨S128x128, .bf16⟩
  | .local _ .vmem, ⟨12, _⟩ => ⟨S1x128, .f32⟩
  | .local _ .vmem, ⟨13, _⟩ => ⟨S128x128, .bf16⟩
  | .local _ .vmem, ⟨14, _⟩ => ⟨S1x128, .f32⟩
  | .local _ .vmem, ⟨15, _⟩ => ⟨S128x16, .bf16⟩
  | .local _ .vmem, ⟨16, _⟩ => ⟨S1x16, .f32⟩
  | .local _ .vmem, ⟨17, _⟩ => ⟨S1000x16, .f32⟩
  | .local _ .vmem, ⟨18, _⟩ => ⟨S1000x16, .f32⟩
  | _, _ => ⟨S2500x128, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | _, _ => false

abbrev semScoped : Fin 0 → Bool
  | ⟨_, h⟩ => absurd h (Nat.not_lt_zero _)

abbrev dmaSemScoped : Fin 19 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | _ => false

abbrev sig : RefSig :=
  ofTc nBuf bufTy 0 19 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_arg11 : Ref sig .tc := ⟨.hbm, 11, rfl⟩
abbrev main_arg12 : Ref sig .tc := ⟨.hbm, 12, rfl⟩
abbrev main_arg13 : Ref sig .tc := ⟨.hbm, 13, rfl⟩
abbrev main_cst : Ref sig .tc := ⟨.hbm, 14, rfl⟩
abbrev main_v0 : Ref sig .tc := ⟨.hbm, 15, rfl⟩
abbrev main_c : Ref sig .tc := ⟨.hbm, 16, rfl⟩
abbrev main_v1 : Ref sig .tc := ⟨.hbm, 17, rfl⟩
abbrev main_v2 : Ref sig .tc := ⟨.hbm, 18, rfl⟩
abbrev main_c_0 : Ref sig .tc := ⟨.hbm, 19, rfl⟩
abbrev main_v3 : Ref sig .tc := ⟨.hbm, 20, rfl⟩
abbrev main_v4 : Ref sig .tc := ⟨.hbm, 21, rfl⟩
abbrev main_v5 : Ref sig .tc := ⟨.hbm, 22, rfl⟩
abbrev main_c_1 : Ref sig .tc := ⟨.hbm, 23, rfl⟩
abbrev main_v6 : Ref sig .tc := ⟨.hbm, 24, rfl⟩
abbrev main_v7 : Ref sig .tc := ⟨.hbm, 25, rfl⟩
abbrev main_c_2 : Ref sig .tc := ⟨.hbm, 26, rfl⟩
abbrev main_v8 : Ref sig .tc := ⟨.hbm, 27, rfl⟩
abbrev main_v9 : Ref sig .tc := ⟨.hbm, 28, rfl⟩
abbrev main_v10 : Ref sig .tc := ⟨.hbm, 29, rfl⟩
abbrev main_v11 : Ref sig .tc := ⟨.hbm, 30, rfl⟩
abbrev main_v12 : Ref sig .tc := ⟨.hbm, 31, rfl⟩
abbrev main_v13 : Ref sig .tc := ⟨.hbm, 32, rfl⟩
abbrev main_cst_3 : Ref sig .tc := ⟨.hbm, 33, rfl⟩
abbrev main_v14 : Ref sig .tc := ⟨.hbm, 34, rfl⟩
abbrev main_v15 : Ref sig .tc := ⟨.hbm, 35, rfl⟩
abbrev main_cst_4 : Ref sig .tc := ⟨.hbm, 36, rfl⟩
abbrev main_v16 : Ref sig .tc := ⟨.hbm, 37, rfl⟩
abbrev main_v17 : Ref sig .tc := ⟨.hbm, 38, rfl⟩
abbrev main_cst_5 : Ref sig .tc := ⟨.hbm, 39, rfl⟩
abbrev main_v18 : Ref sig .tc := ⟨.hbm, 40, rfl⟩
abbrev main_v19 : Ref sig .tc := ⟨.hbm, 41, rfl⟩
abbrev main_cst_6 : Ref sig .tc := ⟨.hbm, 42, rfl⟩
abbrev main_v20 : Ref sig .tc := ⟨.hbm, 43, rfl⟩
abbrev main_v21 : Ref sig .tc := ⟨.hbm, 44, rfl⟩
abbrev main_v22 : Ref sig .tc := ⟨.hbm, 45, rfl⟩
abbrev main_v23 : Ref sig .tc := ⟨.hbm, 46, rfl⟩
abbrev main_v24 : Ref sig .tc := ⟨.hbm, 47, rfl⟩
abbrev main_v25 : Ref sig .tc := ⟨.hbm, 48, rfl⟩
abbrev main_v26 : Ref sig .tc := ⟨.hbm, 49, rfl⟩
abbrev main_v27 : Ref sig .tc := ⟨.hbm, 50, rfl⟩
abbrev main_v28 : Ref sig .tc := ⟨.hbm, 51, rfl⟩
abbrev main_v29 : Ref sig .tc := ⟨.hbm, 52, rfl⟩
abbrev main_v30 : Ref sig .tc := ⟨.hbm, 53, rfl⟩
abbrev main_v31 : Ref sig .tc := ⟨.hbm, 54, rfl⟩
abbrev main_v32 : Ref sig .tc := ⟨.hbm, 55, rfl⟩
abbrev main_v33 : Ref sig .tc := ⟨.hbm, 56, rfl⟩
abbrev main_v34 : Ref sig .tc := ⟨.hbm, 57, rfl⟩
abbrev main_v35 : Ref sig .tc := ⟨.hbm, 58, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg4_0 : Ref sig .tc := ⟨.vmem, 7, rfl⟩
abbrev cc0_stg5_0 : Ref sig .tc := ⟨.vmem, 8, rfl⟩
abbrev cc0_stg6_0 : Ref sig .tc := ⟨.vmem, 9, rfl⟩
abbrev cc0_stg7_0 : Ref sig .tc := ⟨.vmem, 10, rfl⟩
abbrev cc0_stg8_0 : Ref sig .tc := ⟨.vmem, 11, rfl⟩
abbrev cc0_stg9_0 : Ref sig .tc := ⟨.vmem, 12, rfl⟩
abbrev cc0_stg10_0 : Ref sig .tc := ⟨.vmem, 13, rfl⟩
abbrev cc0_stg11_0 : Ref sig .tc := ⟨.vmem, 14, rfl⟩
abbrev cc0_stg12_0 : Ref sig .tc := ⟨.vmem, 15, rfl⟩
abbrev cc0_stg13_0 : Ref sig .tc := ⟨.vmem, 16, rfl⟩
abbrev cc0_stg14_0 : Ref sig .tc := ⟨.vmem, 17, rfl⟩
abbrev cc0_stg14_1 : Ref sig .tc := ⟨.vmem, 18, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem4_0 : DmaSem sig := 7
abbrev cc0_sem5_0 : DmaSem sig := 8
abbrev cc0_sem6_0 : DmaSem sig := 9
abbrev cc0_sem7_0 : DmaSem sig := 10
abbrev cc0_sem8_0 : DmaSem sig := 11
abbrev cc0_sem9_0 : DmaSem sig := 12
abbrev cc0_sem10_0 : DmaSem sig := 13
abbrev cc0_sem11_0 : DmaSem sig := 14
abbrev cc0_sem12_0 : DmaSem sig := 15
abbrev cc0_sem13_0 : DmaSem sig := 16
abbrev cc0_sem14_0 : DmaSem sig := 17
abbrev cc0_sem14_1 : DmaSem sig := 18

abbrev nD : Nat := 1
abbrev τ : Topo := Topo.v7x

variable {F : FTy → Type} [FloatOps F]

abbrev grid0 : Pipeline.Grid := ⟨1, ![20], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_6 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_7 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_8 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_9 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_10 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_11 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_12 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_13 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_14 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S1000x2500 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S1000x1 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S1000x500 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 1 → Memref sig .tc .vmem S2500x128 .bf16 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 1 → Memref sig .tc .vmem S500x128 .bf16 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 1 → Memref sig .tc .vmem S128x128 .bf16 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false]

abbrev stage0_6 : Fin 1 → Memref sig .tc .vmem S1x128 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![false]

abbrev stage0_7 : Fin 1 → Memref sig .tc .vmem S128x128 .bf16 := fun | 0 => Memref.whole cc0_stg7_0 | ⟨_ + 1, h⟩ => absurd h (Nat.not_lt.2 (Nat.le_add_left _ _))
abbrev sem0_7 : Fin 1 → DmaSem sig := fun | 0 => cc0_sem7_0 | ⟨_ + 1, h⟩ => absurd h (Nat.not_lt.2 (Nat.le_add_left _ _))
abbrev reads0_7 : Fin grid0.rank → Bool := ![false]

abbrev stage0_8 : Fin 1 → Memref sig .tc .vmem S128x128 .bf16 := fun | 0 => Memref.whole cc0_stg8_0 | ⟨_ + 1, h⟩ => absurd h (Nat.not_lt.2 (Nat.le_add_left _ _))
abbrev sem0_8 : Fin 1 → DmaSem sig := fun | 0 => cc0_sem8_0 | ⟨_ + 1, h⟩ => absurd h (Nat.not_lt.2 (Nat.le_add_left _ _))
abbrev reads0_8 : Fin grid0.rank → Bool := ![false]

abbrev stage0_9 : Fin 1 → Memref sig .tc .vmem S1x128 .f32 := fun | 0 => Memref.whole cc0_stg9_0 | ⟨_ + 1, h⟩ => absurd h (Nat.not_lt.2 (Nat.le_add_left _ _))
abbrev sem0_9 : Fin 1 → DmaSem sig := fun | 0 => cc0_sem9_0 | ⟨_ + 1, h⟩ => absurd h (Nat.not_lt.2 (Nat.le_add_left _ _))
abbrev reads0_9 : Fin grid0.rank → Bool := ![false]

abbrev stage0_10 : Fin 1 → Memref sig .tc .vmem S128x128 .bf16 := fun | 0 => Memref.whole cc0_stg10_0 | ⟨_ + 1, h⟩ => absurd h (Nat.not_lt.2 (Nat.le_add_left _ _))
abbrev sem0_10 : Fin 1 → DmaSem sig := fun | 0 => cc0_sem10_0 | ⟨_ + 1, h⟩ => absurd h (Nat.not_lt.2 (Nat.le_add_left _ _))
abbrev reads0_10 : Fin grid0.rank → Bool := ![false]

abbrev stage0_11 : Fin 1 → Memref sig .tc .vmem S1x128 .f32 := fun | 0 => Memref.whole cc0_stg11_0 | ⟨_ + 1, h⟩ => absurd h (Nat.not_lt.2 (Nat.le_add_left _ _))
abbrev sem0_11 : Fin 1 → DmaSem sig := fun | 0 => cc0_sem11_0 | ⟨_ + 1, h⟩ => absurd h (Nat.not_lt.2 (Nat.le_add_left _ _))
abbrev reads0_11 : Fin grid0.rank → Bool := ![false]

abbrev stage0_12 : Fin 1 → Memref sig .tc .vmem S128x16 .bf16 := fun | 0 => Memref.whole cc0_stg12_0 | ⟨_ + 1, h⟩ => absurd h (Nat.not_lt.2 (Nat.le_add_left _ _))
abbrev sem0_12 : Fin 1 → DmaSem sig := fun | 0 => cc0_sem12_0 | ⟨_ + 1, h⟩ => absurd h (Nat.not_lt.2 (Nat.le_add_left _ _))
abbrev reads0_12 : Fin grid0.rank → Bool := ![false]

abbrev stage0_13 : Fin 1 → Memref sig .tc .vmem S1x16 .f32 := fun | 0 => Memref.whole cc0_stg13_0 | ⟨_ + 1, h⟩ => absurd h (Nat.not_lt.2 (Nat.le_add_left _ _))
abbrev sem0_13 : Fin 1 → DmaSem sig := fun | 0 => cc0_sem13_0 | ⟨_ + 1, h⟩ => absurd h (Nat.not_lt.2 (Nat.le_add_left _ _))
abbrev reads0_13 : Fin grid0.rank → Bool := ![false]

abbrev stage0_14 : Fin 2 → Memref sig .tc .vmem S1000x16 .f32 := fun | 0 => Memref.whole cc0_stg14_0 | 1 => Memref.whole cc0_stg14_1 | ⟨_ + 2, h⟩ => absurd h (Nat.not_lt.2 (Nat.le_add_left _ _))
abbrev sem0_14 : Fin 2 → DmaSem sig := fun | 0 => cc0_sem14_0 | 1 => cc0_sem14_1 | ⟨_ + 2, h⟩ => absurd h (Nat.not_lt.2 (Nat.le_add_left _ _))
abbrev reads0_14 : Fin grid0.rank → Bool := ![true]

class Facts₀ : Prop where
  bcast_S_S20000x2500 : S_.BroadcastsInDim S20000x2500 (![] : Fin 0 → Fin S20000x2500.rank)
  bcast_S_S640000 : S_.BroadcastsInDim S640000 (![] : Fin 0 → Fin S640000.rank)
  bcast_S640000_S640000x1_0 : S640000.BroadcastsInDim S640000x1 (![0] : Fin 1 → Fin S640000x1.rank)
  concatenates_S640000x1_S640000x1_S640000x2_d1 : Shape.Concatenates [S640000x1, S640000x1] S640000x2 1
  reducesTo_S20000x2500_S20000_d1 : S20000x2500.ReducesTo [1] S20000
  h_S_ : 0 < S_.numel
  bcast_S20000_S20000x1_0 : S20000.BroadcastsInDim S20000x1 (![0] : Fin 1 → Fin S20000x1.rank)
  bcast_S_S20000x1 : S_.BroadcastsInDim S20000x1 (![] : Fin 0 → Fin S20000x1.rank)
  bitsLt_bf16_f32 : FTy.bits .bf16 < FTy.bits .f32
  shapeCasts_S128_S1x128 : S128.ShapeCasts S1x128
  shapeCasts_S16_S1x16 : S16.ShapeCasts S1x16
  inb_S1000x2500_S1000x2500_0_0 : ∀ a, (![0, 0] : Fin 2 → Nat) a + S1000x2500.size a ≤ S1000x2500.size a
  h_S1000x2500 : 0 < S1000x2500.numel
  shapeCasts_S1000x2500_S1000x2500 : S1000x2500.ShapeCasts S1000x2500
  inb_S2500x128_S2500x128_0_0 : ∀ a, (![0, 0] : Fin 2 → Nat) a + S2500x128.size a ≤ S2500x128.size a
  h_S2500x128 : 0 < S2500x128.numel
  shapeCasts_S2500x128_S2500x128 : S2500x128.ShapeCasts S2500x128
  inb_S1000x1_S1000x1_0_0 : ∀ a, (![0, 0] : Fin 2 → Nat) a + S1000x1.size a ≤ S1000x1.size a
  h_S1000x1 : 0 < S1000x1.numel
  shapeCasts_S1000x1_S1000x1 : S1000x1.ShapeCasts S1000x1
  broadcasts_S1000x1_S1000x128 : S1000x1.Broadcasts S1000x128
  inb_S1000x500_S1000x500_0_0 : ∀ a, (![0, 0] : Fin 2 → Nat) a + S1000x500.size a ≤ S1000x500.size a
  h_S1000x500 : 0 < S1000x500.numel
  shapeCasts_S1000x500_S1000x500 : S1000x500.ShapeCasts S1000x500
  inb_S500x128_S500x128_0_0 : ∀ a, (![0, 0] : Fin 2 → Nat) a + S500x128.size a ≤ S500x128.size a
  h_S500x128 : 0 < S500x128.numel
  shapeCasts_S500x128_S500x128 : S500x128.ShapeCasts S500x128
  inb_S128x128_S128x128_0_0 : ∀ a, (![0, 0] : Fin 2 → Nat) a + S128x128.size a ≤ S128x128.size a
  h_S128x128 : 0 < S128x128.numel
  shapeCasts_S128x128_S128x128 : S128x128.ShapeCasts S128x128
  inb_S1x128_S1x128_0_0 : ∀ a, (![0, 0] : Fin 2 → Nat) a + S1x128.size a ≤ S1x128.size a
  h_S1x128 : 0 < S1x128.numel
  shapeCasts_S1x128_S1x128 : S1x128.ShapeCasts S1x128
  broadcasts_S1x128_S1000x128 : S1x128.Broadcasts S1000x128
  inb_S128x16_S128x16_0_0 : ∀ a, (![0, 0] : Fin 2 → Nat) a + S128x16.size a ≤ S128x16.size a
  h_S128x16 : 0 < S128x16.numel
  shapeCasts_S128x16_S128x16 : S128x16.ShapeCasts S128x16
  inb_S1x16_S1x16_0_0 : ∀ a, (![0, 0] : Fin 2 → Nat) a + S1x16.size a ≤ S1x16.size a
  h_S1x16 : 0 < S1x16.numel
  shapeCasts_S1x16_S1x16 : S1x16.ShapeCasts S1x16
  broadcasts_S1x16_S1000x16 : S1x16.Broadcasts S1000x16
  inb_S1000x16_S1000x16_0_0 : ∀ a, (![0, 0] : Fin 2 → Nat) a + S1000x16.size a ≤ S1000x16.size a
  h_S1000x16 : 0 < S1000x16.numel
  scatter_S20000x2500_S640000x2_S640000_n_01_01_1_wf : ScatterDims.WF S20000x2500 S640000x2 S640000 [] [0, 1] [0, 1] 1
  dot_S1000x2500_S2500x128_S1000x128_1_0_0_1_n_n_wf : DotDims.WF S1000x2500 S2500x128 S1000x128 [1] [0] [0] [1] [] []
  dot_S1000x500_S500x128_S1000x128_1_0_0_1_n_n_wf : DotDims.WF S1000x500 S500x128 S1000x128 [1] [0] [0] [1] [] []
  dot_S1000x128_S128x128_S1000x128_1_0_0_1_n_n_wf : DotDims.WF S1000x128 S128x128 S1000x128 [1] [0] [0] [1] [] []
  dot_S1000x128_S128x16_S1000x16_1_0_0_1_n_n_wf : DotDims.WF S1000x128 S128x16 S1000x16 [1] [0] [0] [1] [] []
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S1000x2500.size a ≤ S20000x2500.size a
  hwx0_0 : ∀ i : grid0.Coords, EltTy.bits .bf16 = 32 ∨ (Rect.block (s := S20000x2500) S1000x2500.size (cc0_transform_0 i) (hinb0_0 i)).WholeWords (EltTy.packing .bf16)
  hstage0_1 : ∀ j, (stage0_1 j).IsWhole
  nbuf0_1 : grid0.bufCount reads0_1 false = 2
  hreads0_1 : ∀ i i' : grid0.Coords, (∀ a, reads0_1 a = true → i a = i' a) → cc0_transform_1 i = cc0_transform_1 i'
  hinb0_1 : ∀ (i : grid0.Coords) a, (cc0_transform_1 i a + 1) * S1000x1.size a ≤ S20000x1.size a
  hwx0_1 : ∀ i : grid0.Coords, EltTy.bits .f32 = 32 ∨ (Rect.block (s := S20000x1) S1000x1.size (cc0_transform_1 i) (hinb0_1 i)).WholeWords (EltTy.packing .f32)
  hstage0_2 : ∀ j, (stage0_2 j).IsWhole
  nbuf0_2 : grid0.bufCount reads0_2 false = 2
  hreads0_2 : ∀ i i' : grid0.Coords, (∀ a, reads0_2 a = true → i a = i' a) → cc0_transform_2 i = cc0_transform_2 i'
  hinb0_2 : ∀ (i : grid0.Coords) a, (cc0_transform_2 i a + 1) * S1000x500.size a ≤ S20000x500.size a
  hwx0_2 : ∀ i : grid0.Coords, EltTy.bits .bf16 = 32 ∨ (Rect.block (s := S20000x500) S1000x500.size (cc0_transform_2 i) (hinb0_2 i)).WholeWords (EltTy.packing .bf16)
  hstage0_3 : ∀ j, (stage0_3 j).IsWhole
  nbuf0_3 : grid0.bufCount reads0_3 true = 1
  hreads0_3 : ∀ i i' : grid0.Coords, (∀ a, reads0_3 a = true → i a = i' a) → cc0_transform_3 i = cc0_transform_3 i'
  hinb0_3 : ∀ (i : grid0.Coords) a, (cc0_transform_3 i a + 1) * S2500x128.size a ≤ S2500x128.size a
  hwx0_3 : ∀ i : grid0.Coords, EltTy.bits .bf16 = 32 ∨ (Rect.block (s := S2500x128) S2500x128.size (cc0_transform_3 i) (hinb0_3 i)).WholeWords (EltTy.packing .bf16)
  hstage0_4 : ∀ j, (stage0_4 j).IsWhole
  nbuf0_4 : grid0.bufCount reads0_4 true = 1
  hreads0_4 : ∀ i i' : grid0.Coords, (∀ a, reads0_4 a = true → i a = i' a) → cc0_transform_4 i = cc0_transform_4 i'
  hinb0_4 : ∀ (i : grid0.Coords) a, (cc0_transform_4 i a + 1) * S500x128.size a ≤ S500x128.size a
  hwx0_4 : ∀ i : grid0.Coords, EltTy.bits .bf16 = 32 ∨ (Rect.block (s := S500x128) S500x128.size (cc0_transform_4 i) (hinb0_4 i)).WholeWords (EltTy.packing .bf16)
  hstage0_5 : ∀ j, (stage0_5 j).IsWhole
  nbuf0_5 : grid0.bufCount reads0_5 true = 1
  hreads0_5 : ∀ i i' : grid0.Coords, (∀ a, reads0_5 a = true → i a = i' a) → cc0_transform_5 i = cc0_transform_5 i'
  hinb0_5 : ∀ (i : grid0.Coords) a, (cc0_transform_5 i a + 1) * S128x128.size a ≤ S128x128.size a
  hwx0_5 : ∀ i : grid0.Coords, EltTy.bits .bf16 = 32 ∨ (Rect.block (s := S128x128) S128x128.size (cc0_transform_5 i) (hinb0_5 i)).WholeWords (EltTy.packing .bf16)
  hstage0_6 : ∀ j, (stage0_6 j).IsWhole
  nbuf0_6 : grid0.bufCount reads0_6 true = 1
  hreads0_6 : ∀ i i' : grid0.Coords, (∀ a, reads0_6 a = true → i a = i' a) → cc0_transform_6 i = cc0_transform_6 i'
  hinb0_6 : ∀ (i : grid0.Coords) a, (cc0_transform_6 i a + 1) * S1x128.size a ≤ S1x128.size a
  hwx0_6 : ∀ i : grid0.Coords, EltTy.bits .f32 = 32 ∨ (Rect.block (s := S1x128) S1x128.size (cc0_transform_6 i) (hinb0_6 i)).WholeWords (EltTy.packing .f32)
  hstage0_7 : ∀ j, (stage0_7 j).IsWhole
  nbuf0_7 : grid0.bufCount reads0_7 true = 1
  hreads0_7 : ∀ i i' : grid0.Coords, (∀ a, reads0_7 a = true → i a = i' a) → cc0_transform_7 i = cc0_transform_7 i'
  hinb0_7 : ∀ (i : grid0.Coords) a, (cc0_transform_7 i a + 1) * S128x128.size a ≤ S128x128.size a
  hwx0_7 : ∀ i : grid0.Coords, EltTy.bits .bf16 = 32 ∨ (Rect.block (s := S128x128) S128x128.size (cc0_transform_7 i) (hinb0_7 i)).WholeWords (EltTy.packing .bf16)
  hstage0_8 : ∀ j, (stage0_8 j).IsWhole
  nbuf0_8 : grid0.bufCount reads0_8 true = 1
  hreads0_8 : ∀ i i' : grid0.Coords, (∀ a, reads0_8 a = true → i a = i' a) → cc0_transform_8 i = cc0_transform_8 i'
  hinb0_8 : ∀ (i : grid0.Coords) a, (cc0_transform_8 i a + 1) * S128x128.size a ≤ S128x128.size a
  hwx0_8 : ∀ i : grid0.Coords, EltTy.bits .bf16 = 32 ∨ (Rect.block (s := S128x128) S128x128.size (cc0_transform_8 i) (hinb0_8 i)).WholeWords (EltTy.packing .bf16)
  hstage0_9 : ∀ j, (stage0_9 j).IsWhole
  nbuf0_9 : grid0.bufCount reads0_9 true = 1
  hreads0_9 : ∀ i i' : grid0.Coords, (∀ a, reads0_9 a = true → i a = i' a) → cc0_transform_9 i = cc0_transform_9 i'
  hinb0_9 : ∀ (i : grid0.Coords) a, (cc0_transform_9 i a + 1) * S1x128.size a ≤ S1x128.size a
  hwx0_9 : ∀ i : grid0.Coords, EltTy.bits .f32 = 32 ∨ (Rect.block (s := S1x128) S1x128.size (cc0_transform_9 i) (hinb0_9 i)).WholeWords (EltTy.packing .f32)
  hstage0_10 : ∀ j, (stage0_10 j).IsWhole
  nbuf0_10 : grid0.bufCount reads0_10 true = 1
  hreads0_10 : ∀ i i' : grid0.Coords, (∀ a, reads0_10 a = true → i a = i' a) → cc0_transform_10 i = cc0_transform_10 i'
  hinb0_10 : ∀ (i : grid0.Coords) a, (cc0_transform_10 i a + 1) * S128x128.size a ≤ S128x128.size a
  hwx0_10 : ∀ i : grid0.Coords, EltTy.bits .bf16 = 32 ∨ (Rect.block (s := S128x128) S128x128.size (cc0_transform_10 i) (hinb0_10 i)).WholeWords (EltTy.packing .bf16)
  hstage0_11 : ∀ j, (stage0_11 j).IsWhole
  nbuf0_11 : grid0.bufCount reads0_11 true = 1
  hreads0_11 : ∀ i i' : grid0.Coords, (∀ a, reads0_11 a = true → i a = i' a) → cc0_transform_11 i = cc0_transform_11 i'
  hinb0_11 : ∀ (i : grid0.Coords) a, (cc0_transform_11 i a + 1) * S1x128.size a ≤ S1x128.size a
  hwx0_11 : ∀ i : grid0.Coords, EltTy.bits .f32 = 32 ∨ (Rect.block (s := S1x128) S1x128.size (cc0_transform_11 i) (hinb0_11 i)).WholeWords (EltTy.packing .f32)
  hstage0_12 : ∀ j, (stage0_12 j).IsWhole
  nbuf0_12 : grid0.bufCount reads0_12 true = 1
  hreads0_12 : ∀ i i' : grid0.Coords, (∀ a, reads0_12 a = true → i a = i' a) → cc0_transform_12 i = cc0_transform_12 i'
  hinb0_12 : ∀ (i : grid0.Coords) a, (cc0_transform_12 i a + 1) * S128x16.size a ≤ S128x16.size a
  hwx0_12 : ∀ i : grid0.Coords, EltTy.bits .bf16 = 32 ∨ (Rect.block (s := S128x16) S128x16.size (cc0_transform_12 i) (hinb0_12 i)).WholeWords (EltTy.packing .bf16)
  hstage0_13 : ∀ j, (stage0_13 j).IsWhole
  nbuf0_13 : grid0.bufCount reads0_13 true = 1
  hreads0_13 : ∀ i i' : grid0.Coords, (∀ a, reads0_13 a = true → i a = i' a) → cc0_transform_13 i = cc0_transform_13 i'
  hinb0_13 : ∀ (i : grid0.Coords) a, (cc0_transform_13 i a + 1) * S1x16.size a ≤ S1x16.size a
  hwx0_13 : ∀ i : grid0.Coords, EltTy.bits .f32 = 32 ∨ (Rect.block (s := S1x16) S1x16.size (cc0_transform_13 i) (hinb0_13 i)).WholeWords (EltTy.packing .f32)
  hstage0_14 : ∀ j, (stage0_14 j).IsWhole
  nbuf0_14 : grid0.bufCount reads0_14 false = 2
  hreads0_14 : ∀ i i' : grid0.Coords, (∀ a, reads0_14 a = true → i a = i' a) → cc0_transform_14 i = cc0_transform_14 i'
  hinb0_14 : ∀ (i : grid0.Coords) a, (cc0_transform_14 i a + 1) * S1000x16.size a ≤ S20000x16.size a
  hwx0_14 : ∀ i : grid0.Coords, EltTy.bits .f32 = 32 ∨ (Rect.block (s := S20000x16) S1000x16.size (cc0_transform_14 i) (hinb0_14 i)).WholeWords (EltTy.packing .f32)

variable [Facts₀]

def scatter_S20000x2500_S640000x2_S640000_n_01_01_1 : ScatterDims S20000x2500 S640000x2 S640000 where
  updateWindowDims := []
  insertedWindowDims := [0, 1]
  scatterDimsToOperandDims := [0, 1]
  indexVectorDim := 1
  wf := scatter_S20000x2500_S640000x2_S640000_n_01_01_1_wf
def dot_S1000x2500_S2500x128_S1000x128_1_0_0_1_n_n : DotDims S1000x2500 S2500x128 S1000x128 where
  lhsContracting := [1]
  rhsContracting := [0]
  lhsNonContracting := [0]
  rhsNonContracting := [1]
  lhsBatch := []
  rhsBatch := []
  wf := dot_S1000x2500_S2500x128_S1000x128_1_0_0_1_n_n_wf
def dot_S1000x500_S500x128_S1000x128_1_0_0_1_n_n : DotDims S1000x500 S500x128 S1000x128 where
  lhsContracting := [1]
  rhsContracting := [0]
  lhsNonContracting := [0]
  rhsNonContracting := [1]
  lhsBatch := []
  rhsBatch := []
  wf := dot_S1000x500_S500x128_S1000x128_1_0_0_1_n_n_wf
def dot_S1000x128_S128x128_S1000x128_1_0_0_1_n_n : DotDims S1000x128 S128x128 S1000x128 where
  lhsContracting := [1]
  rhsContracting := [0]
  lhsNonContracting := [0]
  rhsNonContracting := [1]
  lhsBatch := []
  rhsBatch := []
  wf := dot_S1000x128_S128x128_S1000x128_1_0_0_1_n_n_wf
def dot_S1000x128_S128x16_S1000x16_1_0_0_1_n_n : DotDims S1000x128 S128x16 S1000x16 where
  lhsContracting := [1]
  rhsContracting := [0]
  lhsNonContracting := [0]
  rhsNonContracting := [1]
  lhsBatch := []
  rhsBatch := []
  wf := dot_S1000x128_S128x16_S1000x16_1_0_0_1_n_n_wf

abbrev win0_0 : Pipeline.Window sig grid0 :=
  Pipeline.Window.ofSpec (Memref.whole main_v22) S1000x2500.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_v21) S1000x1.size cc0_transform_1 reads0_1 false false 2 stage0_1 sem0_1
    hrank0 hreads0_1 hinb0_1 nbuf0_1 (Memref.isWhole_whole _) hwx0_1 hstage0_1

abbrev win0_2 : Pipeline.Window sig grid0 :=
  Pipeline.Window.ofSpec (Memref.whole main_v24) S1000x500.size cc0_transform_2 reads0_2 false false 2 stage0_2 sem0_2
    hrank0 hreads0_2 hinb0_2 nbuf0_2 (Memref.isWhole_whole _) hwx0_2 hstage0_2

abbrev win0_3 : Pipeline.Window sig grid0 :=
  Pipeline.Window.ofSpec (Memref.whole main_v23) S2500x128.size cc0_transform_3 reads0_3 false true 1 stage0_3 sem0_3
    hrank0 hreads0_3 hinb0_3 nbuf0_3 (Memref.isWhole_whole _) hwx0_3 hstage0_3

abbrev win0_4 : Pipeline.Window sig grid0 :=
  Pipeline.Window.ofSpec (Memref.whole main_v25) S500x128.size cc0_transform_4 reads0_4 false true 1 stage0_4 sem0_4
    hrank0 hreads0_4 hinb0_4 nbuf0_4 (Memref.isWhole_whole _) hwx0_4 hstage0_4

abbrev win0_5 : Pipeline.Window sig grid0 :=
  Pipeline.Window.ofSpec (Memref.whole main_v26) S128x128.size cc0_transform_5 reads0_5 false true 1 stage0_5 sem0_5
    hrank0 hreads0_5 hinb0_5 nbuf0_5 (Memref.isWhole_whole _) hwx0_5 hstage0_5

abbrev win0_6 : Pipeline.Window sig grid0 :=
  Pipeline.Window.ofSpec (Memref.whole main_v31) S1x128.size cc0_transform_6 reads0_6 false true 1 stage0_6 sem0_6
    hrank0 hreads0_6 hinb0_6 nbuf0_6 (Memref.isWhole_whole _) hwx0_6 hstage0_6

abbrev win0_7 : Pipeline.Window sig grid0 :=
  Pipeline.Window.ofSpec (Memref.whole main_v27) S128x128.size cc0_transform_7 reads0_7 false true 1 stage0_7 sem0_7
    hrank0 hreads0_7 hinb0_7 nbuf0_7 (Memref.isWhole_whole _) hwx0_7 hstage0_7

abbrev win0_8 : Pipeline.Window sig grid0 :=
  Pipeline.Window.ofSpec (Memref.whole main_v28) S128x128.size cc0_transform_8 reads0_8 false true 1 stage0_8 sem0_8
    hrank0 hreads0_8 hinb0_8 nbuf0_8 (Memref.isWhole_whole _) hwx0_8 hstage0_8

abbrev win0_9 : Pipeline.Window sig grid0 :=
  Pipeline.Window.ofSpec (Memref.whole main_v32) S1x128.size cc0_transform_9 reads0_9 false true 1 stage0_9 sem0_9
    hrank0 hreads0_9 hinb0_9 nbuf0_9 (Memref.isWhole_whole _) hwx0_9 hstage0_9

abbrev win0_10 : Pipeline.Window sig grid0 :=
  Pipeline.Window.ofSpec (Memref.whole main_v29) S128x128.size cc0_transform_10 reads0_10 false true 1 stage0_10 sem0_10
    hrank0 hreads0_10 hinb0_10 nbuf0_10 (Memref.isWhole_whole _) hwx0_10 hstage0_10

abbrev win0_11 : Pipeline.Window sig grid0 :=
  Pipeline.Window.ofSpec (Memref.whole main_v33) S1x128.size cc0_transform_11 reads0_11 false true 1 stage0_11 sem0_11
    hrank0 hreads0_11 hinb0_11 nbuf0_11 (Memref.isWhole_whole _) hwx0_11 hstage0_11

abbrev win0_12 : Pipeline.Window sig grid0 :=
  Pipeline.Window.ofSpec (Memref.whole main_v30) S128x16.size cc0_transform_12 reads0_12 false true 1 stage0_12 sem0_12
    hrank0 hreads0_12 hinb0_12 nbuf0_12 (Memref.isWhole_whole _) hwx0_12 hstage0_12

abbrev win0_13 : Pipeline.Window sig grid0 :=
  Pipeline.Window.ofSpec (Memref.whole main_v34) S1x16.size cc0_transform_13 reads0_13 false true 1 stage0_13 sem0_13
    hrank0 hreads0_13 hinb0_13 nbuf0_13 (Memref.isWhole_whole _) hwx0_13 hstage0_13

abbrev win0_14 : Pipeline.Window sig grid0 :=
  Pipeline.Window.ofSpec (Memref.whole main_v35) S1000x16.size cc0_transform_14 reads0_14 true false 2 stage0_14 sem0_14
    hrank0 hreads0_14 hinb0_14 nbuf0_14 (Memref.isWhole_whole _) hwx0_14 hstage0_14

abbrev win0 : Fin 15 → Pipeline.Window sig grid0 := fun | 0 => win0_0 | 1 => win0_1 | 2 => win0_2 | 3 => win0_3 | 4 => win0_4 | 5 => win0_5 | 6 => win0_6 | 7 => win0_7 | 8 => win0_8 | 9 => win0_9 | 10 => win0_10 | 11 => win0_11 | 12 => win0_12 | 13 => win0_13 | 14 => win0_14 | ⟨_ + 15, h⟩ => absurd h (Nat.not_lt.2 (Nat.le_add_left _ _))
abbrev spec0 : Fin 15 → Pipeline.WinSpec sig grid0.rank := fun w => (win0 w).toWinSpec

class Facts : Prop extends Facts₀ where

variable [Facts]
-- ==== ReferenceIdeal.lean ====
abbrev S2500x128 : Shape := ⟨2, ![2500, 128]⟩
abbrev S20000x500 : Shape := ⟨2, ![20000, 500]⟩
abbrev S640000 : Shape := ⟨1, ![640000]⟩
abbrev S128x128 : Shape := ⟨2, ![128, 128]⟩
abbrev S500x128 : Shape := ⟨2, ![500, 128]⟩
abbrev S128 : Shape := ⟨1, ![128]⟩
abbrev S128x16 : Shape := ⟨2, ![128, 16]⟩
abbrev S16 : Shape := ⟨1, ![16]⟩
abbrev S_ : Shape := ⟨0, ![]⟩
abbrev S640000x1 : Shape := ⟨2, ![640000, 1]⟩
abbrev S640000x128 : Shape := ⟨2, ![640000, 128]⟩
abbrev S20000x128 : Shape := ⟨2, ![20000, 128]⟩
abbrev S20000 : Shape := ⟨1, ![20000]⟩
abbrev S20000x1 : Shape := ⟨2, ![20000, 1]⟩
abbrev S1x128 : Shape := ⟨2, ![1, 128]⟩
abbrev S20000x16 : Shape := ⟨2, ![20000, 16]⟩
abbrev S1x16 : Shape := ⟨2, ![1, 16]⟩

abbrev nBuf : Space → Nat
  | .hbm => 68
  | .vmem => 0
  | .smem => 0
  | _ => 0

abbrev bufTy : (tb : Table) → Fin (tcTables nBuf tb) → BufTy
  | .hbm, ⟨0, _⟩ => ⟨S2500x128, .f32⟩
  | .hbm, ⟨1, _⟩ => ⟨S20000x500, .f32⟩
  | .hbm, ⟨2, _⟩ => ⟨S640000, .i32⟩
  | .hbm, ⟨3, _⟩ => ⟨S640000, .i32⟩
  | .hbm, ⟨4, _⟩ => ⟨S128x128, .f32⟩
  | .hbm, ⟨5, _⟩ => ⟨S500x128, .f32⟩
  | .hbm, ⟨6, _⟩ => ⟨S128, .f32⟩
  | .hbm, ⟨7, _⟩ => ⟨S128x128, .f32⟩
  | .hbm, ⟨8, _⟩ => ⟨S128x128, .f32⟩
  | .hbm, ⟨9, _⟩ => ⟨S128, .f32⟩
  | .hbm, ⟨10, _⟩ => ⟨S128x128, .f32⟩
  | .hbm, ⟨11, _⟩ => ⟨S128, .f32⟩
  | .hbm, ⟨12, _⟩ => ⟨S128x16, .f32⟩
  | .hbm, ⟨13, _⟩ => ⟨S16, .f32⟩
  | .hbm, ⟨14, _⟩ => ⟨S_, .i32⟩
  | .hbm, ⟨15, _⟩ => ⟨S640000, .i32⟩
  | .hbm, ⟨16, _⟩ => ⟨S640000, .i1⟩
  | .hbm, ⟨17, _⟩ => ⟨S_, .i32⟩
  | .hbm, ⟨18, _⟩ => ⟨S640000, .i32⟩
  | .hbm, ⟨19, _⟩ => ⟨S640000, .i32⟩
  | .hbm, ⟨20, _⟩ => ⟨S640000, .i32⟩
  | .hbm, ⟨21, _⟩ => ⟨S640000x1, .i32⟩
  | .hbm, ⟨22, _⟩ => ⟨S640000x128, .f32⟩
  | .hbm, ⟨23, _⟩ => ⟨S_, .f32⟩
  | .hbm, ⟨24, _⟩ => ⟨S20000x128, .f32⟩
  | .hbm, ⟨25, _⟩ => ⟨S640000x1, .i32⟩
  | .hbm, ⟨26, _⟩ => ⟨S20000x128, .f32⟩
  | .hbm, ⟨27, _⟩ => ⟨S_, .f32⟩
  | .hbm, ⟨28, _⟩ => ⟨S640000, .f32⟩
  | .hbm, ⟨29, _⟩ => ⟨S_, .f32⟩
  | .hbm, ⟨30, _⟩ => ⟨S20000, .f32⟩
  | .hbm, ⟨31, _⟩ => ⟨S640000x1, .i32⟩
  | .hbm, ⟨32, _⟩ => ⟨S20000, .f32⟩
  | .hbm, ⟨33, _⟩ => ⟨S_, .f32⟩
  | .hbm, ⟨34, _⟩ => ⟨S20000, .f32⟩
  | .hbm, ⟨35, _⟩ => ⟨S20000, .f32⟩
  | .hbm, ⟨36, _⟩ => ⟨S20000x1, .f32⟩
  | .hbm, ⟨37, _⟩ => ⟨S20000x128, .f32⟩
  | .hbm, ⟨38, _⟩ => ⟨S20000x128, .f32⟩
  | .hbm, ⟨39, _⟩ => ⟨S20000x128, .f32⟩
  | .hbm, ⟨40, _⟩ => ⟨S20000x128, .f32⟩
  | .hbm, ⟨41, _⟩ => ⟨S20000x128, .f32⟩
  | .hbm, ⟨42, _⟩ => ⟨S1x128, .f32⟩
  | .hbm, ⟨43, _⟩ => ⟨S20000x128, .f32⟩
  | .hbm, ⟨44, _⟩ => ⟨S20000x128, .f32⟩
  | .hbm, ⟨45, _⟩ => ⟨S_, .f32⟩
  | .hbm, ⟨46, _⟩ => ⟨S20000x128, .f32⟩
  | .hbm, ⟨47, _⟩ => ⟨S20000x128, .f32⟩
  | .hbm, ⟨48, _⟩ => ⟨S20000x128, .f32⟩
  | .hbm, ⟨49, _⟩ => ⟨S20000x128, .f32⟩
  | .hbm, ⟨50, _⟩ => ⟨S20000x128, .f32⟩
  | .hbm, ⟨51, _⟩ => ⟨S1x128, .f32⟩
  | .hbm, ⟨52, _⟩ => ⟨S20000x128, .f32⟩
  | .hbm, ⟨53, _⟩ => ⟨S20000x128, .f32⟩
  | .hbm, ⟨54, _⟩ => ⟨S_, .f32⟩
  | .hbm, ⟨55, _⟩ => ⟨S20000x128, .f32⟩
  | .hbm, ⟨56, _⟩ => ⟨S20000x128, .f32⟩
  | .hbm, ⟨57, _⟩ => ⟨S20000x128, .f32⟩
  | .hbm, ⟨58, _⟩ => ⟨S1x128, .f32⟩
  | .hbm, ⟨59, _⟩ => ⟨S20000x128, .f32⟩
  | .hbm, ⟨60, _⟩ => ⟨S20000x128, .f32⟩
  | .hbm, ⟨61, _⟩ => ⟨S_, .f32⟩
  | .hbm, ⟨62, _⟩ => ⟨S20000x128, .f32⟩
  | .hbm, ⟨63, _⟩ => ⟨S20000x128, .f32⟩
  | .hbm, ⟨64, _⟩ => ⟨S20000x16, .f32⟩
  | .hbm, ⟨65, _⟩ => ⟨S1x16, .f32⟩
  | .hbm, ⟨66, _⟩ => ⟨S20000x16, .f32⟩
  | .hbm, ⟨67, _⟩ => ⟨S20000x16, .f32⟩
  | _, _ => ⟨S2500x128, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_arg11 : Ref sig .tc := ⟨.hbm, 11, rfl⟩
abbrev main_arg12 : Ref sig .tc := ⟨.hbm, 12, rfl⟩
abbrev main_arg13 : Ref sig .tc := ⟨.hbm, 13, rfl⟩
abbrev main_c : Ref sig .tc := ⟨.hbm, 14, rfl⟩
abbrev main_v0 : Ref sig .tc := ⟨.hbm, 15, rfl⟩
abbrev main_v1 : Ref sig .tc := ⟨.hbm, 16, rfl⟩
abbrev main_c_0 : Ref sig .tc := ⟨.hbm, 17, rfl⟩
abbrev main_v2 : Ref sig .tc := ⟨.hbm, 18, rfl⟩
abbrev main_v3 : Ref sig .tc := ⟨.hbm, 19, rfl⟩
abbrev main_v4 : Ref sig .tc := ⟨.hbm, 20, rfl⟩
abbrev main_v5 : Ref sig .tc := ⟨.hbm, 21, rfl⟩
abbrev main_v6 : Ref sig .tc := ⟨.hbm, 22, rfl⟩
abbrev main_cst : Ref sig .tc := ⟨.hbm, 23, rfl⟩
abbrev main_v7 : Ref sig .tc := ⟨.hbm, 24, rfl⟩
abbrev main_v8 : Ref sig .tc := ⟨.hbm, 25, rfl⟩
abbrev main_v9 : Ref sig .tc := ⟨.hbm, 26, rfl⟩
abbrev main_cst_1 : Ref sig .tc := ⟨.hbm, 27, rfl⟩
abbrev main_v10 : Ref sig .tc := ⟨.hbm, 28, rfl⟩
abbrev main_cst_2 : Ref sig .tc := ⟨.hbm, 29, rfl⟩
abbrev main_v11 : Ref sig .tc := ⟨.hbm, 30, rfl⟩
abbrev main_v12 : Ref sig .tc := ⟨.hbm, 31, rfl⟩
abbrev main_v13 : Ref sig .tc := ⟨.hbm, 32, rfl⟩
abbrev main_cst_3 : Ref sig .tc := ⟨.hbm, 33, rfl⟩
abbrev main_v14 : Ref sig .tc := ⟨.hbm, 34, rfl⟩
abbrev main_v15 : Ref sig .tc := ⟨.hbm, 35, rfl⟩
abbrev main_v16 : Ref sig .tc := ⟨.hbm, 36, rfl⟩
abbrev main_v17 : Ref sig .tc := ⟨.hbm, 37, rfl⟩
abbrev main_v18 : Ref sig .tc := ⟨.hbm, 38, rfl⟩
abbrev main_v19 : Ref sig .tc := ⟨.hbm, 39, rfl⟩
abbrev main_v20 : Ref sig .tc := ⟨.hbm, 40, rfl⟩
abbrev main_v21 : Ref sig .tc := ⟨.hbm, 41, rfl⟩
abbrev main_v22 : Ref sig .tc := ⟨.hbm, 42, rfl⟩
abbrev main_v23 : Ref sig .tc := ⟨.hbm, 43, rfl⟩
abbrev main_v24 : Ref sig .tc := ⟨.hbm, 44, rfl⟩
abbrev main_call0_cst : Ref sig .tc := ⟨.hbm, 45, rfl⟩
abbrev main_call0_v0 : Ref sig .tc := ⟨.hbm, 46, rfl⟩
abbrev main_v25 : Ref sig .tc := ⟨.hbm, 47, rfl⟩
abbrev main_v26 : Ref sig .tc := ⟨.hbm, 48, rfl⟩
abbrev main_v27 : Ref sig .tc := ⟨.hbm, 49, rfl⟩
abbrev main_v28 : Ref sig .tc := ⟨.hbm, 50, rfl⟩
abbrev main_v29 : Ref sig .tc := ⟨.hbm, 51, rfl⟩
abbrev main_v30 : Ref sig .tc := ⟨.hbm, 52, rfl⟩
abbrev main_v31 : Ref sig .tc := ⟨.hbm, 53, rfl⟩
abbrev main_call1_cst : Ref sig .tc := ⟨.hbm, 54, rfl⟩
abbrev main_call1_v0 : Ref sig .tc := ⟨.hbm, 55, rfl⟩
abbrev main_v32 : Ref sig .tc := ⟨.hbm, 56, rfl⟩
abbrev main_v33 : Ref sig .tc := ⟨.hbm, 57, rfl⟩
abbrev main_v34 : Ref sig .tc := ⟨.hbm, 58, rfl⟩
abbrev main_v35 : Ref sig .tc := ⟨.hbm, 59, rfl⟩
abbrev main_v36 : Ref sig .tc := ⟨.hbm, 60, rfl⟩
abbrev main_call2_cst : Ref sig .tc := ⟨.hbm, 61, rfl⟩
abbrev main_call2_v0 : Ref sig .tc := ⟨.hbm, 62, rfl⟩
abbrev main_v37 : Ref sig .tc := ⟨.hbm, 63, rfl⟩
abbrev main_v38 : Ref sig .tc := ⟨.hbm, 64, rfl⟩
abbrev main_v39 : Ref sig .tc := ⟨.hbm, 65, rfl⟩
abbrev main_v40 : Ref sig .tc := ⟨.hbm, 66, rfl⟩
abbrev main_v41 : Ref sig .tc := ⟨.hbm, 67, rfl⟩

abbrev nD : Nat := 1
abbrev τ : Topo := Topo.v7x

variable {F : FTy → Type} [FloatOps F]

class Facts₀ : Prop where
  bcast_S_S640000 : S_.BroadcastsInDim S640000 (![] : Fin 0 → Fin S640000.rank)
  bcast_S640000_S640000x1_0 : S640000.BroadcastsInDim S640000x1 (![0] : Fin 1 → Fin S640000x1.rank)
  bcast_S_S20000x128 : S_.BroadcastsInDim S20000x128 (![] : Fin 0 → Fin S20000x128.rank)
  bcast_S_S20000 : S_.BroadcastsInDim S20000 (![] : Fin 0 → Fin S20000.rank)
  bcast_S20000_S20000x1_0 : S20000.BroadcastsInDim S20000x1 (![0] : Fin 1 → Fin S20000x1.rank)
  bcast_S20000x1_S20000x128_0_1 : S20000x1.BroadcastsInDim S20000x128 (![0, 1] : Fin 2 → Fin S20000x128.rank)
  bcast_S128_S1x128_1 : S128.BroadcastsInDim S1x128 (![1] : Fin 1 → Fin S1x128.rank)
  bcast_S1x128_S20000x128_0_1 : S1x128.BroadcastsInDim S20000x128 (![0, 1] : Fin 2 → Fin S20000x128.rank)
  bcast_S16_S1x16_1 : S16.BroadcastsInDim S1x16 (![1] : Fin 1 → Fin S1x16.rank)
  bcast_S1x16_S20000x16_0_1 : S1x16.BroadcastsInDim S20000x16 (![0, 1] : Fin 2 → Fin S20000x16.rank)
  gather_S2500x128_S640000x1_S640000x128_1_0_n_n_0_1_1128_wf : GatherDims.WF S2500x128 S640000x1 S640000x128 [1] [0] [] [0] [] 1 ![1, 128]
  scatter_S20000x128_S640000x1_S640000x128_1_0_0_1_wf : ScatterDims.WF S20000x128 S640000x1 S640000x128 [1] [0] [0] 1
  scatter_S20000_S640000x1_S640000_n_0_0_1_wf : ScatterDims.WF S20000 S640000x1 S640000 [] [0] [0] 1
  dot_S20000x500_S500x128_S20000x128_1_0_0_1_n_n_wf : DotDims.WF S20000x500 S500x128 S20000x128 [1] [0] [0] [1] [] []
  dot_S20000x128_S128x128_S20000x128_1_0_0_1_n_n_wf : DotDims.WF S20000x128 S128x128 S20000x128 [1] [0] [0] [1] [] []
  dot_S20000x128_S128x16_S20000x16_1_0_0_1_n_n_wf : DotDims.WF S20000x128 S128x16 S20000x16 [1] [0] [0] [1] [] []

variable [Facts₀]

def gather_S2500x128_S640000x1_S640000x128_1_0_n_n_0_1_1128 : GatherDims S2500x128 S640000x1 S640000x128 where
  offsetDims := [1]
  collapsedSliceDims := [0]
  operandBatchingDims := []
  startIndicesBatchingDims := []
  startIndexMap := [0]
  indexVectorDim := 1
  sliceSizes := ![1, 128]
  wf := gather_S2500x128_S640000x1_S640000x128_1_0_n_n_0_1_1128_wf
def scatter_S20000x128_S640000x1_S640000x128_1_0_0_1 : ScatterDims S20000x128 S640000x1 S640000x128 where
  updateWindowDims := [1]
  insertedWindowDims := [0]
  scatterDimsToOperandDims := [0]
  indexVectorDim := 1
  wf := scatter_S20000x128_S640000x1_S640000x128_1_0_0_1_wf
def scatter_S20000_S640000x1_S640000_n_0_0_1 : ScatterDims S20000 S640000x1 S640000 where
  updateWindowDims := []
  insertedWindowDims := [0]
  scatterDimsToOperandDims := [0]
  indexVectorDim := 1
  wf := scatter_S20000_S640000x1_S640000_n_0_0_1_wf
def dot_S20000x500_S500x128_S20000x128_1_0_0_1_n_n : DotDims S20000x500 S500x128 S20000x128 where
  lhsContracting := [1]
  rhsContracting := [0]
  lhsNonContracting := [0]
  rhsNonContracting := [1]
  lhsBatch := []
  rhsBatch := []
  wf := dot_S20000x500_S500x128_S20000x128_1_0_0_1_n_n_wf
def dot_S20000x128_S128x128_S20000x128_1_0_0_1_n_n : DotDims S20000x128 S128x128 S20000x128 where
  lhsContracting := [1]
  rhsContracting := [0]
  lhsNonContracting := [0]
  rhsNonContracting := [1]
  lhsBatch := []
  rhsBatch := []
  wf := dot_S20000x128_S128x128_S20000x128_1_0_0_1_n_n_wf
def dot_S20000x128_S128x16_S20000x16_1_0_0_1_n_n : DotDims S20000x128 S128x16 S20000x16 where
  lhsContracting := [1]
  rhsContracting := [0]
  lhsNonContracting := [0]
  rhsNonContracting := [1]
  lhsBatch := []
  rhsBatch := []
  wf := dot_S20000x128_S128x16_S20000x16_1_0_0_1_n_n_wf

class Facts : Prop extends Facts₀ where

variable [Facts]
-- ==== Proof.SageSpec.lean ====
/-
  The mathematics of the graph network, stated with no program in sight.

  A bipartite graph has E edges; edge e goes from source node src e (one of 2500) to destination node dst e (one of
  20000). Every destination node n takes the MEAN of the feature rows of the sources of its incoming edges (zero when
  it has none: the divisor is max(count, 1)); the mean row then feeds two neighbour-and-self layers and a two-layer
  head, all of them row by row.

  The mean is written here in two arrangements.
    * countForm: first the COUNT MATRIX A n g = number of edges e with dst e = n and src e = g, then the product
      (sum over g of A n g * x g f) times the reciprocal 1 / max(sum over g of A n g, 1).
    * edgeForm: the sum over the edges into n of x (src e) f, divided by max(number of edges into n, 1).
  They agree on ALL extended reals (countForm_eq_edgeForm): a natural number c times x is x added c times
  (EReal.nsmul_eq_mul, true at the infinities too), the edges into n are partitioned by their source, and dividing by a
  nonzero d is multiplying by its inverse. Nothing here needs the features to be finite; what is needed is that every
  source index is one of the 2500 rows, so that the partition by source loses no edge.

  Edge endpoints are integers (signed index words read as integers); an edge whose destination is no node simply
  matches no n.
-/
import Idealize.ShloMosaic.PureOps.Ideal
import Idealize.ShloMosaic.Lib.ValueIdx
import Idealize.ShloMosaic.Lib.Affine
import Mathlib.Data.EReal.Operations

noncomputable section

open scoped BigOperators

namespace Cert.Sage

open Idealize.ShloMosaic

/-! ## One dense layer on a row -/

/-- A row times a matrix: entry j of x W. -/
def lin {K N : Nat} (x : Fin K → EReal) (W : Fin K → Fin N → EReal) (j : Fin N) : EReal :=
  ∑ k : Fin K, x k * W k j

/-- The weights of the network: two neighbour-and-self layers (self weights, neighbour weights, bias) and a
    two-layer head. -/
structure Weights where
  selfW1 : Fin 500 → Fin 128 → EReal
  neighW1 : Fin 128 → Fin 128 → EReal
  bias1 : Fin 128 → EReal
  selfW2 : Fin 128 → Fin 128 → EReal
  neighW2 : Fin 128 → Fin 128 → EReal
  bias2 : Fin 128 → EReal
  headW1 : Fin 128 → Fin 128 → EReal
  headB1 : Fin 128 → EReal
  headW2 : Fin 128 → Fin 16 → EReal
  headB2 : Fin 16 → EReal

/-- First layer on one destination node: its own features x through the self weights, its aggregated neighbour row a
    through the neighbour weights, the bias, and the positive part. -/
def layer1 (w : Weights) (x : Fin 500 → EReal) (a : Fin 128 → EReal) (k : Fin 128) : EReal :=
  max (lin x w.selfW1 k + lin a w.neighW1 k + w.bias1 k) 0

/-- Second layer: the first layer's row through the self weights, the SAME aggregated row a through the neighbour
    weights. -/
def layer2 (w : Weights) (x : Fin 500 → EReal) (a : Fin 128 → EReal) (k : Fin 128) : EReal :=
  max (lin (layer1 w x a) w.selfW2 k + lin a w.neighW2 k + w.bias2 k) 0

/-- The head's hidden row. -/
def headHidden (w : Weights) (x : Fin 500 → EReal) (a : Fin 128 → EReal) (k : Fin 128) : EReal :=
  max (lin (layer2 w x a) w.headW1 k + w.headB1 k) 0

/-- The network's output row for one destination node with features x and aggregated neighbour row a. -/
def netRow (w : Weights) (x : Fin 500 → EReal) (a : Fin 128 → EReal) (j : Fin 16) : EReal :=
  lin (headHidden w x a) w.headW2 j + w.headB2 j

/-- The weights read off arrays: matrices by (row, column), biases already given by column. -/
def weightsOf (w1s : (⟨2, ![500, 128]⟩ : Shape).Idx → EReal) (w1n : (⟨2, ![128, 128]⟩ : Shape).Idx → EReal) (b1 : Fin 128 → EReal)
    (w2s w2n : (⟨2, ![128, 128]⟩ : Shape).Idx → EReal) (b2 : Fin 128 → EReal)
    (wc1 : (⟨2, ![128, 128]⟩ : Shape).Idx → EReal) (bc1 : Fin 128 → EReal)
    (wc2 : (⟨2, ![128, 16]⟩ : Shape).Idx → EReal) (bc2 : Fin 16 → EReal) : Weights where
  selfW1 d k := w1s (ValueIdx.ix2 d k)
  neighW1 f k := w1n (ValueIdx.ix2 f k)
  bias1 := b1
  selfW2 a k := w2s (ValueIdx.ix2 a k)
  neighW2 a k := w2n (ValueIdx.ix2 a k)
  bias2 := b2
  headW1 a k := wc1 (ValueIdx.ix2 a k)
  headB1 := bc1
  headW2 a j := wc2 (ValueIdx.ix2 a j)
  headB2 := bc2

/-! ## Index words -/

/-- A signed index word wrapped the NumPy way into an axis of extent N: a negative word counts from the end. -/
def wrapIdx (N w : BitVec 32) : BitVec 32 :=
  Scalar.select (IntOp.cmpi .slt w 0#32) (IntOp.addi w N) w

/-- A non-negative index word is left alone by the wrap. -/
theorem wrapIdx_of_nonneg (N w : BitVec 32) (h : 0 ≤ w.toInt) : wrapIdx N w = w := by
  unfold wrapIdx
  have hc : IntOp.cmpi .slt w 0#32 = 0#1 := ValueIdx.eq_zero_of_ne_one fun h1 => by
    have h2 := IntOp.cmpi_slt.1 h1
    have h0 : (0#32 : BitVec 32).toInt = 0 := by decide
    omega
  rw [hc, ValueIdx.select_zero]

/-! ## The mean over incoming edges, in two arrangements -/

section Mean

variable {E : Type} [Fintype E]

/-- Source row g as an integer matches the integer s. A source index outside the table is clamped into it, as a
    gather clamps: below to row 0, above to row 2499. -/
def clampSrc (s : Int) : Fin 2500 := ⟨min s.toNat 2499, by omega⟩

theorem clampSrc_eq_iff {s : Int} (h0 : 0 ≤ s) (h1 : s < 2500) (g : Fin 2500) : clampSrc s = g ↔ s = (g.val : Int) := by
  constructor
  · intro h
    have : min s.toNat 2499 = g.val := congrArg Fin.val h
    omega
  · intro h
    apply Fin.ext
    show min s.toNat 2499 = g.val
    omega

/-- The count matrix as a scatter of ones builds it: zero, plus one for every edge from g into n. -/
def adj (dst src : E → Int) (n : Fin 20000) (g : Fin 2500) : EReal :=
  0 + ∑ e ∈ Finset.univ.filter (fun e => dst e = (n.val : Int) ∧ src e = (g.val : Int)), (1 : EReal)

/-- In-degree of n read off the count matrix: zero plus the row sum. -/
def degOfAdj (dst src : E → Int) (n : Fin 20000) : EReal :=
  0 + ∑ g : Fin 2500, adj dst src n g

/-- Mean in count form: (row n of the count matrix times the feature table) times the reciprocal of max(degree, 1). -/
def countForm (dst src : E → Int) (x : Fin 2500 → Fin 128 → EReal) (n : Fin 20000) (f : Fin 128) : EReal :=
  (∑ g : Fin 2500, adj dst src n g * x g f) * Ideal.div 1 (max (degOfAdj dst src n) 1)

/-- In-degree of n counted over the edges: zero plus one per edge into n. -/
def degOfEdges (dst : E → Int) (n : Fin 20000) : EReal :=
  0 + ∑ e ∈ Finset.univ.filter (fun e => dst e = (n.val : Int)), (1 : EReal)

/-- Sum over the edges into n of the (clamped) source's feature f. -/
def edgeSum (dst src : E → Int) (x : Fin 2500 → Fin 128 → EReal) (n : Fin 20000) (f : Fin 128) : EReal :=
  0 + ∑ e ∈ Finset.univ.filter (fun e => dst e = (n.val : Int)), x (clampSrc (src e)) f

/-- Mean in edge form: the edge sum divided by max(degree, 1). -/
def edgeForm (dst src : E → Int) (x : Fin 2500 → Fin 128 → EReal) (n : Fin 20000) (f : Fin 128) : EReal :=
  Ideal.div (edgeSum dst src x n f) (max (degOfEdges dst n) 1)

variable (dst src : E → Int) (hsrc : ∀ e, 0 ≤ src e ∧ src e < 2500)
include hsrc

/-- The edges into n from g are the edges into n whose clamped source is g, when every source is a row of the table. -/
theorem filter_pair (n : Fin 20000) (g : Fin 2500) :
    Finset.univ.filter (fun e => dst e = (n.val : Int) ∧ src e = (g.val : Int))
      = (Finset.univ.filter (fun e => dst e = (n.val : Int))).filter (fun e => clampSrc (src e) = g) := by
  rw [Finset.filter_filter]
  refine Finset.filter_congr fun e _ => ?_
  rw [clampSrc_eq_iff (hsrc e).1 (hsrc e).2]

/-- Partition of the edges into n by their source: a sum over those edges is the double sum by source. -/
theorem sum_by_source (n : Fin 20000) (φ : E → EReal) :
    ∑ g : Fin 2500, ∑ e ∈ Finset.univ.filter (fun e => dst e = (n.val : Int) ∧ src e = (g.val : Int)), φ e
      = ∑ e ∈ Finset.univ.filter (fun e => dst e = (n.val : Int)), φ e := by
  simp only [filter_pair dst src hsrc n]
  exact Finset.sum_fiberwise_of_maps_to (fun _ _ => Finset.mem_univ _) φ

/-- The row sum of the count matrix is the number of edges into n. -/
theorem degOfAdj_eq (n : Fin 20000) : degOfAdj dst src n = degOfEdges dst n := by
  unfold degOfAdj degOfEdges adj
  simp only [zero_add]
  exact sum_by_source dst src hsrc n fun _ => 1

/-- Row n of the count matrix times the feature table is the sum over the edges into n of the source's features:
    c copies of x added up are c times x, at every extended real. -/
theorem adj_mul_eq (x : Fin 2500 → Fin 128 → EReal) (n : Fin 20000) (f : Fin 128) :
    ∑ g : Fin 2500, adj dst src n g * x g f = edgeSum dst src x n f := by
  unfold edgeSum adj
  rw [zero_add, ← sum_by_source dst src hsrc n fun e => x (clampSrc (src e)) f]
  refine Finset.sum_congr rfl fun g _ => ?_
  rw [zero_add, Finset.sum_const, nsmul_one, ← EReal.nsmul_eq_mul, ← Finset.sum_const]
  refine Finset.sum_congr rfl fun e he => ?_
  have hg : src e = (g.val : Int) := (Finset.mem_filter.1 he).2.2
  rw [(clampSrc_eq_iff (hsrc e).1 (hsrc e).2 g).2 hg]

/-- THE LAW: the count-matrix mean is the edge mean. -/
theorem countForm_eq_edgeForm (x : Fin 2500 → Fin 128 → EReal) (n : Fin 20000) (f : Fin 128) :
    countForm dst src x n f = edgeForm dst src x n f := by
  unfold countForm edgeForm
  rw [adj_mul_eq dst src hsrc, degOfAdj_eq dst src hsrc]
  have hd : max (degOfEdges dst n) 1 ≠ 0 :=
    (lt_of_lt_of_le zero_lt_one (le_max_right _ _)).ne'
  unfold Ideal.div
  rw [if_neg hd, if_neg hd, one_mul]

end Mean

end Cert.Sage

end
-- ==== Proof.KernelBody.lean ====
/-
  The kernel body's arithmetic on one block of 1000 destination nodes, read at one entry.

  The body multiplies the block's rows of the count matrix into the feature table, scales each row by the block's column
  of reciprocals, and runs the two neighbour-and-self layers and the head; every step is row by row, so entry (r, j) of
  the stored block is the network's output row (Cert.Sage.netRow) for the block's row r: its own features are row r of
  the block of node features, and its aggregated row is (row r of the count block times the table) times entry r of the
  reciprocal column. Changes of float format are the identity on the extended reals, a matrix product into a zero
  accumulator is the plain sum over the contracted axis, and a [1, 128] bias row broadcast down the block reads its
  column.
-/
import proofs.«429588_j78847009620691_1_alg».proof.Proof.Gen.KernelIdeal.Skeleton
import proofs.«429588_j78847009620691_1_alg».proof.Proof.SageSpec
import Idealize.ShloMosaic.Lib.ValueIdx
import Idealize.ShloMosaic.Lib.ValueLayout
import Idealize.ShloMosaic.Lib.Pipeline.Value
import Idealize.ShloMosaic.PureOps.Ideal.Laws

noncomputable section

namespace Cert.Sage

open Idealize.ShloMosaic Idealize.ShloMosaic.ValueIdx Cert.KernelIdeal Cert.KernelIdeal.Gen

/-! ## Matrix products at an entry

Each product of the body contracts axis 1 of its left operand with axis 0 of its right operand, into a zero
accumulator: entry (r, c) is the sum over the contraction position k of lhs (r, k) * rhs (k, c). One lemma per shape
of product; the four axis lemmas say which coordinate of the output index or of the contraction position each operand
axis reads. -/

/-! ### The count block times the feature table -/

/-- Axis 0 of the left operand's index is the output row. -/
private theorem lhs_agg_0 (i : S1000x128.Idx) (q : dot_S1000x2500_S2500x128_S1000x128_1_0_0_1_n_n.contr.Idx) :
    (dot_S1000x2500_S2500x128_S1000x128_1_0_0_1_n_n.lhsIdx i q 0).val = (i 0).val := by
  unfold DotDims.lhsIdx
  rw [dif_neg (show ¬(0 : Fin S1000x2500.rank) ∈ dot_S1000x2500_S2500x128_S1000x128_1_0_0_1_n_n.lhsBatch by decide), dif_pos (show (0 : Fin S1000x2500.rank) ∈ dot_S1000x2500_S2500x128_S1000x128_1_0_0_1_n_n.lhsNonContracting by decide)]
  rfl
/-- Axis 1 of the left operand's index is the contraction position. -/
private theorem lhs_agg_1 (i : S1000x128.Idx) (q : dot_S1000x2500_S2500x128_S1000x128_1_0_0_1_n_n.contr.Idx) :
    (dot_S1000x2500_S2500x128_S1000x128_1_0_0_1_n_n.lhsIdx i q 1).val = (q ⟨0, by decide⟩).val :=
  dot_S1000x2500_S2500x128_S1000x128_1_0_0_1_n_n.lhsIdx_val_of_single rfl i q
/-- Axis 0 of the right operand's index is the contraction position. -/
private theorem rhs_agg_0 (i : S1000x128.Idx) (q : dot_S1000x2500_S2500x128_S1000x128_1_0_0_1_n_n.contr.Idx) :
    (dot_S1000x2500_S2500x128_S1000x128_1_0_0_1_n_n.rhsIdx i q 0).val = (q ⟨0, by decide⟩).val :=
  dot_S1000x2500_S2500x128_S1000x128_1_0_0_1_n_n.rhsIdx_val_of_single rfl i q
/-- Axis 1 of the right operand's index is the output column. -/
private theorem rhs_agg_1 (i : S1000x128.Idx) (q : dot_S1000x2500_S2500x128_S1000x128_1_0_0_1_n_n.contr.Idx) :
    (dot_S1000x2500_S2500x128_S1000x128_1_0_0_1_n_n.rhsIdx i q 1).val = (i 1).val := by
  unfold DotDims.rhsIdx
  rw [dif_neg (show ¬(1 : Fin S2500x128.rank) ∈ dot_S1000x2500_S2500x128_S1000x128_1_0_0_1_n_n.rhsBatch by decide), dif_pos (show (1 : Fin S2500x128.rank) ∈ dot_S1000x2500_S2500x128_S1000x128_1_0_0_1_n_n.rhsNonContracting by decide)]
  rfl

/-- Into a zero accumulator, entry (r, c) of the product is the sum over k of lhs (r, k) * rhs (k, c). -/
theorem matmul_agg_at (lhs : FVec Ideal S1000x2500 .bf16) (rhs : FVec Ideal S2500x128 .bf16) (r : Fin 1000) (c : Fin 128) :
    matmul dot_S1000x2500_S2500x128_S1000x128_1_0_0_1_n_n none lhs rhs (constant (F := Ideal) S1000x128 .f32 0x00000000#32) (ix2 r c)
      = ∑ k : Fin 2500, lhs (ix2 r k) * rhs (ix2 k c) := by
  simp only [matmul]
  rw [Ideal.matmul_constant_zero_apply, ← Equiv.sum_comp (ValueIdx.contrEquiv1 dot_S1000x2500_S2500x128_S1000x128_1_0_0_1_n_n 2500 rfl rfl).symm]
  refine Finset.sum_congr rfl fun k _ => ?_
  have hk := ValueIdx.contrEquiv1_symm_val dot_S1000x2500_S2500x128_S1000x128_1_0_0_1_n_n 2500 rfl rfl k
  have el : dot_S1000x2500_S2500x128_S1000x128_1_0_0_1_n_n.lhsIdx (ix2 r c) ((ValueIdx.contrEquiv1 dot_S1000x2500_S2500x128_S1000x128_1_0_0_1_n_n 2500 rfl rfl).symm k) = ix2 r k := funext fun a => Fin.ext (by
    match a with
    | ⟨0, _⟩ => exact lhs_agg_0 _ _
    | ⟨1, _⟩ => exact (lhs_agg_1 _ _).trans hk)
  have er : dot_S1000x2500_S2500x128_S1000x128_1_0_0_1_n_n.rhsIdx (ix2 r c) ((ValueIdx.contrEquiv1 dot_S1000x2500_S2500x128_S1000x128_1_0_0_1_n_n 2500 rfl rfl).symm k) = ix2 k c := funext fun a => Fin.ext (by
    match a with
    | ⟨0, _⟩ => exact (rhs_agg_0 _ _).trans hk
    | ⟨1, _⟩ => exact rhs_agg_1 _ _)
  rw [el, er]

/-! ### The node-feature block times the first self weights -/

/-- Axis 0 of the left operand's index is the output row. -/
private theorem lhs_self1_0 (i : S1000x128.Idx) (q : dot_S1000x500_S500x128_S1000x128_1_0_0_1_n_n.contr.Idx) :
    (dot_S1000x500_S500x128_S1000x128_1_0_0_1_n_n.lhsIdx i q 0).val = (i 0).val := by
  unfold DotDims.lhsIdx
  rw [dif_neg (show ¬(0 : Fin S1000x500.rank) ∈ dot_S1000x500_S500x128_S1000x128_1_0_0_1_n_n.lhsBatch by decide), dif_pos (show (0 : Fin S1000x500.rank) ∈ dot_S1000x500_S500x128_S1000x128_1_0_0_1_n_n.lhsNonContracting by decide)]
  rfl
/-- Axis 1 of the left operand's index is the contraction position. -/
private theorem lhs_self1_1 (i : S1000x128.Idx) (q : dot_S1000x500_S500x128_S1000x128_1_0_0_1_n_n.contr.Idx) :
    (dot_S1000x500_S500x128_S1000x128_1_0_0_1_n_n.lhsIdx i q 1).val = (q ⟨0, by decide⟩).val :=
  dot_S1000x500_S500x128_S1000x128_1_0_0_1_n_n.lhsIdx_val_of_single rfl i q
/-- Axis 0 of the right operand's index is the contraction position. -/
private theorem rhs_self1_0 (i : S1000x128.Idx) (q : dot_S1000x500_S500x128_S1000x128_1_0_0_1_n_n.contr.Idx) :
    (dot_S1000x500_S500x128_S1000x128_1_0_0_1_n_n.rhsIdx i q 0).val = (q ⟨0, by decide⟩).val :=
  dot_S1000x500_S500x128_S1000x128_1_0_0_1_n_n.rhsIdx_val_of_single rfl i q
/-- Axis 1 of the right operand's index is the output column. -/
private theorem rhs_self1_1 (i : S1000x128.Idx) (q : dot_S1000x500_S500x128_S1000x128_1_0_0_1_n_n.contr.Idx) :
    (dot_S1000x500_S500x128_S1000x128_1_0_0_1_n_n.rhsIdx i q 1).val = (i 1).val := by
  unfold DotDims.rhsIdx
  rw [dif_neg (show ¬(1 : Fin S500x128.rank) ∈ dot_S1000x500_S500x128_S1000x128_1_0_0_1_n_n.rhsBatch by decide), dif_pos (show (1 : Fin S500x128.rank) ∈ dot_S1000x500_S500x128_S1000x128_1_0_0_1_n_n.rhsNonContracting by decide)]
  rfl

/-- Into a zero accumulator, entry (r, c) of the product is the sum over k of lhs (r, k) * rhs (k, c). -/
theorem matmul_self1_at (lhs : FVec Ideal S1000x500 .bf16) (rhs : FVec Ideal S500x128 .bf16) (r : Fin 1000) (c : Fin 128) :
    matmul dot_S1000x500_S500x128_S1000x128_1_0_0_1_n_n none lhs rhs (constant (F := Ideal) S1000x128 .f32 0x00000000#32) (ix2 r c)
      = ∑ k : Fin 500, lhs (ix2 r k) * rhs (ix2 k c) := by
  simp only [matmul]
  rw [Ideal.matmul_constant_zero_apply, ← Equiv.sum_comp (ValueIdx.contrEquiv1 dot_S1000x500_S500x128_S1000x128_1_0_0_1_n_n 500 rfl rfl).symm]
  refine Finset.sum_congr rfl fun k _ => ?_
  have hk := ValueIdx.contrEquiv1_symm_val dot_S1000x500_S500x128_S1000x128_1_0_0_1_n_n 500 rfl rfl k
  have el : dot_S1000x500_S500x128_S1000x128_1_0_0_1_n_n.lhsIdx (ix2 r c) ((ValueIdx.contrEquiv1 dot_S1000x500_S500x128_S1000x128_1_0_0_1_n_n 500 rfl rfl).symm k) = ix2 r k := funext fun a => Fin.ext (by
    match a with
    | ⟨0, _⟩ => exact lhs_self1_0 _ _
    | ⟨1, _⟩ => exact (lhs_self1_1 _ _).trans hk)
  have er : dot_S1000x500_S500x128_S1000x128_1_0_0_1_n_n.rhsIdx (ix2 r c) ((ValueIdx.contrEquiv1 dot_S1000x500_S500x128_S1000x128_1_0_0_1_n_n 500 rfl rfl).symm k) = ix2 k c := funext fun a => Fin.ext (by
    match a with
    | ⟨0, _⟩ => exact (rhs_self1_0 _ _).trans hk
    | ⟨1, _⟩ => exact rhs_self1_1 _ _)
  rw [el, er]

/-! ### A [1000, 128] block times a square [128, 128] weight matrix -/

/-- Axis 0 of the left operand's index is the output row. -/
private theorem lhs_sq_0 (i : S1000x128.Idx) (q : dot_S1000x128_S128x128_S1000x128_1_0_0_1_n_n.contr.Idx) :
    (dot_S1000x128_S128x128_S1000x128_1_0_0_1_n_n.lhsIdx i q 0).val = (i 0).val := by
  unfold DotDims.lhsIdx
  rw [dif_neg (show ¬(0 : Fin S1000x128.rank) ∈ dot_S1000x128_S128x128_S1000x128_1_0_0_1_n_n.lhsBatch by decide), dif_pos (show (0 : Fin S1000x128.rank) ∈ dot_S1000x128_S128x128_S1000x128_1_0_0_1_n_n.lhsNonContracting by decide)]
  rfl
/-- Axis 1 of the left operand's index is the contraction position. -/
private theorem lhs_sq_1 (i : S1000x128.Idx) (q : dot_S1000x128_S128x128_S1000x128_1_0_0_1_n_n.contr.Idx) :
    (dot_S1000x128_S128x128_S1000x128_1_0_0_1_n_n.lhsIdx i q 1).val = (q ⟨0, by decide⟩).val :=
  dot_S1000x128_S128x128_S1000x128_1_0_0_1_n_n.lhsIdx_val_of_single rfl i q
/-- Axis 0 of the right operand's index is the contraction position. -/
private theorem rhs_sq_0 (i : S1000x128.Idx) (q : dot_S1000x128_S128x128_S1000x128_1_0_0_1_n_n.contr.Idx) :
    (dot_S1000x128_S128x128_S1000x128_1_0_0_1_n_n.rhsIdx i q 0).val = (q ⟨0, by decide⟩).val :=
  dot_S1000x128_S128x128_S1000x128_1_0_0_1_n_n.rhsIdx_val_of_single rfl i q
/-- Axis 1 of the right operand's index is the output column. -/
private theorem rhs_sq_1 (i : S1000x128.Idx) (q : dot_S1000x128_S128x128_S1000x128_1_0_0_1_n_n.contr.Idx) :
    (dot_S1000x128_S128x128_S1000x128_1_0_0_1_n_n.rhsIdx i q 1).val = (i 1).val := by
  unfold DotDims.rhsIdx
  rw [dif_neg (show ¬(1 : Fin S128x128.rank) ∈ dot_S1000x128_S128x128_S1000x128_1_0_0_1_n_n.rhsBatch by decide), dif_pos (show (1 : Fin S128x128.rank) ∈ dot_S1000x128_S128x128_S1000x128_1_0_0_1_n_n.rhsNonContracting by decide)]
  rfl

/-- Into a zero accumulator, entry (r, c) of the product is the sum over k of lhs (r, k) * rhs (k, c). -/
theorem matmul_sq_at (lhs : FVec Ideal S1000x128 .bf16) (rhs : FVec Ideal S128x128 .bf16) (r : Fin 1000) (c : Fin 128) :
    matmul dot_S1000x128_S128x128_S1000x128_1_0_0_1_n_n none lhs rhs (constant (F := Ideal) S1000x128 .f32 0x00000000#32) (ix2 r c)
      = ∑ k : Fin 128, lhs (ix2 r k) * rhs (ix2 k c) := by
  simp only [matmul]
  rw [Ideal.matmul_constant_zero_apply, ← Equiv.sum_comp (ValueIdx.contrEquiv1 dot_S1000x128_S128x128_S1000x128_1_0_0_1_n_n 128 rfl rfl).symm]
  refine Finset.sum_congr rfl fun k _ => ?_
  have hk := ValueIdx.contrEquiv1_symm_val dot_S1000x128_S128x128_S1000x128_1_0_0_1_n_n 128 rfl rfl k
  have el : dot_S1000x128_S128x128_S1000x128_1_0_0_1_n_n.lhsIdx (ix2 r c) ((ValueIdx.contrEquiv1 dot_S1000x128_S128x128_S1000x128_1_0_0_1_n_n 128 rfl rfl).symm k) = ix2 r k := funext fun a => Fin.ext (by
    match a with
    | ⟨0, _⟩ => exact lhs_sq_0 _ _
    | ⟨1, _⟩ => exact (lhs_sq_1 _ _).trans hk)
  have er : dot_S1000x128_S128x128_S1000x128_1_0_0_1_n_n.rhsIdx (ix2 r c) ((ValueIdx.contrEquiv1 dot_S1000x128_S128x128_S1000x128_1_0_0_1_n_n 128 rfl rfl).symm k) = ix2 k c := funext fun a => Fin.ext (by
    match a with
    | ⟨0, _⟩ => exact (rhs_sq_0 _ _).trans hk
    | ⟨1, _⟩ => exact rhs_sq_1 _ _)
  rw [el, er]

/-! ### The head's hidden block times the output weights -/

/-- Axis 0 of the left operand's index is the output row. -/
private theorem lhs_out_0 (i : S1000x16.Idx) (q : dot_S1000x128_S128x16_S1000x16_1_0_0_1_n_n.contr.Idx) :
    (dot_S1000x128_S128x16_S1000x16_1_0_0_1_n_n.lhsIdx i q 0).val = (i 0).val := by
  unfold DotDims.lhsIdx
  rw [dif_neg (show ¬(0 : Fin S1000x128.rank) ∈ dot_S1000x128_S128x16_S1000x16_1_0_0_1_n_n.lhsBatch by decide), dif_pos (show (0 : Fin S1000x128.rank) ∈ dot_S1000x128_S128x16_S1000x16_1_0_0_1_n_n.lhsNonContracting by decide)]
  rfl
/-- Axis 1 of the left operand's index is the contraction position. -/
private theorem lhs_out_1 (i : S1000x16.Idx) (q : dot_S1000x128_S128x16_S1000x16_1_0_0_1_n_n.contr.Idx) :
    (dot_S1000x128_S128x16_S1000x16_1_0_0_1_n_n.lhsIdx i q 1).val = (q ⟨0, by decide⟩).val :=
  dot_S1000x128_S128x16_S1000x16_1_0_0_1_n_n.lhsIdx_val_of_single rfl i q
/-- Axis 0 of the right operand's index is the contraction position. -/
private theorem rhs_out_0 (i : S1000x16.Idx) (q : dot_S1000x128_S128x16_S1000x16_1_0_0_1_n_n.contr.Idx) :
    (dot_S1000x128_S128x16_S1000x16_1_0_0_1_n_n.rhsIdx i q 0).val = (q ⟨0, by decide⟩).val :=
  dot_S1000x128_S128x16_S1000x16_1_0_0_1_n_n.rhsIdx_val_of_single rfl i q
/-- Axis 1 of the right operand's index is the output column. -/
private theorem rhs_out_1 (i : S1000x16.Idx) (q : dot_S1000x128_S128x16_S1000x16_1_0_0_1_n_n.contr.Idx) :
    (dot_S1000x128_S128x16_S1000x16_1_0_0_1_n_n.rhsIdx i q 1).val = (i 1).val := by
  unfold DotDims.rhsIdx
  rw [dif_neg (show ¬(1 : Fin S128x16.rank) ∈ dot_S1000x128_S128x16_S1000x16_1_0_0_1_n_n.rhsBatch by decide), dif_pos (show (1 : Fin S128x16.rank) ∈ dot_S1000x128_S128x16_S1000x16_1_0_0_1_n_n.rhsNonContracting by decide)]
  rfl

/-- Into a zero accumulator, entry (r, c) of the product is the sum over k of lhs (r, k) * rhs (k, c). -/
theorem matmul_out_at (lhs : FVec Ideal S1000x128 .bf16) (rhs : FVec Ideal S128x16 .bf16) (r : Fin 1000) (c : Fin 16) :
    matmul dot_S1000x128_S128x16_S1000x16_1_0_0_1_n_n none lhs rhs (constant (F := Ideal) S1000x16 .f32 0x00000000#32) (ix2 r c)
      = ∑ k : Fin 128, lhs (ix2 r k) * rhs (ix2 k c) := by
  simp only [matmul]
  rw [Ideal.matmul_constant_zero_apply, ← Equiv.sum_comp (ValueIdx.contrEquiv1 dot_S1000x128_S128x16_S1000x16_1_0_0_1_n_n 128 rfl rfl).symm]
  refine Finset.sum_congr rfl fun k _ => ?_
  have hk := ValueIdx.contrEquiv1_symm_val dot_S1000x128_S128x16_S1000x16_1_0_0_1_n_n 128 rfl rfl k
  have el : dot_S1000x128_S128x16_S1000x16_1_0_0_1_n_n.lhsIdx (ix2 r c) ((ValueIdx.contrEquiv1 dot_S1000x128_S128x16_S1000x16_1_0_0_1_n_n 128 rfl rfl).symm k) = ix2 r k := funext fun a => Fin.ext (by
    match a with
    | ⟨0, _⟩ => exact lhs_out_0 _ _
    | ⟨1, _⟩ => exact (lhs_out_1 _ _).trans hk)
  have er : dot_S1000x128_S128x16_S1000x16_1_0_0_1_n_n.rhsIdx (ix2 r c) ((ValueIdx.contrEquiv1 dot_S1000x128_S128x16_S1000x16_1_0_0_1_n_n 128 rfl rfl).symm k) = ix2 k c := funext fun a => Fin.ext (by
    match a with
    | ⟨0, _⟩ => exact (rhs_out_0 _ _).trans hk
    | ⟨1, _⟩ => exact rhs_out_1 _ _)
  rw [el, er]

/-! ## A column broadcast along the rows -/

/-- A [a, 1] column broadcast to [a, b] reads, at (p, c), the column's entry p. -/
theorem broadcastTo_a1_ab_apply {α : Type} {a b : ℕ} (v : (⟨2, ![a, 1]⟩ : Shape).Idx → α) (h : (⟨2, ![a, 1]⟩ : Shape).Broadcasts ⟨2, ![a, b]⟩)
    (p : Fin a) (c : Fin b) : broadcastTo ⟨2, ![a, b]⟩ v h (ix2 p c) = v (ix2 p (0 : Fin 1)) := by
  refine broadcastTo_apply v h (ix2 p c) (ix2 p (0 : Fin 1)) fun ax => ?_
  match ax with
  | ⟨0, _⟩ =>
    show p.val = if a = 1 then 0 else p.val
    split
    · have := p.isLt; omega
    · rfl
  | ⟨1, _⟩ => rfl

/-- Entry (r, j) of the block the body stores is the network's output for the block's row r. Arguments in the order the
    body's payload takes its loads: the count block, the feature table, the reciprocal column, the node-feature block,
    then the weights. -/
theorem body_at (a : FVec Ideal S1000x2500 .bf16) (tbl : FVec Ideal S2500x128 .bf16) (rc : FVec Ideal S1000x1 .f32)
    (xs : FVec Ideal S1000x500 .bf16) (w1s : FVec Ideal S500x128 .bf16) (w1n : FVec Ideal S128x128 .bf16) (b1 : FVec Ideal S1x128 .f32)
    (w2s w2n : FVec Ideal S128x128 .bf16) (b2 : FVec Ideal S1x128 .f32) (wc1 : FVec Ideal S128x128 .bf16) (bc1 : FVec Ideal S1x128 .f32)
    (wc2 : FVec Ideal S128x16 .bf16) (bc2 : FVec Ideal S1x16 .f32) (r : Fin 1000) (j : Fin 16) :
    k0_pay1 (F := Ideal) (k0_pay2 (F := Ideal) a tbl rc xs w1s w1n b1 w2s w2n) b2 wc1 bc1 wc2 bc2 (ix2 r j)
      = netRow (weightsOf w1s w1n (fun k => b1 (ix2 (0 : Fin 1) k)) w2s w2n (fun k => b2 (ix2 (0 : Fin 1) k))
            wc1 (fun k => bc1 (ix2 (0 : Fin 1) k)) wc2 (fun k => bc2 (ix2 (0 : Fin 1) k)))
          (fun d => xs (ix2 r d))
          (fun f => (∑ g : Fin 2500, a (ix2 r g) * tbl (ix2 g f)) * rc (ix2 r (0 : Fin 1))) j := by
  unfold k0_pay1 k0_pay2
  dsimp only
  simp only [shapeCast_self, addf_apply, mulf_apply, maximumf_apply, truncf_apply, broadcast_apply,
    matmul_out_at, matmul_sq_at, matmul_self1_at, matmul_agg_at, broadcastTo_1b_ab_apply, broadcastTo_a1_ab_apply,
    Ideal.ofBits_def, Ideal.ofBits_zero_f32]
  unfold netRow headHidden layer2 layer1 lin weightsOf
  rfl

end Cert.Sage

end
-- ==== Proof.KernelValue.lean ====
/-
  From the blocks to the whole array.

  The grid has 20 points; point t works on rows 1000 t … 1000 t + 999 of the three row-blocked operands (the count
  matrix, the reciprocal column, the node features) and on the whole of every other operand, and writes rows
  1000 t … 1000 t + 999 of the result. The body's arithmetic is row by row (Cert.Sage.body_at), so what point t writes is
  the restriction to its rows of ONE function of the arrays the region finds, blockNet: at (n, j) the network's output
  row for node n with features row n and aggregated row (row n of the count matrix times the table) times entry n of the
  reciprocal column. The 20 row blocks cover the result array, so after the run the array IS blockNet of the arrays the
  region found.

  The arrays the region finds are kept as they are throughout: every statement that computes is about arbitrary arrays,
  and is only instantiated at the region's.
-/
import proofs.«429588_j78847009620691_1_alg».proof.Proof.Gen.KernelIdeal.Value
import proofs.«429588_j78847009620691_1_alg».proof.Proof.KernelBody
import proofs.«429588_j78847009620691_1_alg».proof.Proof.SageSpec
import Idealize.ShloMosaic.Lib.ValueIdx
import Idealize.ShloMosaic.Lib.Pipeline.Value

set_option maxRecDepth 16384

noncomputable section

namespace Cert.Sage

open Idealize.ShloMosaic Idealize.ShloMosaic.TcCoe Idealize.SL.Sem Idealize.ShloMosaic.ValueIdx
open Cert.KernelIdeal Cert.KernelIdeal.Gen
open Idealize.ShloMosaic.Pipeline (Dat)

variable (m : (ℓ : Loc nD τ sig) → Buf (Elt Ideal) ℓ) (ρ : Dev nD → PrngReg)

/-! ## The whole-array function -/

/-- The result array as one function of the arrays the region finds: entry (n, j) is the network's output row for node
    n. A is the count matrix, RC the reciprocal column, X the node features, T the feature table. -/
def blockNet (A : FVec Ideal S20000x2500 .bf16) (RC : FVec Ideal S20000x1 .f32) (X : FVec Ideal S20000x500 .bf16)
    (T : FVec Ideal S2500x128 .bf16) (w1s : FVec Ideal S500x128 .bf16) (w1n : FVec Ideal S128x128 .bf16) (b1 : FVec Ideal S1x128 .f32)
    (w2s w2n : FVec Ideal S128x128 .bf16) (b2 : FVec Ideal S1x128 .f32) (wc1 : FVec Ideal S128x128 .bf16) (bc1 : FVec Ideal S1x128 .f32)
    (wc2 : FVec Ideal S128x16 .bf16) (bc2 : FVec Ideal S1x16 .f32) : FVec Ideal S20000x16 .f32 :=
  fun i => netRow (weightsOf w1s w1n (fun k => b1 (ix2 (0 : Fin 1) k)) w2s w2n (fun k => b2 (ix2 (0 : Fin 1) k))
        wc1 (fun k => bc1 (ix2 (0 : Fin 1) k)) wc2 (fun k => bc2 (ix2 (0 : Fin 1) k)))
      (fun d => X (ix2 (⟨(i 0).val, idx2_lt0 i⟩ : Fin 20000) d))
      (fun f => (∑ g : Fin 2500, A (ix2 (⟨(i 0).val, idx2_lt0 i⟩ : Fin 20000) g) * T (ix2 g f))
        * RC (ix2 (⟨(i 0).val, idx2_lt0 i⟩ : Fin 20000) (0 : Fin 1)))
      ⟨(i 1).val, idx2_lt1 i⟩

/-- Rows 1000 k … 1000 k + 999 of a 20000-row array, as a 1000-row block (k below 20). -/
def rowsAt (C : Nat) (X : (⟨2, ![20000, C]⟩ : Shape).Idx → EReal) (k : Nat) : (⟨2, ![1000, C]⟩ : Shape).Idx → EReal :=
  fun y => X (ix2 (⟨(k * 1000 + (y 0).val) % 20000, Nat.mod_lt _ (by decide)⟩ : Fin 20000) (⟨(y 1).val, idx2_lt1 y⟩ : Fin C))

theorem rowsAt_apply (C : Nat) (X : (⟨2, ![20000, C]⟩ : Shape).Idx → EReal) (k : Nat) (y : (⟨2, ![1000, C]⟩ : Shape).Idx) :
    rowsAt C X k y = X (ix2 (⟨(k * 1000 + (y 0).val) % 20000, Nat.mod_lt _ (by decide)⟩ : Fin 20000) (⟨(y 1).val, idx2_lt1 y⟩ : Fin C)) := rfl

/-- The body's arithmetic at any entry of its block: the payload lemma at the entry's coordinates. -/
theorem body_entry (a : FVec Ideal S1000x2500 .bf16) (tbl : FVec Ideal S2500x128 .bf16) (rc : FVec Ideal S1000x1 .f32)
    (xs : FVec Ideal S1000x500 .bf16) (w1s : FVec Ideal S500x128 .bf16) (w1n : FVec Ideal S128x128 .bf16) (b1 : FVec Ideal S1x128 .f32)
    (w2s w2n : FVec Ideal S128x128 .bf16) (b2 : FVec Ideal S1x128 .f32) (wc1 : FVec Ideal S128x128 .bf16) (bc1 : FVec Ideal S1x128 .f32)
    (wc2 : FVec Ideal S128x16 .bf16) (bc2 : FVec Ideal S1x16 .f32) (j : S1000x16.Idx) :
    k0_pay1 (F := Ideal) (k0_pay2 (F := Ideal) a tbl rc xs w1s w1n b1 w2s w2n) b2 wc1 bc1 wc2 bc2 j
      = netRow (weightsOf w1s w1n (fun k => b1 (ix2 (0 : Fin 1) k)) w2s w2n (fun k => b2 (ix2 (0 : Fin 1) k))
            wc1 (fun k => bc1 (ix2 (0 : Fin 1) k)) wc2 (fun k => bc2 (ix2 (0 : Fin 1) k)))
          (fun d => xs (ix2 (⟨(j 0).val, idx2_lt0 j⟩ : Fin 1000) d))
          (fun f => (∑ g : Fin 2500, a (ix2 (⟨(j 0).val, idx2_lt0 j⟩ : Fin 1000) g) * tbl (ix2 g f))
            * rc (ix2 (⟨(j 0).val, idx2_lt0 j⟩ : Fin 1000) (0 : Fin 1)))
          ⟨(j 1).val, idx2_lt1 j⟩ := by
  have h := body_at a tbl rc xs w1s w1n b1 w2s w2n b2 wc1 bc1 wc2 bc2 ⟨(j 0).val, idx2_lt0 j⟩ ⟨(j 1).val, idx2_lt1 j⟩
  have hj : ix2 (⟨(j 0).val, idx2_lt0 j⟩ : Fin 1000) (⟨(j 1).val, idx2_lt1 j⟩ : Fin 16) = j := (eq_ix2 j).symm
  rw [hj] at h
  exact h

/-! ## The index maps, decided over the 20 points -/

theorem hz : (![0, 0] : Fin 2 → Nat) = fun _ => 0 := funext fun a => by fin_cases a <;> rfl

/-- The three row-blocked operands move with the result's row block, in column block 0; the result's row block is below
    20 and its column block is 0. -/
theorem idx_rows : ∀ t : Fin cfg0.N,
    (win0_0.index t (0 : Fin 2) = win0_14.index t (0 : Fin 2) ∧ win0_0.index t (1 : Fin 2) = 0)
    ∧ (win0_1.index t (0 : Fin 2) = win0_14.index t (0 : Fin 2) ∧ win0_1.index t (1 : Fin 2) = 0)
    ∧ (win0_2.index t (0 : Fin 2) = win0_14.index t (0 : Fin 2) ∧ win0_2.index t (1 : Fin 2) = 0)
    ∧ (win0_14.index t (0 : Fin 2) ≤ 19 ∧ win0_14.index t (1 : Fin 2) = 0) :=
  (by decide +kernel : ∀ t : Fin grid0.N, _)

/-- Each resident operand's block index is (0, 0) at every point. -/
theorem idx_res3 : ∀ t : Fin cfg0.N, win0_3.index t (0 : Fin 2) = 0 ∧ win0_3.index t (1 : Fin 2) = 0 :=
  (by decide +kernel : ∀ t : Fin grid0.N, _)
theorem idx_res4 : ∀ t : Fin cfg0.N, win0_4.index t (0 : Fin 2) = 0 ∧ win0_4.index t (1 : Fin 2) = 0 :=
  (by decide +kernel : ∀ t : Fin grid0.N, _)
theorem idx_res5 : ∀ t : Fin cfg0.N, win0_5.index t (0 : Fin 2) = 0 ∧ win0_5.index t (1 : Fin 2) = 0 :=
  (by decide +kernel : ∀ t : Fin grid0.N, _)
theorem idx_res6 : ∀ t : Fin cfg0.N, win0_6.index t (0 : Fin 2) = 0 ∧ win0_6.index t (1 : Fin 2) = 0 :=
  (by decide +kernel : ∀ t : Fin grid0.N, _)
theorem idx_res7 : ∀ t : Fin cfg0.N, win0_7.index t (0 : Fin 2) = 0 ∧ win0_7.index t (1 : Fin 2) = 0 :=
  (by decide +kernel : ∀ t : Fin grid0.N, _)
theorem idx_res8 : ∀ t : Fin cfg0.N, win0_8.index t (0 : Fin 2) = 0 ∧ win0_8.index t (1 : Fin 2) = 0 :=
  (by decide +kernel : ∀ t : Fin grid0.N, _)
theorem idx_res9 : ∀ t : Fin cfg0.N, win0_9.index t (0 : Fin 2) = 0 ∧ win0_9.index t (1 : Fin 2) = 0 :=
  (by decide +kernel : ∀ t : Fin grid0.N, _)
theorem idx_res10 : ∀ t : Fin cfg0.N, win0_10.index t (0 : Fin 2) = 0 ∧ win0_10.index t (1 : Fin 2) = 0 :=
  (by decide +kernel : ∀ t : Fin grid0.N, _)
theorem idx_res11 : ∀ t : Fin cfg0.N, win0_11.index t (0 : Fin 2) = 0 ∧ win0_11.index t (1 : Fin 2) = 0 :=
  (by decide +kernel : ∀ t : Fin grid0.N, _)
theorem idx_res12 : ∀ t : Fin cfg0.N, win0_12.index t (0 : Fin 2) = 0 ∧ win0_12.index t (1 : Fin 2) = 0 :=
  (by decide +kernel : ∀ t : Fin grid0.N, _)
theorem idx_res13 : ∀ t : Fin cfg0.N, win0_13.index t (0 : Fin 2) = 0 ∧ win0_13.index t (1 : Fin 2) = 0 :=
  (by decide +kernel : ∀ t : Fin grid0.N, _)

/-- Every row block of the result is some point's. -/
theorem idx_onto : ∀ q : Fin 20, ∃ t : Fin cfg0.N, win0_14.index t = ![q.val, 0] :=
  (by decide +kernel : ∀ q : Fin 20, ∃ t : Fin grid0.N, win0_14.index t = ![q.val, 0])

/-! ## The operands' blocks at a point

A block's entry y is the array's entry at block index times block size plus y, axis by axis. For a row-blocked operand
that is row 1000 t + (y 0), column (y 1); for a resident operand it is y itself. -/

/-- The count matrix: the block at point t is rows 1000 t … 1000 t + 999. -/
theorem blk0 (c : Dev nD) (t : Fin cfg0.N) : iblk m c 0 t = rowsAt 2500 (V m c main_v22) (win0_14.index t (0 : Fin 2)) := by
  unfold iblk
  show ((cfg0.win 0).blk t).view.read (Elt Ideal) (V m c main_v22) = _
  generalize V m c main_v22 = X
  funext y
  rw [rowsAt_apply]
  show X (((cfg0.win 0).blk t).view.emb y) = X _
  obtain ⟨h0, h1, h2, ⟨h14, -⟩⟩ := idx_rows t
  refine congrArg X (funext fun a => Fin.ext ?_)
  match a with
  | ⟨0, _⟩ =>
    show win0_0.index t (0 : Fin 2) * 1000 + 1 * (y 0).val = (win0_14.index t (0 : Fin 2) * 1000 + (y 0).val) % 20000
    have hy : (y 0).val < 1000 := (y 0).isLt
    omega
  | ⟨1, _⟩ => show win0_0.index t (1 : Fin 2) * 2500 + 1 * (y 1).val = (y 1).val; omega

/-- The reciprocal column: the block at point t is rows 1000 t … 1000 t + 999. -/
theorem blk1 (c : Dev nD) (t : Fin cfg0.N) : iblk m c 1 t = rowsAt 1 (V m c main_v21) (win0_14.index t (0 : Fin 2)) := by
  unfold iblk
  show ((cfg0.win 1).blk t).view.read (Elt Ideal) (V m c main_v21) = _
  generalize V m c main_v21 = X
  funext y
  rw [rowsAt_apply]
  show X (((cfg0.win 1).blk t).view.emb y) = X _
  obtain ⟨h0, h1, h2, ⟨h14, -⟩⟩ := idx_rows t
  refine congrArg X (funext fun a => Fin.ext ?_)
  match a with
  | ⟨0, _⟩ =>
    show win0_1.index t (0 : Fin 2) * 1000 + 1 * (y 0).val = (win0_14.index t (0 : Fin 2) * 1000 + (y 0).val) % 20000
    have hy : (y 0).val < 1000 := (y 0).isLt
    omega
  | ⟨1, _⟩ => show win0_1.index t (1 : Fin 2) * 1 + 1 * (y 1).val = (y 1).val; omega

/-- The node features: the block at point t is rows 1000 t … 1000 t + 999. -/
theorem blk2 (c : Dev nD) (t : Fin cfg0.N) : iblk m c 2 t = rowsAt 500 (V m c main_v24) (win0_14.index t (0 : Fin 2)) := by
  unfold iblk
  show ((cfg0.win 2).blk t).view.read (Elt Ideal) (V m c main_v24) = _
  generalize V m c main_v24 = X
  funext y
  rw [rowsAt_apply]
  show X (((cfg0.win 2).blk t).view.emb y) = X _
  obtain ⟨h0, h1, h2, ⟨h14, -⟩⟩ := idx_rows t
  refine congrArg X (funext fun a => Fin.ext ?_)
  match a with
  | ⟨0, _⟩ =>
    show win0_2.index t (0 : Fin 2) * 1000 + 1 * (y 0).val = (win0_14.index t (0 : Fin 2) * 1000 + (y 0).val) % 20000
    have hy : (y 0).val < 1000 := (y 0).isLt
    omega
  | ⟨1, _⟩ => show win0_2.index t (1 : Fin 2) * 500 + 1 * (y 1).val = (y 1).val; omega

/-- The feature table: the block is the whole table at every point. -/
theorem blk3 (c : Dev nD) (t : Fin cfg0.N) : iblk m c 3 t = V m c main_v23 := by
  unfold iblk
  show ((cfg0.win 3).blk t).view.read (Elt Ideal) (V m c main_v23) = _
  generalize V m c main_v23 = X
  funext y
  show X (((cfg0.win 3).blk t).view.emb y) = X y
  obtain ⟨e0, e1⟩ := idx_res3 t
  refine congrArg X (funext fun a => Fin.ext ?_)
  match a with
  | ⟨0, _⟩ => show win0_3.index t (0 : Fin 2) * 2500 + 1 * (y 0).val = (y 0).val; omega
  | ⟨1, _⟩ => show win0_3.index t (1 : Fin 2) * 128 + 1 * (y 1).val = (y 1).val; omega

/-- The first layer's self weights: the whole array at every point. -/
theorem blk4 (c : Dev nD) (t : Fin cfg0.N) : iblk m c 4 t = V m c main_v25 := by
  unfold iblk
  show ((cfg0.win 4).blk t).view.read (Elt Ideal) (V m c main_v25) = _
  generalize V m c main_v25 = X
  funext y
  show X (((cfg0.win 4).blk t).view.emb y) = X y
  obtain ⟨e0, e1⟩ := idx_res4 t
  refine congrArg X (funext fun a => Fin.ext ?_)
  match a with
  | ⟨0, _⟩ => show win0_4.index t (0 : Fin 2) * 500 + 1 * (y 0).val = (y 0).val; omega
  | ⟨1, _⟩ => show win0_4.index t (1 : Fin 2) * 128 + 1 * (y 1).val = (y 1).val; omega

/-- The first layer's neighbour weights: the whole array at every point. -/
theorem blk5 (c : Dev nD) (t : Fin cfg0.N) : iblk m c 5 t = V m c main_v26 := by
  unfold iblk
  show ((cfg0.win 5).blk t).view.read (Elt Ideal) (V m c main_v26) = _
  generalize V m c main_v26 = X
  funext y
  show X (((cfg0.win 5).blk t).view.emb y) = X y
  obtain ⟨e0, e1⟩ := idx_res5 t
  refine congrArg X (funext fun a => Fin.ext ?_)
  match a with
  | ⟨0, _⟩ => show win0_5.index t (0 : Fin 2) * 128 + 1 * (y 0).val = (y 0).val; omega
  | ⟨1, _⟩ => show win0_5.index t (1 : Fin 2) * 128 + 1 * (y 1).val = (y 1).val; omega

/-- The first bias row: the whole row at every point. -/
theorem blk6 (c : Dev nD) (t : Fin cfg0.N) : iblk m c 6 t = V m c main_v31 := by
  unfold iblk
  show ((cfg0.win 6).blk t).view.read (Elt Ideal) (V m c main_v31) = _
  generalize V m c main_v31 = X
  funext y
  show X (((cfg0.win 6).blk t).view.emb y) = X y
  obtain ⟨e0, e1⟩ := idx_res6 t
  refine congrArg X (funext fun a => Fin.ext ?_)
  match a with
  | ⟨0, _⟩ => show win0_6.index t (0 : Fin 2) * 1 + 1 * (y 0).val = (y 0).val; omega
  | ⟨1, _⟩ => show win0_6.index t (1 : Fin 2) * 128 + 1 * (y 1).val = (y 1).val; omega

/-- The second layer's self weights: the whole array at every point. -/
theorem blk7 (c : Dev nD) (t : Fin cfg0.N) : iblk m c 7 t = V m c main_v27 := by
  unfold iblk
  show ((cfg0.win 7).blk t).view.read (Elt Ideal) (V m c main_v27) = _
  generalize V m c main_v27 = X
  funext y
  show X (((cfg0.win 7).blk t).view.emb y) = X y
  obtain ⟨e0, e1⟩ := idx_res7 t
  refine congrArg X (funext fun a => Fin.ext ?_)
  match a with
  | ⟨0, _⟩ => show win0_7.index t (0 : Fin 2) * 128 + 1 * (y 0).val = (y 0).val; omega
  | ⟨1, _⟩ => show win0_7.index t (1 : Fin 2) * 128 + 1 * (y 1).val = (y 1).val; omega

/-- The second layer's neighbour weights: the whole array at every point. -/
theorem blk8 (c : Dev nD) (t : Fin cfg0.N) : iblk m c 8 t = V m c main_v28 := by
  unfold iblk
  show ((cfg0.win 8).blk t).view.read (Elt Ideal) (V m c main_v28) = _
  generalize V m c main_v28 = X
  funext y
  show X (((cfg0.win 8).blk t).view.emb y) = X y
  obtain ⟨e0, e1⟩ := idx_res8 t
  refine congrArg X (funext fun a => Fin.ext ?_)
  match a with
  | ⟨0, _⟩ => show win0_8.index t (0 : Fin 2) * 128 + 1 * (y 0).val = (y 0).val; omega
  | ⟨1, _⟩ => show win0_8.index t (1 : Fin 2) * 128 + 1 * (y 1).val = (y 1).val; omega

/-- The second bias row: the whole row at every point. -/
theorem blk9 (c : Dev nD) (t : Fin cfg0.N) : iblk m c 9 t = V m c main_v32 := by
  unfold iblk
  show ((cfg0.win 9).blk t).view.read (Elt Ideal) (V m c main_v32) = _
  generalize V m c main_v32 = X
  funext y
  show X (((cfg0.win 9).blk t).view.emb y) = X y
  obtain ⟨e0, e1⟩ := idx_res9 t
  refine congrArg X (funext fun a => Fin.ext ?_)
  match a with
  | ⟨0, _⟩ => show win0_9.index t (0 : Fin 2) * 1 + 1 * (y 0).val = (y 0).val; omega
  | ⟨1, _⟩ => show win0_9.index t (1 : Fin 2) * 128 + 1 * (y 1).val = (y 1).val; omega

/-- The head's first weights: the whole array at every point. -/
theorem blk10 (c : Dev nD) (t : Fin cfg0.N) : iblk m c 10 t = V m c main_v29 := by
  unfold iblk
  show ((cfg0.win 10).blk t).view.read (Elt Ideal) (V m c main_v29) = _
  generalize V m c main_v29 = X
  funext y
  show X (((cfg0.win 10).blk t).view.emb y) = X y
  obtain ⟨e0, e1⟩ := idx_res10 t
  refine congrArg X (funext fun a => Fin.ext ?_)
  match a with
  | ⟨0, _⟩ => show win0_10.index t (0 : Fin 2) * 128 + 1 * (y 0).val = (y 0).val; omega
  | ⟨1, _⟩ => show win0_10.index t (1 : Fin 2) * 128 + 1 * (y 1).val = (y 1).val; omega

/-- The head's first bias row: the whole row at every point. -/
theorem blk11 (c : Dev nD) (t : Fin cfg0.N) : iblk m c 11 t = V m c main_v33 := by
  unfold iblk
  show ((cfg0.win 11).blk t).view.read (Elt Ideal) (V m c main_v33) = _
  generalize V m c main_v33 = X
  funext y
  show X (((cfg0.win 11).blk t).view.emb y) = X y
  obtain ⟨e0, e1⟩ := idx_res11 t
  refine congrArg X (funext fun a => Fin.ext ?_)
  match a with
  | ⟨0, _⟩ => show win0_11.index t (0 : Fin 2) * 1 + 1 * (y 0).val = (y 0).val; omega
  | ⟨1, _⟩ => show win0_11.index t (1 : Fin 2) * 128 + 1 * (y 1).val = (y 1).val; omega

/-- The head's second weights: the whole array at every point. -/
theorem blk12 (c : Dev nD) (t : Fin cfg0.N) : iblk m c 12 t = V m c main_v30 := by
  unfold iblk
  show ((cfg0.win 12).blk t).view.read (Elt Ideal) (V m c main_v30) = _
  generalize V m c main_v30 = X
  funext y
  show X (((cfg0.win 12).blk t).view.emb y) = X y
  obtain ⟨e0, e1⟩ := idx_res12 t
  refine congrArg X (funext fun a => Fin.ext ?_)
  match a with
  | ⟨0, _⟩ => show win0_12.index t (0 : Fin 2) * 128 + 1 * (y 0).val = (y 0).val; omega
  | ⟨1, _⟩ => show win0_12.index t (1 : Fin 2) * 16 + 1 * (y 1).val = (y 1).val; omega

/-- The head's second bias row: the whole row at every point. -/
theorem blk13 (c : Dev nD) (t : Fin cfg0.N) : iblk m c 13 t = V m c main_v34 := by
  unfold iblk
  show ((cfg0.win 13).blk t).view.read (Elt Ideal) (V m c main_v34) = _
  generalize V m c main_v34 = X
  funext y
  show X (((cfg0.win 13).blk t).view.emb y) = X y
  obtain ⟨e0, e1⟩ := idx_res13 t
  refine congrArg X (funext fun a => Fin.ext ?_)
  match a with
  | ⟨0, _⟩ => show win0_13.index t (0 : Fin 2) * 1 + 1 * (y 0).val = (y 0).val; omega
  | ⟨1, _⟩ => show win0_13.index t (1 : Fin 2) * 16 + 1 * (y 1).val = (y 1).val; omega

/-! ## What a point writes back -/

/-- For ANY arrays: the body run on rows 1000 t … of the row-blocked operands and on the whole of the others leaves, cut to
    the result's block, the restriction of blockNet to those rows. -/
theorem block_eq (A : FVec Ideal S20000x2500 .bf16) (RC : FVec Ideal S20000x1 .f32) (X : FVec Ideal S20000x500 .bf16)
    (T : FVec Ideal S2500x128 .bf16) (W1s : FVec Ideal S500x128 .bf16) (W1n : FVec Ideal S128x128 .bf16) (B1 : FVec Ideal S1x128 .f32)
    (W2s W2n : FVec Ideal S128x128 .bf16) (B2 : FVec Ideal S1x128 .f32) (Wc1 : FVec Ideal S128x128 .bf16) (Bc1 : FVec Ideal S1x128 .f32)
    (Wc2 : FVec Ideal S128x16 .bf16) (Bc2 : FVec Ideal S1x16 .f32) (t : Fin cfg0.N) :
    (cfg0.win 14).cut (grid0.coords t)
        (k0_pay1 (F := Ideal) (k0_pay2 (F := Ideal) (rowsAt 2500 A (win0_14.index t (0 : Fin 2))) T (rowsAt 1 RC (win0_14.index t (0 : Fin 2)))
          (rowsAt 500 X (win0_14.index t (0 : Fin 2))) W1s W1n B1 W2s W2n) B2 Wc1 Bc1 Wc2 Bc2)
      = ((cfg0.win 14).blk t).view.read (Elt Ideal) (blockNet A RC X T W1s W1n B1 W2s W2n B2 Wc1 Bc1 Wc2 Bc2) := by
  funext j
  obtain ⟨-, -, -, ⟨h14, h14c⟩⟩ := idx_rows t
  show k0_pay1 (F := Ideal) (k0_pay2 (F := Ideal) (rowsAt 2500 A (win0_14.index t (0 : Fin 2))) T (rowsAt 1 RC (win0_14.index t (0 : Fin 2)))
          (rowsAt 500 X (win0_14.index t (0 : Fin 2))) W1s W1n B1 W2s W2n) B2 Wc1 Bc1 Wc2 Bc2 j
      = blockNet A RC X T W1s W1n B1 W2s W2n B2 Wc1 Bc1 Wc2 Bc2 (((cfg0.win 14).blk t).view.emb j)
  rw [body_entry]
  unfold blockNet
  have hj0 : (j 0).val < 1000 := (j 0).isLt
  -- a row of the block is the corresponding row of the array: row (j 0) of block t is row 1000 t + (j 0)
  have hrow : ∀ (C : Nat) (Y : (⟨2, ![20000, C]⟩ : Shape).Idx → EReal) (col : Fin C),
      rowsAt C Y (win0_14.index t (0 : Fin 2)) (ix2 (⟨(j 0).val, @idx2_lt0 1000 16 j⟩ : Fin 1000) col)
        = Y (ix2 (⟨((((cfg0.win 14).blk t).view.emb j) 0).val, @idx2_lt0 20000 16 (((cfg0.win 14).blk t).view.emb j)⟩ : Fin 20000) col) := by
    intro C Y col
    rw [rowsAt_apply]
    refine congrArg Y (funext fun a => ?_)
    match a with
    | ⟨0, _⟩ =>
      refine Fin.ext ?_
      show (win0_14.index t (0 : Fin 2) * 1000 + (j 0).val) % 20000 = win0_14.index t (0 : Fin 2) * 1000 + 1 * (j 0).val
      omega
    | ⟨1, _⟩ => rfl
  simp only [hrow]
  -- and the column is the block's column
  have hq : (⟨(j 1).val, @idx2_lt1 1000 16 j⟩ : Fin 16)
      = ⟨((((cfg0.win 14).blk t).view.emb j) 1).val, @idx2_lt1 20000 16 (((cfg0.win 14).blk t).view.emb j)⟩ := by
    refine Fin.ext ?_
    show (j 1).val = win0_14.index t (1 : Fin 2) * 16 + 1 * (j 1).val
    omega
  rw [hq]

/-- Point t writes back the restriction to its rows of blockNet of the arrays the region found. -/
theorem flushed_eq (c : Dev nD) (t : Fin cfg0.N) :
    (dats m 0 c).flushed 14 t = ((cfg0.win 14).blk t).view.read (Elt Ideal)
      (blockNet (V m c main_v22) (V m c main_v21) (V m c main_v24) (V m c main_v23) (V m c main_v25) (V m c main_v26) (V m c main_v31)
        (V m c main_v27) (V m c main_v28) (V m c main_v32) (V m c main_v29) (V m c main_v33) (V m c main_v30) (V m c main_v34)) := by
  rw [Cert.KernelIdeal.Value.flushed14]
  unfold out0_14
  rw [View.canon_unit_zero hz]
  simp only [View.ld_unit_zero (S := S1000x2500) hz, View.ld_unit_zero (S := S2500x128) hz, View.ld_unit_zero (S := S1000x1) hz,
    View.ld_unit_zero (S := S1000x500) hz, View.ld_unit_zero (S := S500x128) hz, View.ld_unit_zero (S := S128x128) hz,
    View.ld_unit_zero (S := S1x128) hz, View.ld_unit_zero (S := S128x16) hz, View.ld_unit_zero (S := S1x16) hz]
  rw [blk0 m c t, blk1 m c t, blk2 m c t, blk3 m c t, blk4 m c t, blk5 m c t, blk6 m c t, blk7 m c t, blk8 m c t, blk9 m c t,
    blk10 m c t, blk11 m c t, blk12 m c t, blk13 m c t]
  exact block_eq (V m c main_v22) (V m c main_v21) (V m c main_v24) (V m c main_v23) (V m c main_v25) (V m c main_v26) (V m c main_v31)
    (V m c main_v27) (V m c main_v28) (V m c main_v32) (V m c main_v29) (V m c main_v33) (V m c main_v30) (V m c main_v34) t

/-! ## The blocks cover the result -/

/-- An index of the result is in point t's block exactly when each coordinate is in the block's range on its axis. -/
theorem mem_blk14 (t : Fin cfg0.N) (i : S20000x16.Idx) :
    i ∈ ((cfg0.win 14).blk t).view.set ↔ ∀ a : Fin 2, win0_14.index t a * S1000x16.size a ≤ (i a).val ∧ (i a).val < win0_14.index t a * S1000x16.size a + S1000x16.size a := by
  show i ∈ ((View.whole main_v35).slice (win0_14.rect t)).set ↔ _
  rw [View.set_slice_whole, Rect.mem_set_unit]
  exact Iff.rfl

/-- Every index of the result lies in some point's block: row r is in block r / 1000. -/
theorem cover14 (i : S20000x16.Idx) : ∃ t : Fin cfg0.N, (cfg0.win 14).flush t = true ∧ i ∈ ((cfg0.win 14).blk t).view.set := by
  have hi0 : (i 0).val < 20000 := (i 0).isLt
  have hi1 : (i 1).val < 16 := (i 1).isLt
  obtain ⟨t, ht⟩ := idx_onto ⟨(i 0).val / 1000, by omega⟩
  have q0 : win0_14.index t (0 : Fin 2) = (i 0).val / 1000 := congrFun ht 0
  have q1 : win0_14.index t (1 : Fin 2) = 0 := congrFun ht 1
  refine ⟨t, flush0_14 t, ?_⟩
  rw [mem_blk14]
  intro a
  match a with
  | ⟨0, _⟩ => show win0_14.index t (0 : Fin 2) * 1000 ≤ (i 0).val ∧ (i 0).val < win0_14.index t (0 : Fin 2) * 1000 + 1000; omega
  | ⟨1, _⟩ => show win0_14.index t (1 : Fin 2) * 16 ≤ (i 1).val ∧ (i 1).val < win0_14.index t (1 : Fin 2) * 16 + 16; omega

/-- After the run the result array is blockNet of the arrays the region found. -/
theorem final14 (c : Dev nD) :
    (dats m 0 c).arrAt 14 cfg0.N
      = blockNet (V m c main_v22) (V m c main_v21) (V m c main_v24) (V m c main_v23) (V m c main_v25) (V m c main_v26) (V m c main_v31)
          (V m c main_v27) (V m c main_v28) (V m c main_v32) (V m c main_v29) (V m c main_v33) (V m c main_v30) (V m c main_v34) :=
  (dats m 0 c).arrAt_eq_of_cover 14 _ (fun t _ => flushed_eq m c t) cover14

end Cert.Sage

end
-- ==== Proof.LibScatterLanding.lean ====
/-
  Where an accumulating or overwriting scatter's update lands — for ANY scatter dimension numbers.

  StableHLO's scatter drops an update unless its result index (the start index read as a SIGNED integer and NOT clamped,
  plus the update's window coordinate) names an element of the operand. So "update j lands on element i" says exactly
  that, on every operand axis, the signed start plus the window coordinate IS i's coordinate — whatever the index words
  are, in range or not: an out-of-range update simply lands nowhere. With it, the accumulating scatter at an element is
  the operand there plus the sum of the updates that land there, the landing test a decidable equation between integers.
  Library imports only.
-/
import Idealize.ShloMosaic.PureOps.Ideal

noncomputable section

namespace Cert.Sage

open Idealize.ShloMosaic

/-- An update lands on element i exactly when, on every axis, its signed start plus its window coordinate is i's
    coordinate. -/
theorem resultIdx?_eq_some_iff {s si u : Shape} (d : ScatterDims s si u) {w : Nat} (j : u.Idx) (idx : IVec si w) (i : s.Idx) :
    d.resultIdx? j idx = some i ↔ ∀ a, d.start j idx a + (d.window j a : Int) = ((i a).val : Int) := by
  unfold ScatterDims.resultIdx?
  constructor
  · intro h a
    by_cases hr : ∀ a, 0 ≤ d.start j idx a + d.window j a ∧ d.start j idx a + d.window j a < s.size a
    · rw [dif_pos hr] at h
      -- the landing index is the start plus the window coordinate, which is non-negative here
      have hv : (d.start j idx a + (d.window j a : Int)).toNat = (i a).val :=
        congrArg Fin.val (congrFun (Option.some.inj h) a)
      have h0 := (hr a).1
      omega
    · rw [dif_neg hr] at h
      exact absurd h (by simp)
  · intro h
    -- the equations put every coordinate in range, because every coordinate of i is in range
    have hr : ∀ a, 0 ≤ d.start j idx a + d.window j a ∧ d.start j idx a + d.window j a < s.size a := by
      intro a
      have h1 := h a
      have h2 := (i a).isLt
      omega
    rw [dif_pos hr]
    refine congrArg some ?_
    funext a
    refine Fin.ext ?_
    show (d.start j idx a + (d.window j a : Int)).toNat = (i a).val
    have h1 := h a
    omega

/-- The accumulating float scatter read at an element, on the extended reals: the operand there plus every update that
    lands there. -/
theorem scatterAdd_at {s si u : Shape} {w : Nat} (d : ScatterDims s si u) (x : s.Idx → EReal) (idx : IVec si w)
    (upd : u.Idx → EReal) (i : s.Idx) :
    Host.scatterAdd (F := Ideal) (φ := .f32) d x idx upd i
      = x i + ∑ j ∈ Finset.univ.filter (fun j => d.resultIdx? j idx = some i), upd j := rfl

end Cert.Sage

end
-- ==== Proof.ScatterGather.lean ====
/-
  Where a scatter's update lands and which row a gather reads, for this program's four indexed operations.

  A scatter update is dropped unless its result index (the start index read as a SIGNED integer, NOT clamped, plus the
  window coordinate) names an element of the operand; so "update j lands on element i" says exactly that the signed
  start plus the window coordinate IS i's coordinate on every axis (resultIdx?_eq_some_iff), whatever the index words
  are. A gather clamps its signed start index into the table instead.
    * the count matrix [20000, 2500]: update e (a scalar one) lands on (row, column) = the two words of row e of the
      [640000, 2] index table;
    * the feature sum [20000, 128]: update (e, f') (entry f' of message row e) lands on (row, f') with row the word of
      row e of the [640000, 1] index table;
    * the degree [20000]: update e lands on the word of row e;
    * the message rows: entry (e, f) of the gather reads the table at (clamp of the word of row e, f).
-/
import proofs.«429588_j78847009620691_1_alg».proof.Proof.Gen.KernelIdeal
import proofs.«429588_j78847009620691_1_alg».proof.Proof.Gen.ReferenceIdeal
import proofs.«429588_j78847009620691_1_alg».proof.Proof.SageSpec
import proofs.«429588_j78847009620691_1_alg».proof.Proof.LibScatterLanding
import Idealize.ShloMosaic.Lib.ValueIdx

noncomputable section

namespace Cert.Sage

open Idealize.ShloMosaic Idealize.ShloMosaic.ValueIdx

/-- The count matrix's scatter: the scalar update e lands on (n, g) exactly when the two index words of row e are n
    and g. -/
theorem countScatter_hit (idx : IVec Cert.KernelIdeal.S640000x2 32) (e : Fin 640000) (n : Fin 20000) (g : Fin 2500) :
    Cert.KernelIdeal.scatter_S20000x2500_S640000x2_S640000_n_01_01_1.resultIdx? (ix1 e) idx = some (ix2 n g)
      ↔ (idx (ix2 e (0 : Fin 2))).toInt = (n.val : Int) ∧ (idx (ix2 e (1 : Fin 2))).toInt = (g.val : Int) := by
  rw [resultIdx?_eq_some_iff]
  -- both operand axes are named by the map, in order; no operand axis is a window axis
  have hm0 : (0 : Fin Cert.KernelIdeal.S20000x2500.rank)
      ∈ Cert.KernelIdeal.scatter_S20000x2500_S640000x2_S640000_n_01_01_1.scatterDimsToOperandDims := by decide
  have hm1 : (1 : Fin Cert.KernelIdeal.S20000x2500.rank)
      ∈ Cert.KernelIdeal.scatter_S20000x2500_S640000x2_S640000_n_01_01_1.scatterDimsToOperandDims := by decide
  have hs0 : Cert.KernelIdeal.scatter_S20000x2500_S640000x2_S640000_n_01_01_1.start (ix1 e) idx 0
      = (idx (ix2 e (0 : Fin 2))).toInt := by
    unfold ScatterDims.start
    rw [dif_pos hm0]
    refine congrArg (fun k => (idx k).toInt) ?_
    funext b
    refine Fin.ext ?_
    match b with
    | ⟨0, _⟩ => rfl
    | ⟨1, _⟩ => rfl
  have hs1 : Cert.KernelIdeal.scatter_S20000x2500_S640000x2_S640000_n_01_01_1.start (ix1 e) idx 1
      = (idx (ix2 e (1 : Fin 2))).toInt := by
    unfold ScatterDims.start
    rw [dif_pos hm1]
    refine congrArg (fun k => (idx k).toInt) ?_
    funext b
    refine Fin.ext ?_
    match b with
    | ⟨0, _⟩ => rfl
    | ⟨1, _⟩ => rfl
  have hw : ∀ a, Cert.KernelIdeal.scatter_S20000x2500_S640000x2_S640000_n_01_01_1.window (ix1 e) a = 0 := by
    intro a
    unfold ScatterDims.window
    exact dif_neg (by revert a; decide)
  constructor
  · intro h
    have h0 := h 0
    have h1 := h 1
    rw [hs0, hw] at h0
    rw [hs1, hw] at h1
    exact ⟨by simpa using h0, by simpa using h1⟩
  · rintro ⟨h0, h1⟩ a
    rw [hw]
    match a with
    | ⟨0, _⟩ => rw [show (⟨0, _⟩ : Fin Cert.KernelIdeal.S20000x2500.rank) = 0 from rfl, hs0]; simpa using h0
    | ⟨1, _⟩ => rw [show (⟨1, _⟩ : Fin Cert.KernelIdeal.S20000x2500.rank) = 1 from rfl, hs1]; simpa using h1

/-- The feature sum's scatter: entry f' of message row e lands on (n, f) exactly when the index word of row e is n and
    f' is f. -/
theorem featScatter_hit (idx : IVec Cert.ReferenceIdeal.S640000x1 32) (e : Fin 640000) (f' : Fin 128) (n : Fin 20000) (f : Fin 128) :
    Cert.ReferenceIdeal.scatter_S20000x128_S640000x1_S640000x128_1_0_0_1.resultIdx? (ix2 e f') idx = some (ix2 n f)
      ↔ (idx (ix2 e (0 : Fin 1))).toInt = (n.val : Int) ∧ f' = f := by
  rw [resultIdx?_eq_some_iff]
  -- the map names the row axis only; the feature axis is the one window axis
  have hm0 : (0 : Fin Cert.ReferenceIdeal.S20000x128.rank)
      ∈ Cert.ReferenceIdeal.scatter_S20000x128_S640000x1_S640000x128_1_0_0_1.scatterDimsToOperandDims := by decide
  have hm1 : (1 : Fin Cert.ReferenceIdeal.S20000x128.rank)
      ∉ Cert.ReferenceIdeal.scatter_S20000x128_S640000x1_S640000x128_1_0_0_1.scatterDimsToOperandDims := by decide
  have hk0 : (0 : Fin Cert.ReferenceIdeal.S20000x128.rank)
      ∉ Cert.ReferenceIdeal.scatter_S20000x128_S640000x1_S640000x128_1_0_0_1.sKept := by decide
  have hk1 : (1 : Fin Cert.ReferenceIdeal.S20000x128.rank)
      ∈ Cert.ReferenceIdeal.scatter_S20000x128_S640000x1_S640000x128_1_0_0_1.sKept := by decide
  have hs0 : Cert.ReferenceIdeal.scatter_S20000x128_S640000x1_S640000x128_1_0_0_1.start (ix2 e f') idx 0
      = (idx (ix2 e (0 : Fin 1))).toInt := by
    unfold ScatterDims.start
    rw [dif_pos hm0]
    refine congrArg (fun k => (idx k).toInt) ?_
    funext b
    refine Fin.ext ?_
    match b with
    | ⟨0, _⟩ => rfl
    | ⟨1, _⟩ => rfl
  have hs1 : Cert.ReferenceIdeal.scatter_S20000x128_S640000x1_S640000x128_1_0_0_1.start (ix2 e f') idx 1 = 0 := by
    unfold ScatterDims.start
    exact dif_neg hm1
  have hw0 : Cert.ReferenceIdeal.scatter_S20000x128_S640000x1_S640000x128_1_0_0_1.window (ix2 e f') 0 = 0 := by
    unfold ScatterDims.window
    exact dif_neg hk0
  have hw1 : Cert.ReferenceIdeal.scatter_S20000x128_S640000x1_S640000x128_1_0_0_1.window (ix2 e f') 1 = f'.val := by
    unfold ScatterDims.window
    rw [dif_pos hk1]
    rfl
  constructor
  · intro h
    have h0 := h 0
    have h1 := h 1
    rw [hs0, hw0] at h0
    rw [hs1, hw1] at h1
    refine ⟨by simpa using h0, Fin.ext ?_⟩
    have h1' : (0 : Int) + (f'.val : Int) = (f.val : Int) := h1
    omega
  · rintro ⟨h0, rfl⟩ a
    match a with
    | ⟨0, _⟩ =>
      rw [show (⟨0, _⟩ : Fin Cert.ReferenceIdeal.S20000x128.rank) = 0 from rfl, hs0, hw0]; simpa using h0
    | ⟨1, _⟩ =>
      rw [show (⟨1, _⟩ : Fin Cert.ReferenceIdeal.S20000x128.rank) = 1 from rfl, hs1, hw1]
      show (0 : Int) + (f'.val : Int) = (f'.val : Int)
      omega

/-- The degree's scatter: the scalar update e lands on n exactly when the index word of row e is n. -/
theorem degScatter_hit (idx : IVec Cert.ReferenceIdeal.S640000x1 32) (e : Fin 640000) (n : Fin 20000) :
    Cert.ReferenceIdeal.scatter_S20000_S640000x1_S640000_n_0_0_1.resultIdx? (ix1 e) idx = some (ix1 n)
      ↔ (idx (ix2 e (0 : Fin 1))).toInt = (n.val : Int) := by
  rw [resultIdx?_eq_some_iff]
  -- the one operand axis is named by the map and is no window axis
  have hm0 : (0 : Fin Cert.ReferenceIdeal.S20000.rank)
      ∈ Cert.ReferenceIdeal.scatter_S20000_S640000x1_S640000_n_0_0_1.scatterDimsToOperandDims := by decide
  have hk0 : (0 : Fin Cert.ReferenceIdeal.S20000.rank)
      ∉ Cert.ReferenceIdeal.scatter_S20000_S640000x1_S640000_n_0_0_1.sKept := by decide
  have hs0 : Cert.ReferenceIdeal.scatter_S20000_S640000x1_S640000_n_0_0_1.start (ix1 e) idx 0
      = (idx (ix2 e (0 : Fin 1))).toInt := by
    unfold ScatterDims.start
    rw [dif_pos hm0]
    refine congrArg (fun k => (idx k).toInt) ?_
    funext b
    refine Fin.ext ?_
    match b with
    | ⟨0, _⟩ => rfl
    | ⟨1, _⟩ => rfl
  have hw0 : Cert.ReferenceIdeal.scatter_S20000_S640000x1_S640000_n_0_0_1.window (ix1 e) 0 = 0 := by
    unfold ScatterDims.window
    exact dif_neg hk0
  constructor
  · intro h
    have h0 := h 0
    rw [hs0, hw0] at h0
    simpa using h0
  · intro h0 a
    match a with
    | ⟨0, _⟩ =>
      rw [show (⟨0, _⟩ : Fin Cert.ReferenceIdeal.S20000.rank) = 0 from rfl, hs0, hw0]; simpa using h0

/-- The message rows: entry (e, f) of the row gather is the table at (the index word of row e clamped into the table, f). -/
theorem rowGather_apply {α : Type} (x : Cert.ReferenceIdeal.S2500x128.Idx → α) (idx : IVec Cert.ReferenceIdeal.S640000x1 32)
    (e : Fin 640000) (f : Fin 128) :
    Host.gather Cert.ReferenceIdeal.gather_S2500x128_S640000x1_S640000x128_1_0_n_n_0_1_1128 x idx (ix2 e f)
      = x (ix2 (clampSrc (idx (ix2 e (0 : Fin 1))).toInt) f) := by
  unfold Host.gather
  refine congrArg x ?_
  -- the row axis is collapsed and named by the start index map; the feature axis is the one offset axis; no batching
  have hm0 : (0 : Fin Cert.ReferenceIdeal.S2500x128.rank)
      ∈ Cert.ReferenceIdeal.gather_S2500x128_S640000x1_S640000x128_1_0_n_n_0_1_1128.startIndexMap := by decide
  have hm1 : (1 : Fin Cert.ReferenceIdeal.S2500x128.rank)
      ∉ Cert.ReferenceIdeal.gather_S2500x128_S640000x1_S640000x128_1_0_n_n_0_1_1128.startIndexMap := by decide
  have hk0 : (0 : Fin Cert.ReferenceIdeal.S2500x128.rank)
      ∉ Cert.ReferenceIdeal.gather_S2500x128_S640000x1_S640000x128_1_0_n_n_0_1_1128.sKept := by decide
  have hk1 : (1 : Fin Cert.ReferenceIdeal.S2500x128.rank)
      ∈ Cert.ReferenceIdeal.gather_S2500x128_S640000x1_S640000x128_1_0_n_n_0_1_1128.sKept := by decide
  have hs0 : Cert.ReferenceIdeal.gather_S2500x128_S640000x1_S640000x128_1_0_n_n_0_1_1128.start (ix2 e f) idx 0
      = min (idx (ix2 e (0 : Fin 1))).toInt.toNat 2499 := by
    unfold GatherDims.start
    rw [dif_pos hm0]
    refine congrArg (fun k => min (idx k).toInt.toNat 2499) ?_
    funext b
    refine Fin.ext ?_
    match b with
    | ⟨0, _⟩ => rfl
    | ⟨1, _⟩ => rfl
  have hs1 : Cert.ReferenceIdeal.gather_S2500x128_S640000x1_S640000x128_1_0_n_n_0_1_1128.start (ix2 e f) idx 1 = 0 := by
    unfold GatherDims.start
    exact dif_neg hm1
  have ho0 : Cert.ReferenceIdeal.gather_S2500x128_S640000x1_S640000x128_1_0_n_n_0_1_1128.offCoord (ix2 e f) 0 = 0 :=
    GatherDims.offCoord_eq_zero _ _ _ hk0
  have ho1 : Cert.ReferenceIdeal.gather_S2500x128_S640000x1_S640000x128_1_0_n_n_0_1_1128.offCoord (ix2 e f) 1 = f.val := by
    unfold GatherDims.offCoord
    rw [dif_pos hk1]
    rfl
  funext a
  refine Fin.ext ?_
  show Cert.ReferenceIdeal.gather_S2500x128_S640000x1_S640000x128_1_0_n_n_0_1_1128.start (ix2 e f) idx a
      + Cert.ReferenceIdeal.gather_S2500x128_S640000x1_S640000x128_1_0_n_n_0_1_1128.batchCoord (ix2 e f) a
      + Cert.ReferenceIdeal.gather_S2500x128_S640000x1_S640000x128_1_0_n_n_0_1_1128.offCoord (ix2 e f) a = _
  rw [GatherDims.batchCoord_eq_zero _ _ _ List.not_mem_nil]
  match a with
  | ⟨0, _⟩ =>
    rw [show (⟨0, _⟩ : Fin Cert.ReferenceIdeal.S2500x128.rank) = 0 from rfl, hs0, ho0]
    rfl
  | ⟨1, _⟩ =>
    rw [show (⟨1, _⟩ : Fin Cert.ReferenceIdeal.S2500x128.rank) = 1 from rfl, hs1, ho1]
    show 0 + 0 + f.val = f.val
    omega

end Cert.Sage

end
-- ==== Proof.KernelArrays.lean ====
/-
  The arrays the kernel's region finds, as functions of the arguments.

  Before the region the program builds, on the host: the two index columns (each endpoint word wrapped the NumPy way),
  joined into the [640000, 2] index table; the count matrix A, a scatter of ones into zeros at those index pairs; its row
  sums, the maximum of each with 1, and the reciprocals; and changes of float format (the identity on the extended reals)
  and reshapes of the biases to one row. Read at an index: A n g is the count of edges from g into n
  (Cert.Sage.adj), the reciprocal column at n is 1 / max(row sum of A at n, 1), the node features, the feature table and
  the weights are the arguments themselves, and a bias row at (0, k) is the bias at k.
-/
import proofs.«429588_j78847009620691_1_alg».proof.Proof.Gen.KernelIdeal.Frame
import proofs.«429588_j78847009620691_1_alg».proof.Proof.SageSpec
import proofs.«429588_j78847009620691_1_alg».proof.Proof.ScatterGather
import Idealize.ShloMosaic.Lib.ValueIdx
import Idealize.ShloMosaic.Lib.Pipeline.Value
import Idealize.ShloMosaic.Lib.StableHlo.Run
import Idealize.ShloMosaic.PureOps.Ideal.Laws
import Idealize.ShloMosaic.Lib.IdealHost

set_option maxRecDepth 16384

noncomputable section

namespace Cert.Sage

open Idealize.ShloMosaic Idealize.ShloMosaic.TcCoe Idealize.SL.Sem Idealize.ShloMosaic.ValueIdx Idealize.ShloMosaic.StableHlo
open Cert.KernelIdeal Cert.KernelIdeal.Gen

/-! ## The host stages -/

/-- An index column: every word wrapped into an axis of extent N, as a [640000, 1] column. -/
def wrapCol (N : BitVec 32) (a : IVec S640000 32) : IVec S640000x1 32 :=
  broadcastInDim S640000x1 ![0] bcast_S640000_S640000x1_0
    (select (cmpi .slt a (broadcastInDim S640000 ![] bcast_S_S640000 (constantI S_ 32 0#32)))
      (addi a (broadcastInDim S640000 ![] bcast_S_S640000 (constantI S_ 32 N))) a)

/-- The [640000, 2] index table: destination column, then source column. -/
def idxTable (a2 a3 : IVec S640000 32) : IVec S640000x2 32 :=
  concatenate S640000x2 1 [⟨S640000x1, wrapCol 20000#32 a3⟩, ⟨S640000x1, wrapCol 2500#32 a2⟩]
    concatenates_S640000x1_S640000x1_S640000x2_d1

/-- The count matrix: ones scattered into zeros at the index pairs, colliding ones added. -/
def countMatrix (a2 a3 : IVec S640000 32) : FVec Ideal S20000x2500 .f32 :=
  Host.scatterAdd scatter_S20000x2500_S640000x2_S640000_n_01_01_1
    (broadcastInDim S20000x2500 ![] bcast_S_S20000x2500 (constant (F := Ideal) S_ .f32 0x00000000#32))
    (idxTable a2 a3)
    (broadcastInDim S640000 ![] bcast_S_S640000 (constant (F := Ideal) S_ .f32 0x3F800000#32))

/-- The reciprocal column: 1 / max(row sum of the count matrix, 1). -/
def recipCol (a2 a3 : IVec S640000 32) : FVec Ideal S20000x1 .f32 :=
  Host.divf (broadcastInDim S20000x1 ![] bcast_S_S20000x1 (constant (F := Ideal) S_ .f32 0x3F800000#32))
    (maximumf
      (broadcastInDim S20000x1 ![0] bcast_S20000_S20000x1_0
        (Host.reduceAdd (countMatrix a2 a3) (constant (F := Ideal) S_ .f32 0x00000000#32) reducesTo_S20000x2500_S20000_d1 h_S_))
      (broadcastInDim S20000x1 ![] bcast_S_S20000x1 (constant (F := Ideal) S_ .f32 0x3F800000#32)))

/-! ## The stages read at an index -/

/-- Row e of an index column is edge e's word, wrapped. -/
theorem wrapCol_at (N : BitVec 32) (a : IVec S640000 32) (e : Fin 640000) :
    wrapCol N a (ix2 e (0 : Fin 1)) = wrapIdx N (a (ix1 e)) := by
  unfold wrapCol
  rw [broadcastInDim_apply _ bcast_S640000_S640000x1_0 _ (ix2 e (0 : Fin 1)) (ix1 e) (fun b => match b with
    | ⟨0, _⟩ => by show e.val = if (640000 : Nat) = 1 then 0 else e.val; rw [if_neg (by decide)])]
  rfl

/-- Column 0 of the index table is the destination column. -/
theorem idxTable_dst (a2 a3 : IVec S640000 32) (e : Fin 640000) :
    idxTable a2 a3 (ix2 e (0 : Fin 2)) = wrapIdx 20000#32 (a3 (ix1 e)) := by
  unfold idxTable
  rw [concatenate_pair_apply_left (1 : Fin S640000x2.rank) (wrapCol 20000#32 a3) (wrapCol 2500#32 a2)
    concatenates_S640000x1_S640000x1_S640000x2_d1 (ix2 e (0 : Fin 2)) rfl (ix2 e (0 : Fin 1))
    (fun b => match b with | ⟨0, _⟩ => rfl | ⟨1, _⟩ => rfl)]
  exact wrapCol_at _ _ e

/-- Column 1 of the index table is the source column. -/
theorem idxTable_src (a2 a3 : IVec S640000 32) (e : Fin 640000) :
    idxTable a2 a3 (ix2 e (1 : Fin 2)) = wrapIdx 2500#32 (a2 (ix1 e)) := by
  unfold idxTable
  rw [concatenate_pair_apply_right (1 : Fin S640000x2.rank) (wrapCol 20000#32 a3) (wrapCol 2500#32 a2)
    concatenates_S640000x1_S640000x1_S640000x2_d1 (ix2 e (1 : Fin 2)) rfl rfl (ix2 e (0 : Fin 1))
    (fun b hb => match b with | ⟨0, _⟩ => rfl | ⟨1, _⟩ => absurd rfl hb) rfl]
  exact wrapCol_at _ _ e

/-- The count matrix at (n, g): zero, plus one for every edge whose wrapped destination word is n and wrapped source
    word is g. -/
theorem countMatrix_at (a2 a3 : IVec S640000 32) (n : Fin 20000) (g : Fin 2500) :
    countMatrix a2 a3 (ix2 n g)
      = adj (E := S640000.Idx) (fun e => (wrapIdx 20000#32 (a3 e)).toInt) (fun e => (wrapIdx 2500#32 (a2 e)).toInt) n g := by
  have hf : ∀ j ∈ (Finset.univ : Finset S640000.Idx),
      scatter_S20000x2500_S640000x2_S640000_n_01_01_1.resultIdx? j (idxTable a2 a3) = some (ix2 n g)
        ↔ (wrapIdx 20000#32 (a3 j)).toInt = (n.val : Int) ∧ (wrapIdx 2500#32 (a2 j)).toInt = (g.val : Int) := by
    intro j _
    obtain ⟨e, rfl⟩ : ∃ e : Fin 640000, j = ix1 e := ⟨j 0, eq_ix1 j⟩
    rw [countScatter_hit, idxTable_dst, idxTable_src]
  unfold countMatrix adj
  rw [scatterAdd_at, Finset.filter_congr hf]
  show Ideal.ofBits .f32 0x00000000#32 + _ = _
  rw [Ideal.ofBits_zero_f32]
  exact congrArg (fun z => (0 : EReal) + z) (Finset.sum_congr rfl fun j _ => Ideal.ofBits_one_f32)

/-- A row sum of a [20000, 2500] array: zero plus the sum along the row. -/
theorem rowSum_at (x : FVec Ideal S20000x2500 .f32) (n : Fin 20000) :
    Host.reduceAdd x (constant (F := Ideal) S_ .f32 0x00000000#32) reducesTo_S20000x2500_S20000_d1 h_S_ (ix1 n)
      = 0 + ∑ g : Fin 2500, x (ix2 n g) := by
  have hR : S20000x2500.Reduces [1] S20000 := by decide
  rw [hostReduceAdd_apply, Ideal.hostReduceAdd_single _ hR, constant_apply, Ideal.ofBits_zero_f32]
  refine congrArg (fun z => (0 : EReal) + z) (Finset.sum_congr rfl fun k _ => congrArg x ?_)
  funext a
  match a with
  | ⟨0, _⟩ => exact Fin.ext rfl
  | ⟨1, _⟩ => exact Fin.ext rfl

/-- The reciprocal column at n: 1 / max(zero plus the row sum of the count matrix, 1). -/
theorem recipCol_at (a2 a3 : IVec S640000 32) (n : Fin 20000) :
    recipCol a2 a3 (ix2 n (0 : Fin 1))
      = Ideal.div 1 (max (degOfAdj (E := S640000.Idx) (fun e => (wrapIdx 20000#32 (a3 e)).toInt)
          (fun e => (wrapIdx 2500#32 (a2 e)).toInt) n) 1) := by
  unfold recipCol degOfAdj
  rw [hostDivf_apply, maximumf_apply, broadcastInDim_scalar_apply, constant_apply, Ideal.ofBits_one_f32,
    broadcastInDim_apply _ bcast_S20000_S20000x1_0 _ (ix2 n (0 : Fin 1)) (ix1 n) (fun b => match b with
      | ⟨0, _⟩ => by show n.val = if (20000 : Nat) = 1 then 0 else n.val; rw [if_neg (by decide)]),
    rowSum_at]
  simp only [countMatrix_at]

/-! ## The region finds the stages -/

variable (m : (ℓ : Loc nD τ sig) → Buf (Elt Ideal) ℓ)

set_option maxHeartbeats 4000000 in
/-- The count-matrix operand is the count matrix of the two index arguments (its change of format is the identity on the
    extended reals). -/
theorem V_count (c : Dev nD) :
    V m c main_v22 = truncf .bf16 (countMatrix (m (c, Proc.devRef .tc main_arg2)) (m (c, Proc.devRef .tc main_arg3))) bitsLt_bf16_f32 := by
  unfold countMatrix idxTable wrapCol
  dsimp only [V, hostOps0]
  after_results

set_option maxHeartbeats 8000000 in
/-- The reciprocal-column operand is the reciprocal column of the two index arguments. -/
theorem V_recip (c : Dev nD) :
    V m c main_v21 = recipCol (m (c, Proc.devRef .tc main_arg2)) (m (c, Proc.devRef .tc main_arg3)) := by
  unfold recipCol countMatrix idxTable wrapCol
  dsimp only [V, hostOps0]
  after_results

end Cert.Sage

end
-- ==== Proof.KernelWeights.lean ====
/-
  The operands the kernel's region finds that are arguments in another float format or shape.

  The node features, the feature table and the six weight matrices reach the region through a change of float format,
  which is the identity on the extended reals; the four biases reach it reshaped from [d] to one row [1, d], whose entry
  (0, k) is the bias's entry k.
-/
import proofs.«429588_j78847009620691_1_alg».proof.Proof.Gen.KernelIdeal.Frame
import Idealize.ShloMosaic.Lib.ValueIdx
import Idealize.ShloMosaic.Lib.Pipeline.Value
import Idealize.ShloMosaic.Lib.StableHlo.Run

set_option maxRecDepth 16384

noncomputable section

namespace Cert.Sage

open Idealize.ShloMosaic Idealize.ShloMosaic.TcCoe Idealize.SL.Sem Idealize.ShloMosaic.ValueIdx Idealize.ShloMosaic.StableHlo
open Cert.KernelIdeal Cert.KernelIdeal.Gen

/-- A bias reshaped to one row of 128 reads, at (0, k), the bias at k. -/
theorem biasRow_at (b : FVec Ideal S128 .f32) (k : Fin 128) :
    shapeCast S1x128 b shapeCasts_S128_S1x128 (ix2 (0 : Fin 1) k) = b (ix1 k) :=
  (shapeCast_addUnit_apply ![128] b shapeCasts_S128_S1x128 (ix2 (0 : Fin 1) k)).trans
    (congrArg b (funext fun a => match a with | ⟨0, _⟩ => rfl))

/-- A bias reshaped to one row of 16 reads, at (0, k), the bias at k. -/
theorem biasRow16_at (b : FVec Ideal S16 .f32) (k : Fin 16) :
    shapeCast S1x16 b shapeCasts_S16_S1x16 (ix2 (0 : Fin 1) k) = b (ix1 k) :=
  (shapeCast_addUnit_apply ![16] b shapeCasts_S16_S1x16 (ix2 (0 : Fin 1) k)).trans
    (congrArg b (funext fun a => match a with | ⟨0, _⟩ => rfl))

variable (m : (ℓ : Loc nD τ sig) → Buf (Elt Ideal) ℓ)

/-- The node-feature operand is the node features, in another float format. -/
theorem V_feats (c : Dev nD) :
    V m c main_v24 = (truncf (F := Ideal) .bf16 (m (c, Proc.devRef .tc main_arg1) : FVec Ideal S20000x500 .f32) bitsLt_bf16_f32 : FVec Ideal S20000x500 .bf16) := by
  dsimp only [V, hostOps0]
  after_results <;> rfl

/-- The feature-table operand is the feature table, in another float format. -/
theorem V_table (c : Dev nD) :
    V m c main_v23 = (truncf (F := Ideal) .bf16 (m (c, Proc.devRef .tc main_arg0) : FVec Ideal S2500x128 .f32) bitsLt_bf16_f32 : FVec Ideal S2500x128 .bf16) := by
  dsimp only [V, hostOps0]
  after_results <;> rfl

/-- The first layer's self weights. -/
theorem V_w1s (c : Dev nD) :
    V m c main_v25 = (truncf (F := Ideal) .bf16 (m (c, Proc.devRef .tc main_arg5) : FVec Ideal S500x128 .f32) bitsLt_bf16_f32 : FVec Ideal S500x128 .bf16) := by
  dsimp only [V, hostOps0]
  after_results <;> rfl

/-- The first layer's neighbour weights. -/
theorem V_w1n (c : Dev nD) :
    V m c main_v26 = (truncf (F := Ideal) .bf16 (m (c, Proc.devRef .tc main_arg4) : FVec Ideal S128x128 .f32) bitsLt_bf16_f32 : FVec Ideal S128x128 .bf16) := by
  dsimp only [V, hostOps0]
  after_results <;> rfl

/-- The second layer's self weights. -/
theorem V_w2s (c : Dev nD) :
    V m c main_v27 = (truncf (F := Ideal) .bf16 (m (c, Proc.devRef .tc main_arg8) : FVec Ideal S128x128 .f32) bitsLt_bf16_f32 : FVec Ideal S128x128 .bf16) := by
  dsimp only [V, hostOps0]
  after_results <;> rfl

/-- The second layer's neighbour weights. -/
theorem V_w2n (c : Dev nD) :
    V m c main_v28 = (truncf (F := Ideal) .bf16 (m (c, Proc.devRef .tc main_arg7) : FVec Ideal S128x128 .f32) bitsLt_bf16_f32 : FVec Ideal S128x128 .bf16) := by
  dsimp only [V, hostOps0]
  after_results <;> rfl

/-- The head's first weights. -/
theorem V_wc1 (c : Dev nD) :
    V m c main_v29 = (truncf (F := Ideal) .bf16 (m (c, Proc.devRef .tc main_arg10) : FVec Ideal S128x128 .f32) bitsLt_bf16_f32 : FVec Ideal S128x128 .bf16) := by
  dsimp only [V, hostOps0]
  after_results <;> rfl

/-- The head's second weights. -/
theorem V_wc2 (c : Dev nD) :
    V m c main_v30 = (truncf (F := Ideal) .bf16 (m (c, Proc.devRef .tc main_arg12) : FVec Ideal S128x16 .f32) bitsLt_bf16_f32 : FVec Ideal S128x16 .bf16) := by
  dsimp only [V, hostOps0]
  after_results <;> rfl

/-- The first bias, as one row. -/
theorem V_b1 (c : Dev nD) :
    V m c main_v31 = shapeCast S1x128 (m (c, Proc.devRef .tc main_arg6) : FVec Ideal S128 .f32) shapeCasts_S128_S1x128 := by
  dsimp only [V, hostOps0]
  after_results <;> rfl

/-- The second bias, as one row. -/
theorem V_b2 (c : Dev nD) :
    V m c main_v32 = shapeCast S1x128 (m (c, Proc.devRef .tc main_arg9) : FVec Ideal S128 .f32) shapeCasts_S128_S1x128 := by
  dsimp only [V, hostOps0]
  after_results <;> rfl

/-- The head's first bias, as one row. -/
theorem V_bc1 (c : Dev nD) :
    V m c main_v33 = shapeCast S1x128 (m (c, Proc.devRef .tc main_arg11) : FVec Ideal S128 .f32) shapeCasts_S128_S1x128 := by
  dsimp only [V, hostOps0]
  after_results <;> rfl

/-- The head's second bias, as one row. -/
theorem V_bc2 (c : Dev nD) :
    V m c main_v34 = shapeCast S1x16 (m (c, Proc.devRef .tc main_arg13) : FVec Ideal S16 .f32) shapeCasts_S16_S1x16 := by
  dsimp only [V, hostOps0]
  after_results <;> rfl

end Cert.Sage

end
-- ==== Proof.KernelResult.lean ====
/-
  The kernel's result as a function of the arguments.

  After the run the result array is blockNet of the arrays the region found; those arrays are the host stages of the
  arguments (the count matrix and the reciprocal column of the two index arguments; the node features, the feature table
  and the weights in another float format; the biases as rows). So the result is ONE function kernelOut of the fourteen
  arguments, and at (n, j) it is the network's output row for node n, with its own features row n and its aggregated
  row the mean in COUNT form (Cert.Sage.countForm) over the wrapped endpoint words.
-/
import proofs.«429588_j78847009620691_1_alg».proof.Proof.KernelValue
import proofs.«429588_j78847009620691_1_alg».proof.Proof.KernelArrays
import proofs.«429588_j78847009620691_1_alg».proof.Proof.KernelWeights

set_option maxRecDepth 16384

noncomputable section

namespace Cert.Sage

open Idealize.ShloMosaic Idealize.ShloMosaic.TcCoe Idealize.SL.Sem Idealize.ShloMosaic.ValueIdx
open Cert.KernelIdeal Cert.KernelIdeal.Gen

/-- blockNet depends only on its fourteen arrays. -/
theorem blockNet_congr {A A' : FVec Ideal S20000x2500 .bf16} {RC RC' : FVec Ideal S20000x1 .f32} {X X' : FVec Ideal S20000x500 .bf16}
    {T T' : FVec Ideal S2500x128 .bf16} {W1s W1s' : FVec Ideal S500x128 .bf16} {W1n W1n' : FVec Ideal S128x128 .bf16}
    {B1 B1' : FVec Ideal S1x128 .f32} {W2s W2s' W2n W2n' : FVec Ideal S128x128 .bf16} {B2 B2' : FVec Ideal S1x128 .f32}
    {Wc1 Wc1' : FVec Ideal S128x128 .bf16} {Bc1 Bc1' : FVec Ideal S1x128 .f32} {Wc2 Wc2' : FVec Ideal S128x16 .bf16}
    {Bc2 Bc2' : FVec Ideal S1x16 .f32}
    (hA : A = A') (hRC : RC = RC') (hX : X = X') (hT : T = T') (hW1s : W1s = W1s') (hW1n : W1n = W1n') (hB1 : B1 = B1')
    (hW2s : W2s = W2s') (hW2n : W2n = W2n') (hB2 : B2 = B2') (hWc1 : Wc1 = Wc1') (hBc1 : Bc1 = Bc1') (hWc2 : Wc2 = Wc2')
    (hBc2 : Bc2 = Bc2') :
    blockNet A RC X T W1s W1n B1 W2s W2n B2 Wc1 Bc1 Wc2 Bc2 = blockNet A' RC' X' T' W1s' W1n' B1' W2s' W2n' B2' Wc1' Bc1' Wc2' Bc2' := by
  subst hA hRC hX hT hW1s hW1n hB1 hW2s hW2n hB2 hWc1 hBc1 hWc2 hBc2
  rfl

/-- The kernel's result array as a function of the fourteen arguments. -/
def kernelOut (a0 : FVec Ideal S2500x128 .f32) (a1 : FVec Ideal S20000x500 .f32) (a2 a3 : IVec S640000 32) (a4 : FVec Ideal S128x128 .f32)
    (a5 : FVec Ideal S500x128 .f32) (a6 : FVec Ideal S128 .f32) (a7 a8 : FVec Ideal S128x128 .f32) (a9 : FVec Ideal S128 .f32)
    (a10 : FVec Ideal S128x128 .f32) (a11 : FVec Ideal S128 .f32) (a12 : FVec Ideal S128x16 .f32) (a13 : FVec Ideal S16 .f32) : FVec Ideal S20000x16 .f32 :=
  blockNet (truncf .bf16 (countMatrix a2 a3) bitsLt_bf16_f32) (recipCol a2 a3)
    (truncf .bf16 a1 bitsLt_bf16_f32) (truncf .bf16 a0 bitsLt_bf16_f32) (truncf .bf16 a5 bitsLt_bf16_f32) (truncf .bf16 a4 bitsLt_bf16_f32)
    (shapeCast S1x128 a6 shapeCasts_S128_S1x128) (truncf .bf16 a8 bitsLt_bf16_f32) (truncf .bf16 a7 bitsLt_bf16_f32)
    (shapeCast S1x128 a9 shapeCasts_S128_S1x128) (truncf .bf16 a10 bitsLt_bf16_f32) (shapeCast S1x128 a11 shapeCasts_S128_S1x128)
    (truncf .bf16 a12 bitsLt_bf16_f32) (shapeCast S1x16 a13 shapeCasts_S16_S1x16)

/-- Entry (n, j) of the kernel's result: the network's output row for node n, its aggregated row the count-form mean
    over the wrapped endpoint words. -/
theorem kernelOut_at (a0 : FVec Ideal S2500x128 .f32) (a1 : FVec Ideal S20000x500 .f32) (a2 a3 : IVec S640000 32) (a4 : FVec Ideal S128x128 .f32)
    (a5 : FVec Ideal S500x128 .f32) (a6 : FVec Ideal S128 .f32) (a7 a8 : FVec Ideal S128x128 .f32) (a9 : FVec Ideal S128 .f32)
    (a10 : FVec Ideal S128x128 .f32) (a11 : FVec Ideal S128 .f32) (a12 : FVec Ideal S128x16 .f32) (a13 : FVec Ideal S16 .f32) (n : Fin 20000) (j : Fin 16) :
    kernelOut a0 a1 a2 a3 a4 a5 a6 a7 a8 a9 a10 a11 a12 a13 (ix2 n j)
      = netRow (weightsOf a5 a4 (fun k => a6 (ix1 k)) a8 a7 (fun k => a9 (ix1 k)) a10 (fun k => a11 (ix1 k)) a12 (fun k => a13 (ix1 k)))
          (fun d => a1 (ix2 n d))
          (countForm (E := S640000.Idx) (fun e => (wrapIdx 20000#32 (a3 e)).toInt) (fun e => (wrapIdx 2500#32 (a2 e)).toInt)
            (fun g f => a0 (ix2 g f)) n) j := by
  unfold kernelOut blockNet countForm
  simp only [truncf_apply, biasRow_at, biasRow16_at, countMatrix_at, recipCol_at]
  rfl

variable (m : (ℓ : Loc nD τ sig) → Buf (Elt Ideal) ℓ) (ρ : Dev nD → PrngReg)

/-- The kernel's run: it terminates without a fault, its result array is kernelOut of the arguments, the arguments are
    unchanged. -/
theorem kernel_run : θ_run defs (onTc (τ := τ) (main (F := Ideal))) ⟨m, fun _ => 0, ρ⟩ fun r => ∀ c : Dev nD,
      r.2.mem ((c : Thread nD τ).loc main_v35)
        = kernelOut (m ((c : Thread nD τ).loc main_arg0)) (m ((c : Thread nD τ).loc main_arg1)) (m ((c : Thread nD τ).loc main_arg2))
            (m ((c : Thread nD τ).loc main_arg3)) (m ((c : Thread nD τ).loc main_arg4)) (m ((c : Thread nD τ).loc main_arg5))
            (m ((c : Thread nD τ).loc main_arg6)) (m ((c : Thread nD τ).loc main_arg7)) (m ((c : Thread nD τ).loc main_arg8))
            (m ((c : Thread nD τ).loc main_arg9)) (m ((c : Thread nD τ).loc main_arg10)) (m ((c : Thread nD τ).loc main_arg11))
            (m ((c : Thread nD τ).loc main_arg12)) (m ((c : Thread nD τ).loc main_arg13))
      ∧ r.2.mem ((c : Thread nD τ).loc main_arg0) = m ((c : Thread nD τ).loc main_arg0)
      ∧ r.2.mem ((c : Thread nD τ).loc main_arg1) = m ((c : Thread nD τ).loc main_arg1)
      ∧ r.2.mem ((c : Thread nD τ).loc main_arg2) = m ((c : Thread nD τ).loc main_arg2)
      ∧ r.2.mem ((c : Thread nD τ).loc main_arg3) = m ((c : Thread nD τ).loc main_arg3)
      ∧ r.2.mem ((c : Thread nD τ).loc main_arg4) = m ((c : Thread nD τ).loc main_arg4)
      ∧ r.2.mem ((c : Thread nD τ).loc main_arg5) = m ((c : Thread nD τ).loc main_arg5)
      ∧ r.2.mem ((c : Thread nD τ).loc main_arg6) = m ((c : Thread nD τ).loc main_arg6)
      ∧ r.2.mem ((c : Thread nD τ).loc main_arg7) = m ((c : Thread nD τ).loc main_arg7)
      ∧ r.2.mem ((c : Thread nD τ).loc main_arg8) = m ((c : Thread nD τ).loc main_arg8)
      ∧ r.2.mem ((c : Thread nD τ).loc main_arg9) = m ((c : Thread nD τ).loc main_arg9)
      ∧ r.2.mem ((c : Thread nD τ).loc main_arg10) = m ((c : Thread nD τ).loc main_arg10)
      ∧ r.2.mem ((c : Thread nD τ).loc main_arg11) = m ((c : Thread nD τ).loc main_arg11)
      ∧ r.2.mem ((c : Thread nD τ).loc main_arg12) = m ((c : Thread nD τ).loc main_arg12)
      ∧ r.2.mem ((c : Thread nD τ).loc main_arg13) = m ((c : Thread nD τ).loc main_arg13) :=
  (θ_run defs _ _).mono (fun r h c => ⟨(h c).1.trans ((final14 m c).trans
      (blockNet_congr (V_count m c) (V_recip m c) (V_feats m c) (V_table m c) (V_w1s m c) (V_w1n m c) (V_b1 m c)
        (V_w2s m c) (V_w2n m c) (V_b2 m c) (V_wc1 m c) (V_bc1 m c) (V_wc2 m c) (V_bc2 m c))), (h c).2⟩)
    (Cert.KernelIdeal.Value.run_blocks m ρ)

end Cert.Sage

end
-- ==== Proof.RefMean.lean ====
/-
  The reference's aggregated row, read at one entry.

  The reference gathers the feature row of every edge's source (the source index wrapped the NumPy way, then clamped into
  the table by the gather), adds the rows up per destination node with one scatter, counts the edges per destination
  node with another scatter of ones, and divides the sums by max(count, 1) broadcast along the row. Read at (n, f) that
  is the mean in edge form (Cert.Sage.edgeForm) over the edges e whose destination word, read as a signed integer, is n:
  an edge whose destination is no node lands nowhere in either scatter.
-/
import proofs.«429588_j78847009620691_1_alg».proof.Proof.Gen.ReferenceIdeal.Read
import proofs.«429588_j78847009620691_1_alg».proof.Proof.SageSpec
import proofs.«429588_j78847009620691_1_alg».proof.Proof.ScatterGather
import Idealize.ShloMosaic.Lib.ValueIdx
import Idealize.ShloMosaic.Lib.IdealHost

noncomputable section

open scoped BigOperators

namespace Cert.Sage

open Idealize.ShloMosaic Idealize.ShloMosaic.ValueIdx Cert.ReferenceIdeal Cert.ReferenceIdeal.Read

/-! ## The pieces read at an index -/

/-- Row e of the gather's index column is the source word of edge e wrapped into the table's 2500 rows. -/
private theorem srcWord_at (x2 : (⟨S640000, .i32⟩ : BufTy).Contents (Elt Ideal)) (e : Fin 640000) :
    val_main_v5 (F := Ideal) x2 (ix2 e (0 : Fin 1)) = wrapIdx 2500#32 (x2 (ix1 e)) := by
  have hi : idx_main_v5 (ix2 e (0 : Fin 1)) = ix1 e := by
    funext a; match a with | ⟨0, _⟩ => rfl
  rw [val_main_v5_apply, hi, val_main_v4_apply, val_main_v1_apply, val_main_v3_apply, val_main_v0_apply,
    val_main_v2_apply, val_main_c_apply, val_main_c_0_apply]
  rfl

/-- Row e of the feature scatter's index column is the destination word of edge e. -/
private theorem dstWord8_at (x3 : (⟨S640000, .i32⟩ : BufTy).Contents (Elt Ideal)) (e : Fin 640000) :
    val_main_v8 (F := Ideal) x3 (ix2 e (0 : Fin 1)) = x3 (ix1 e) := by
  have hi : idx_main_v8 (ix2 e (0 : Fin 1)) = ix1 e := by
    funext a; match a with | ⟨0, _⟩ => rfl
  rw [val_main_v8_apply, hi]

/-- Row e of the degree scatter's index column is the destination word of edge e. -/
private theorem dstWord12_at (x3 : (⟨S640000, .i32⟩ : BufTy).Contents (Elt Ideal)) (e : Fin 640000) :
    val_main_v12 (F := Ideal) x3 (ix2 e (0 : Fin 1)) = x3 (ix1 e) := by
  have hi : idx_main_v12 (ix2 e (0 : Fin 1)) = ix1 e := by
    funext a; match a with | ⟨0, _⟩ => rfl
  rw [val_main_v12_apply, hi]

/-- The feature scatter starts from zero everywhere. -/
private theorem zeros7_at (i : S20000x128.Idx) : val_main_v7 (F := Ideal) i = 0 := by
  rw [val_main_v7_apply, val_main_cst_apply]
  exact Ideal.ofBits_zero_f32

/-- The degree scatter starts from zero everywhere. -/
private theorem zeros11_at (i : S20000.Idx) : val_main_v11 (F := Ideal) i = 0 := by
  rw [val_main_v11_apply, val_main_cst_2_apply]
  exact Ideal.ofBits_zero_f32

/-- The degree scatter's updates are all one. -/
private theorem ones10_at (i : S640000.Idx) : val_main_v10 (F := Ideal) i = 1 := by
  rw [val_main_v10_apply, val_main_cst_1_apply]
  exact Ideal.ofBits_one_f32

/-! ## The degree -/

/-- The degree scatter read at node n: zero plus one for every edge whose destination word is n. -/
private theorem deg_at (x3 : (⟨S640000, .i32⟩ : BufTy).Contents (Elt Ideal)) (n : Fin 20000) :
    val_main_v13 (F := Ideal) x3 (ix1 n) = degOfEdges (E := S640000.Idx) (fun e => (x3 e).toInt) n := by
  have hf : ∀ j ∈ (Finset.univ : Finset S640000.Idx),
      scatter_S20000_S640000x1_S640000_n_0_0_1.resultIdx? j (val_main_v12 (F := Ideal) x3) = some (ix1 n)
        ↔ (x3 j).toInt = (n.val : Int) := by
    intro j _
    obtain ⟨e, rfl⟩ : ∃ e : Fin 640000, j = ix1 e := ⟨j 0, eq_ix1 j⟩
    rw [degScatter_hit, dstWord12_at]
  unfold val_main_v13 degOfEdges
  rw [scatterAdd_at, zeros11_at, Finset.filter_congr hf]
  exact congrArg (fun z => (0 : EReal) + z) (Finset.sum_congr rfl fun j _ => ones10_at j)

/-! ## The feature sum -/

/-- The feature scatter read at (n, f): zero plus, for every edge whose destination word is n, feature f of the row the
    gather read for it. An update (e, f') lands on (n, f) exactly when edge e goes into n and f' = f, so the updates
    that land there are in bijection with the edges into n. -/
private theorem feat_at (x0 : (⟨S2500x128, .f32⟩ : BufTy).Contents (Elt Ideal))
    (x2 x3 : (⟨S640000, .i32⟩ : BufTy).Contents (Elt Ideal)) (n : Fin 20000) (f : Fin 128) :
    val_main_v9 (F := Ideal) x0 x2 x3 (ix2 n f)
      = edgeSum (E := S640000.Idx) (fun e => (x3 e).toInt) (fun e => (wrapIdx 2500#32 (x2 e)).toInt)
          (fun g k => x0 (ix2 g k)) n f := by
  have hit : ∀ (a : Fin 640000) (b : Fin 128),
      scatter_S20000x128_S640000x1_S640000x128_1_0_0_1.resultIdx? (ix2 a b) (val_main_v8 (F := Ideal) x3) = some (ix2 n f)
        ↔ (x3 (ix1 a)).toInt = (n.val : Int) ∧ b = f := by
    intro a b
    rw [featScatter_hit, dstWord8_at]
  unfold val_main_v9 edgeSum
  rw [scatterAdd_at, zeros7_at]
  refine congrArg (fun z => (0 : EReal) + z) ?_
  refine Finset.sum_nbij' (fun j : S640000x128.Idx => (ix1 (j 0 : Fin 640000) : S640000.Idx))
    (fun e : S640000.Idx => (ix2 (e 0 : Fin 640000) f : S640000x128.Idx)) ?_ ?_ ?_ ?_ ?_
  · intro j hj
    obtain ⟨a, b, rfl⟩ : ∃ (a : Fin 640000) (b : Fin 128), j = ix2 a b := ⟨j 0, j 1, eq_ix2 j⟩
    have h := (hit a b).1 (Finset.mem_filter.1 hj).2
    exact Finset.mem_filter.2 ⟨Finset.mem_univ _, h.1⟩
  · intro e he
    obtain ⟨a, rfl⟩ : ∃ a : Fin 640000, e = ix1 a := ⟨e 0, eq_ix1 e⟩
    have h : (x3 (ix1 a)).toInt = (n.val : Int) := (Finset.mem_filter.1 he).2
    exact Finset.mem_filter.2 ⟨Finset.mem_univ _, (hit a f).2 ⟨h, rfl⟩⟩
  · intro j hj
    obtain ⟨a, b, rfl⟩ : ∃ (a : Fin 640000) (b : Fin 128), j = ix2 a b := ⟨j 0, j 1, eq_ix2 j⟩
    have h := (hit a b).1 (Finset.mem_filter.1 hj).2
    rw [h.2]
  · intro e _
    obtain ⟨a, rfl⟩ : ∃ a : Fin 640000, e = ix1 a := ⟨e 0, eq_ix1 e⟩
    rfl
  · intro j hj
    obtain ⟨a, b, rfl⟩ : ∃ (a : Fin 640000) (b : Fin 128), j = ix2 a b := ⟨j 0, j 1, eq_ix2 j⟩
    have h := (hit a b).1 (Finset.mem_filter.1 hj).2
    unfold val_main_v6
    rw [rowGather_apply, srcWord_at, h.2]

/-! ## The divisor -/

/-- The divisor at (n, f) is max(degree of n, 1): the maximum with the ones array, broadcast along the row. -/
private theorem divisor_at (x3 : (⟨S640000, .i32⟩ : BufTy).Contents (Elt Ideal)) (n : Fin 20000) (f : Fin 128) :
    val_main_v17 (F := Ideal) x3 (ix2 n f) = max (val_main_v13 (F := Ideal) x3 (ix1 n)) 1 := by
  have h17 : idx_main_v17 (ix2 n f) = ix2 n (0 : Fin 1) := by
    funext a; match a with | ⟨0, _⟩ => rfl | ⟨1, _⟩ => rfl
  have h16 : idx_main_v16 (ix2 n (0 : Fin 1)) = ix1 n := by
    funext a; match a with | ⟨0, _⟩ => rfl
  rw [val_main_v17_apply, h17, val_main_v16_apply, h16, val_main_v15_apply, val_main_v14_apply, val_main_cst_3_apply]
  exact congrArg (fun z => max (val_main_v13 (F := Ideal) x3 (ix1 n)) z) Ideal.ofBits_one_f32

/-! ## The mean -/

/-- Entry (n, f) of the reference's mean-aggregated array is the edge-form mean over the edges into n: destinations are
    the destination words as they come, sources the source words wrapped into the table's 2500 rows. -/
theorem refMean_at (x0 : (⟨S2500x128, .f32⟩ : BufTy).Contents (Elt Ideal)) (x2 x3 : (⟨S640000, .i32⟩ : BufTy).Contents (Elt Ideal))
    (n : Fin 20000) (f : Fin 128) :
    val_main_v18 (F := Ideal) x0 x2 x3 (ix2 n f)
      = edgeForm (E := S640000.Idx) (fun e => (x3 e).toInt) (fun e => (wrapIdx 2500#32 (x2 e)).toInt)
          (fun g k => x0 (ix2 g k)) n f := by
  rw [val_main_v18_apply, feat_at, divisor_at, deg_at]
  rfl

end Cert.Sage

end
-- ==== Proof.RefTail.lean ====
/-
  The reference's layers after the aggregation, read at one entry.

  With the aggregated array kept as it is (whatever it holds), entry (n, j) of the reference's result is the network's
  output row (Cert.Sage.netRow) for node n: its own features are row n of the node features, its aggregated row is row
  n of the aggregated array. Each matrix product is the sum over its one contracted axis, each bias is broadcast down
  the rows, and each positive part is the maximum with a zero array.
-/
import proofs.«429588_j78847009620691_1_alg».proof.Proof.Gen.ReferenceIdeal.Read
import proofs.«429588_j78847009620691_1_alg».proof.Proof.SageSpec
import Idealize.ShloMosaic.Lib.ValueIdx

noncomputable section

namespace Cert.Sage

open Idealize.ShloMosaic Idealize.ShloMosaic.ValueIdx Cert.ReferenceIdeal Cert.ReferenceIdeal.Read

/-! ## Index equations

  At entry (n, k) of a product's result, the left operand is read along row n and the right operand down column k; a
  bias broadcast down the rows is read at its column. -/

private theorem lidx19_at (n : Fin 20000) (k : Fin 128) (q : Fin 500) : lidx_main_v19 (ix2 n k) q = ix2 n q :=
  funext fun a => Fin.ext (by match a with | ⟨0, _⟩ => rfl | ⟨1, _⟩ => rfl)
private theorem ridx19_at (n : Fin 20000) (k : Fin 128) (q : Fin 500) : ridx_main_v19 (ix2 n k) q = ix2 q k :=
  funext fun a => Fin.ext (by match a with | ⟨0, _⟩ => rfl | ⟨1, _⟩ => rfl)
private theorem lidx20_at (n : Fin 20000) (k q : Fin 128) : lidx_main_v20 (ix2 n k) q = ix2 n q :=
  funext fun a => Fin.ext (by match a with | ⟨0, _⟩ => rfl | ⟨1, _⟩ => rfl)
private theorem ridx20_at (n : Fin 20000) (k q : Fin 128) : ridx_main_v20 (ix2 n k) q = ix2 q k :=
  funext fun a => Fin.ext (by match a with | ⟨0, _⟩ => rfl | ⟨1, _⟩ => rfl)
private theorem lidx26_at (n : Fin 20000) (k q : Fin 128) : lidx_main_v26 (ix2 n k) q = ix2 n q :=
  funext fun a => Fin.ext (by match a with | ⟨0, _⟩ => rfl | ⟨1, _⟩ => rfl)
private theorem ridx26_at (n : Fin 20000) (k q : Fin 128) : ridx_main_v26 (ix2 n k) q = ix2 q k :=
  funext fun a => Fin.ext (by match a with | ⟨0, _⟩ => rfl | ⟨1, _⟩ => rfl)
private theorem lidx27_at (n : Fin 20000) (k q : Fin 128) : lidx_main_v27 (ix2 n k) q = ix2 n q :=
  funext fun a => Fin.ext (by match a with | ⟨0, _⟩ => rfl | ⟨1, _⟩ => rfl)
private theorem ridx27_at (n : Fin 20000) (k q : Fin 128) : ridx_main_v27 (ix2 n k) q = ix2 q k :=
  funext fun a => Fin.ext (by match a with | ⟨0, _⟩ => rfl | ⟨1, _⟩ => rfl)
private theorem lidx33_at (n : Fin 20000) (k q : Fin 128) : lidx_main_v33 (ix2 n k) q = ix2 n q :=
  funext fun a => Fin.ext (by match a with | ⟨0, _⟩ => rfl | ⟨1, _⟩ => rfl)
private theorem ridx33_at (n : Fin 20000) (k q : Fin 128) : ridx_main_v33 (ix2 n k) q = ix2 q k :=
  funext fun a => Fin.ext (by match a with | ⟨0, _⟩ => rfl | ⟨1, _⟩ => rfl)
private theorem lidx38_at (n : Fin 20000) (j : Fin 16) (q : Fin 128) : lidx_main_v38 (ix2 n j) q = ix2 n q :=
  funext fun a => Fin.ext (by match a with | ⟨0, _⟩ => rfl | ⟨1, _⟩ => rfl)
private theorem ridx38_at (n : Fin 20000) (j : Fin 16) (q : Fin 128) : ridx_main_v38 (ix2 n j) q = ix2 q j :=
  funext fun a => Fin.ext (by match a with | ⟨0, _⟩ => rfl | ⟨1, _⟩ => rfl)
private theorem bias23_at (n : Fin 20000) (k : Fin 128) : idx_main_v22 (idx_main_v23 (ix2 n k)) = ix1 k :=
  funext fun a => Fin.ext (by match a with | ⟨0, _⟩ => rfl)
private theorem bias30_at (n : Fin 20000) (k : Fin 128) : idx_main_v29 (idx_main_v30 (ix2 n k)) = ix1 k :=
  funext fun a => Fin.ext (by match a with | ⟨0, _⟩ => rfl)
private theorem bias35_at (n : Fin 20000) (k : Fin 128) : idx_main_v34 (idx_main_v35 (ix2 n k)) = ix1 k :=
  funext fun a => Fin.ext (by match a with | ⟨0, _⟩ => rfl)
private theorem bias40_at (n : Fin 20000) (j : Fin 16) : idx_main_v39 (idx_main_v40 (ix2 n j)) = ix1 j :=
  funext fun a => Fin.ext (by match a with | ⟨0, _⟩ => rfl)

/-! ## The three hidden layers, each read at one entry -/

section Layers

variable (x0 : (⟨S2500x128, .f32⟩ : BufTy).Contents (Elt Ideal)) (x1 : (⟨S20000x500, .f32⟩ : BufTy).Contents (Elt Ideal))
    (x2 x3 : (⟨S640000, .i32⟩ : BufTy).Contents (Elt Ideal)) (x4 : (⟨S128x128, .f32⟩ : BufTy).Contents (Elt Ideal))
    (x5 : (⟨S500x128, .f32⟩ : BufTy).Contents (Elt Ideal)) (x6 : (⟨S128, .f32⟩ : BufTy).Contents (Elt Ideal))
    (x7 x8 : (⟨S128x128, .f32⟩ : BufTy).Contents (Elt Ideal)) (x9 : (⟨S128, .f32⟩ : BufTy).Contents (Elt Ideal))
    (x10 : (⟨S128x128, .f32⟩ : BufTy).Contents (Elt Ideal)) (x11 : (⟨S128, .f32⟩ : BufTy).Contents (Elt Ideal))
    (x12 : (⟨S128x16, .f32⟩ : BufTy).Contents (Elt Ideal)) (x13 : (⟨S16, .f32⟩ : BufTy).Contents (Elt Ideal))

/-- Entry (n, k) of the first layer's array: row n of the features through the self weights, row n of the aggregated
    array through the neighbour weights, the bias at k, and the positive part. -/
private theorem v25_at (n : Fin 20000) (k : Fin 128) :
    val_main_v25 (F := Ideal) x0 x1 x2 x3 x4 x5 x6 (ix2 n k)
      = layer1 (weightsOf x5 x4 (fun k => x6 (ix1 k)) x8 x7 (fun k => x9 (ix1 k)) x10 (fun k => x11 (ix1 k)) x12 (fun k => x13 (ix1 k)))
          (fun d => x1 (ix2 n d)) (fun f => val_main_v18 (F := Ideal) x0 x2 x3 (ix2 n f)) k := by
  rw [val_main_v25_apply, val_main_v24_apply, val_main_v21_apply, val_main_v19_apply, val_main_v20_apply,
    val_main_v23_apply, val_main_v22_apply, val_main_call0_v0_apply, val_main_call0_cst_apply]
  generalize val_main_v18 (F := Ideal) x0 x2 x3 = y
  simp only [lidx19_at, ridx19_at, lidx20_at, ridx20_at, bias23_at, Ideal.addf_def, Ideal.maximumf_def,
    Ideal.ofBits_def, Ideal.ofBits_zero_f32, layer1, lin, weightsOf]

/-- Entry (n, k) of the second layer's array: row n of the first layer through the self weights, the same row n of the
    aggregated array through the neighbour weights, the bias at k, and the positive part. -/
private theorem v32_at (n : Fin 20000) (k : Fin 128) :
    val_main_v32 (F := Ideal) x0 x1 x2 x3 x4 x5 x6 x7 x8 x9 (ix2 n k)
      = layer2 (weightsOf x5 x4 (fun k => x6 (ix1 k)) x8 x7 (fun k => x9 (ix1 k)) x10 (fun k => x11 (ix1 k)) x12 (fun k => x13 (ix1 k)))
          (fun d => x1 (ix2 n d)) (fun f => val_main_v18 (F := Ideal) x0 x2 x3 (ix2 n f)) k := by
  rw [val_main_v32_apply, val_main_v31_apply, val_main_v28_apply, val_main_v26_apply, val_main_v27_apply,
    val_main_v30_apply, val_main_v29_apply, val_main_call1_v0_apply, val_main_call1_cst_apply]
  simp only [lidx26_at, ridx26_at, lidx27_at, ridx27_at, bias30_at, v25_at x0 x1 x2 x3 x4 x5 x6 x7 x8 x9 x10 x11 x12 x13]
  generalize val_main_v18 (F := Ideal) x0 x2 x3 = y
  simp only [Ideal.addf_def, Ideal.maximumf_def, Ideal.ofBits_def, Ideal.ofBits_zero_f32, layer2, lin, weightsOf]

/-- Entry (n, k) of the head's hidden array: row n of the second layer through the head's first weights, the bias at k,
    and the positive part. -/
private theorem v37_at (n : Fin 20000) (k : Fin 128) :
    val_main_v37 (F := Ideal) x0 x1 x2 x3 x4 x5 x6 x7 x8 x9 x10 x11 (ix2 n k)
      = headHidden (weightsOf x5 x4 (fun k => x6 (ix1 k)) x8 x7 (fun k => x9 (ix1 k)) x10 (fun k => x11 (ix1 k)) x12 (fun k => x13 (ix1 k)))
          (fun d => x1 (ix2 n d)) (fun f => val_main_v18 (F := Ideal) x0 x2 x3 (ix2 n f)) k := by
  rw [val_main_v37_apply, val_main_v36_apply, val_main_v33_apply, val_main_v35_apply, val_main_v34_apply,
    val_main_call2_v0_apply, val_main_call2_cst_apply]
  simp only [lidx33_at, ridx33_at, bias35_at, v32_at x0 x1 x2 x3 x4 x5 x6 x7 x8 x9 x10 x11 x12 x13]
  generalize val_main_v18 (F := Ideal) x0 x2 x3 = y
  simp only [Ideal.addf_def, Ideal.maximumf_def, Ideal.ofBits_def, Ideal.ofBits_zero_f32, headHidden, lin, weightsOf]

end Layers

/-- Entry (n, j) of the reference's result, over its aggregated array read at row n. -/
theorem refTail_at (x0 : (⟨S2500x128, .f32⟩ : BufTy).Contents (Elt Ideal)) (x1 : (⟨S20000x500, .f32⟩ : BufTy).Contents (Elt Ideal))
    (x2 x3 : (⟨S640000, .i32⟩ : BufTy).Contents (Elt Ideal)) (x4 : (⟨S128x128, .f32⟩ : BufTy).Contents (Elt Ideal))
    (x5 : (⟨S500x128, .f32⟩ : BufTy).Contents (Elt Ideal)) (x6 : (⟨S128, .f32⟩ : BufTy).Contents (Elt Ideal))
    (x7 x8 : (⟨S128x128, .f32⟩ : BufTy).Contents (Elt Ideal)) (x9 : (⟨S128, .f32⟩ : BufTy).Contents (Elt Ideal))
    (x10 : (⟨S128x128, .f32⟩ : BufTy).Contents (Elt Ideal)) (x11 : (⟨S128, .f32⟩ : BufTy).Contents (Elt Ideal))
    (x12 : (⟨S128x16, .f32⟩ : BufTy).Contents (Elt Ideal)) (x13 : (⟨S16, .f32⟩ : BufTy).Contents (Elt Ideal))
    (n : Fin 20000) (j : Fin 16) :
    val_main_v41 (F := Ideal) x0 x1 x2 x3 x4 x5 x6 x7 x8 x9 x10 x11 x12 x13 (ix2 n j)
      = netRow (weightsOf x5 x4 (fun k => x6 (ix1 k)) x8 x7 (fun k => x9 (ix1 k)) x10 (fun k => x11 (ix1 k)) x12 (fun k => x13 (ix1 k)))
          (fun d => x1 (ix2 n d))
          (fun f => val_main_v18 (F := Ideal) x0 x2 x3 (ix2 n f)) j := by
  rw [val_main_v41_apply, val_main_v38_apply, val_main_v40_apply, val_main_v39_apply]
  simp only [lidx38_at, ridx38_at, bias40_at, v37_at x0 x1 x2 x3 x4 x5 x6 x7 x8 x9 x10 x11 x12 x13]
  generalize val_main_v18 (F := Ideal) x0 x2 x3 = y
  simp only [Ideal.addf_def, netRow, lin, weightsOf]

end Cert.Sage

end
-- ==== Proof.PreDecode.lean ====
/-
  What the precondition says about the edge endpoints, and what the NumPy wrap then makes of a source word.

  The precondition is one conjunction of "all" tests; its last three conjuncts say that every source word is at least
  -2500 and below 2500, and every destination word at least 0, as signed integers: the source words are the indices
  NumPy-style indexing of a 2500-row table accepts, the destination words are not negative. A conjunction of bits that is 1
  has every conjunct 1, an "all" (a reduction by "and" to a single bit) that is 1 has every tested bit 1, and a signed
  comparison bit that is 1 is the comparison of the words read as integers. The finiteness conjuncts of the float inputs
  are not used: the agreement of the two programs does not need them.

  A source word in [-2500, 2500), wrapped the NumPy way into the 2500 rows (a negative word counts from the end), is a row
  of the table: a non-negative word is left alone, a negative word w becomes w + 2500, and the 32-bit sum does not
  overflow.
-/
import proofs.«429588_j78847009620691_1_alg».proof.Pre_finite_inputs
import proofs.«429588_j78847009620691_1_alg».proof.Proof.Gen.Pre_finite_inputs
import proofs.«429588_j78847009620691_1_alg».proof.Proof.SageSpec
import Idealize.ShloMosaic.Lib.ReduceAll
import Idealize.ShloMosaic.Lib.Affine
import Idealize.ShloMosaic.Lib.ValueIdx
import Idealize.ShloMosaic.Lib.WordArith

noncomputable section

namespace Cert.Sage

open Idealize.ShloMosaic Cert.Pre_finite_inputs

/-- The scalar shape has one index. -/
instance scalarIdxSubsingleton : Subsingleton S_.Idx := ⟨fun _ _ => funext fun d => d.elim0⟩

/-- Under the precondition every edge's source word is in [-2500, 2500) and its destination word is not negative, as
    signed integers. -/
theorem endpoints_in_range {F : FTy → Type} [FloatOps F]
    (a0 : FVec F S2500x128 .f32) (a1 : FVec F S20000x500 .f32) (a2 a3 : IVec S640000 32) (a4 : FVec F S128x128 .f32)
    (a5 : FVec F S500x128 .f32) (a6 : FVec F S128 .f32) (a7 a8 : FVec F S128x128 .f32) (a9 : FVec F S128 .f32)
    (a10 : FVec F S128x128 .f32) (a11 : FVec F S128 .f32) (a12 : FVec F S128x16 .f32) (a13 : FVec F S16 .f32)
    (h : fn (F := F) a0 a1 a2 a3 a4 a5 a6 a7 a8 a9 a10 a11 a12 a13 = fun _ => 1#1) (e : S640000.Idx) :
    (-2500 ≤ (a2 e).toInt ∧ (a2 e).toInt < 2500) ∧ 0 ≤ (a3 e).toInt := by
  have h0 := congrFun h ValueIdx.ix0
  dsimp only [fn, fn_part1, fn_part2, fn_part3, fn_part4] at h0
  obtain ⟨h1, hd0⟩ := IntOp.andi_eq_one.1 h0
  obtain ⟨h2, hs1⟩ := IntOp.andi_eq_one.1 h1
  obtain ⟨_, hs0⟩ := IntOp.andi_eq_one.1 h2
  have ks0 := IntOp.cmpi_sge.1 (Host.reduce_andi_all _ _ _ _ _ hs0 e)
  have ks1 := IntOp.cmpi_slt.1 (Host.reduce_andi_all _ _ _ _ _ hs1 e)
  have kd0 := IntOp.cmpi_sge.1 (Host.reduce_andi_all _ _ _ _ _ hd0 e)
  have c0 : (0#32 : BitVec 32).toInt = 0 := by decide
  have c1 : (2500#32 : BitVec 32).toInt = 2500 := by decide
  have c2 : (4294964796#32 : BitVec 32).toInt = -2500 := by decide
  have b0 : ∀ (c : BitVec 32) (i : S640000.Idx), broadcastInDim S640000 ![] Facts.bcast_S_S640000 (constantI S_ 32 c) i = c :=
    fun _ _ => rfl
  rw [b0, c2] at ks0
  rw [b0, c1] at ks1
  rw [b0, c0] at kd0
  exact ⟨⟨ks0, ks1⟩, kd0⟩

/-- A negative source word not below -2500, wrapped into the 2500 rows, reads w + 2500. -/
theorem wrapIdx_toInt_of_neg (w : BitVec 32) (hlo : -2500 ≤ w.toInt) (hneg : w.toInt < 0) :
    (wrapIdx 2500#32 w).toInt = w.toInt + 2500 := by
  unfold wrapIdx
  have h0 : (0#32 : BitVec 32).toInt = 0 := by decide
  have hN : (2500#32 : BitVec 32).toInt = 2500 := by decide
  have hc : IntOp.cmpi .slt w 0#32 = 1#1 := IntOp.cmpi_slt.2 (by omega)
  rw [hc, ValueIdx.select_one]
  show (w + 2500#32).toInt = _
  rw [WordArith.toInt_add_of_bounds _ _ (by omega) (by omega), hN]

/-- A source word in [-2500, 2500), wrapped, is a row of the table. -/
theorem wrapped_src_in_range (w : BitVec 32) (hlo : -2500 ≤ w.toInt) (hhi : w.toInt < 2500) :
    0 ≤ (wrapIdx 2500#32 w).toInt ∧ (wrapIdx 2500#32 w).toInt < 2500 := by
  by_cases hw : 0 ≤ w.toInt
  · rw [wrapIdx_of_nonneg _ _ hw]; exact ⟨hw, hhi⟩
  · rw [wrapIdx_toInt_of_neg w hlo (by omega)]; omega

end Cert.Sage

end
-- ==== Proof.lean ====
/-
  The kernel and the reference compute the same network on a bipartite graph.

  Both take, for every destination node, the mean of the feature rows of the sources of its incoming edges, and feed it
  with the node's own features through two neighbour-and-self layers and a two-layer head. The reference sums the
  gathered source rows per destination and divides by max(degree, 1) (the EDGE form of the mean). The kernel first builds
  the count matrix of the edges and multiplies it into the feature table, then multiplies by the reciprocal of
  max(row sum, 1) (the COUNT form). The two forms agree on all extended reals (Cert.Sage.countForm_eq_edgeForm) as soon as
  every source index, wrapped the NumPy way as both programs wrap it, is a row of the table, which it is when the index is
  in [-2500, 2500); and the two programs read the destinations alike as soon as every destination index is non-negative
  (the kernel wraps a negative one from the end, the reference drops it). Both are what the precondition's index
  conjuncts say (Cert.Sage.endpoints_in_range, wrapped_src_in_range). After the mean the two programs apply the same layers
  row by row, which the two sides read off as the same function Cert.Sage.netRow: the kernel block by block
  (Cert.Sage.kernel_run, kernelOut_at), the reference over the whole arrays (refTail_at, refMean_at). Changes of float
  format are the identity on the extended reals, and the finiteness of the float inputs is not needed.

  The three frames: the kernel's two are the generated frame certificates; the reference, a host program, terminates with
  its arguments unchanged by its generated run. The idealization rewrote nothing, so preserves is trivial.
-/
import proofs.«429588_j78847009620691_1_alg».proof.Defs
import proofs.«429588_j78847009620691_1_alg».proof.Proof.Gen.Kernel
import proofs.«429588_j78847009620691_1_alg».proof.Proof.Gen.Kernel.Skeleton
import proofs.«429588_j78847009620691_1_alg».proof.Proof.Gen.Kernel.Launch
import proofs.«429588_j78847009620691_1_alg».proof.Proof.Gen.Kernel.Points
import proofs.«429588_j78847009620691_1_alg».proof.Proof.Gen.Kernel.Frame
import proofs.«429588_j78847009620691_1_alg».proof.Proof.Gen.KernelIdeal
import proofs.«429588_j78847009620691_1_alg».proof.Proof.Gen.KernelIdeal.Skeleton
import proofs.«429588_j78847009620691_1_alg».proof.Proof.Gen.KernelIdeal.Launch
import proofs.«429588_j78847009620691_1_alg».proof.Proof.Gen.KernelIdeal.Points
import proofs.«429588_j78847009620691_1_alg».proof.Proof.Gen.KernelIdeal.Frame
import proofs.«429588_j78847009620691_1_alg».proof.Proof.Gen.ReferenceIdeal
import proofs.«429588_j78847009620691_1_alg».proof.Proof.Gen.Pre_finite_inputs
import proofs.«429588_j78847009620691_1_alg».proof.Proof.Gen.KernelIdeal.Value
import proofs.«429588_j78847009620691_1_alg».proof.Proof.Gen.ReferenceIdeal.Run
import proofs.«429588_j78847009620691_1_alg».proof.Proof.Gen.ReferenceIdeal.Read
import proofs.«429588_j78847009620691_1_alg».proof.Proof.KernelResult
import proofs.«429588_j78847009620691_1_alg».proof.Proof.RefMean
import proofs.«429588_j78847009620691_1_alg».proof.Proof.RefTail
import proofs.«429588_j78847009620691_1_alg».proof.Proof.PreDecode
import Idealize.ShloMosaic.Adequacy
import Idealize.ShloMosaic.Init

noncomputable section

namespace Cert.Proof

open Idealize.ShloMosaic Idealize.SL.Sem Idealize.ShloMosaic.ValueIdx Cert.Sage

/-- With every source word in [-2500, 2500) and every destination word non-negative, the kernel's count-form mean over
    the wrapped endpoints is the reference's edge-form mean over the destinations as they come: the wrapped source is a row
    of the table, and the kernel's wrap leaves a non-negative destination alone. -/
theorem mean_eq (a0 : (⟨2, ![2500, 128]⟩ : Shape).Idx → EReal) (a2 a3 : (⟨1, ![640000]⟩ : Shape).Idx → BitVec 32)
    (hr : ∀ e : (⟨1, ![640000]⟩ : Shape).Idx, (-2500 ≤ (a2 e).toInt ∧ (a2 e).toInt < 2500) ∧ 0 ≤ (a3 e).toInt)
    (n : Fin 20000) (f : Fin 128) :
    countForm (fun e => (wrapIdx 20000#32 (a3 e)).toInt) (fun e => (wrapIdx 2500#32 (a2 e)).toInt) (fun g k => a0 (ix2 g k)) n f
      = edgeForm (fun e => (a3 e).toInt) (fun e => (wrapIdx 2500#32 (a2 e)).toInt) (fun g k => a0 (ix2 g k)) n f := by
  have hd : (fun e : (⟨1, ![640000]⟩ : Shape).Idx => (wrapIdx 20000#32 (a3 e)).toInt) = fun e => (a3 e).toInt :=
    funext fun e => by rw [wrapIdx_of_nonneg _ _ (hr e).2]
  have hs : ∀ e : (⟨1, ![640000]⟩ : Shape).Idx,
      0 ≤ (wrapIdx 2500#32 (a2 e)).toInt ∧ (wrapIdx 2500#32 (a2 e)).toInt < 2500 :=
    fun e => wrapped_src_in_range _ (hr e).1.1 (hr e).1.2
  rw [hd]
  exact countForm_eq_edgeForm _ _ hs _ n f

theorem frame_kernel : Cert.frame_Kernel := fun m ρ _ => Cert.Kernel.Gen.frame m ρ

theorem frame_kernelIdeal : Cert.frame_KernelIdeal := fun m ρ _ => Cert.KernelIdeal.Gen.frame m ρ

theorem frame_reference : Cert.frame_ReferenceIdeal := fun m ρ _ =>
  (θ_run Cert.ReferenceIdeal.defs _ _).mono (fun _ h c => (h c).2) (Cert.ReferenceIdeal.Value.run (F := Ideal) m ρ)

theorem preserves : Cert.preserves_Kernel_KernelIdeal := trivial

/-- From memories agreeing on the arguments, both programs end with the same result array: at every (n, j) the network's
    output row for node n, the aggregated row being one mean in two forms. -/
theorem algebraic : Cert.algebraic_KernelIdeal_ReferenceIdeal := by
  intro m ρ m' ρ' hpre hagree
  refine ⟨fun c => kernelOut
        (m ((c.tc : Thread Cert.KernelIdeal.nD Cert.KernelIdeal.τ).loc Cert.KernelIdeal.main_arg0))
        (m ((c.tc : Thread Cert.KernelIdeal.nD Cert.KernelIdeal.τ).loc Cert.KernelIdeal.main_arg1))
        (m ((c.tc : Thread Cert.KernelIdeal.nD Cert.KernelIdeal.τ).loc Cert.KernelIdeal.main_arg2))
        (m ((c.tc : Thread Cert.KernelIdeal.nD Cert.KernelIdeal.τ).loc Cert.KernelIdeal.main_arg3))
        (m ((c.tc : Thread Cert.KernelIdeal.nD Cert.KernelIdeal.τ).loc Cert.KernelIdeal.main_arg4))
        (m ((c.tc : Thread Cert.KernelIdeal.nD Cert.KernelIdeal.τ).loc Cert.KernelIdeal.main_arg5))
        (m ((c.tc : Thread Cert.KernelIdeal.nD Cert.KernelIdeal.τ).loc Cert.KernelIdeal.main_arg6))
        (m ((c.tc : Thread Cert.KernelIdeal.nD Cert.KernelIdeal.τ).loc Cert.KernelIdeal.main_arg7))
        (m ((c.tc : Thread Cert.KernelIdeal.nD Cert.KernelIdeal.τ).loc Cert.KernelIdeal.main_arg8))
        (m ((c.tc : Thread Cert.KernelIdeal.nD Cert.KernelIdeal.τ).loc Cert.KernelIdeal.main_arg9))
        (m ((c.tc : Thread Cert.KernelIdeal.nD Cert.KernelIdeal.τ).loc Cert.KernelIdeal.main_arg10))
        (m ((c.tc : Thread Cert.KernelIdeal.nD Cert.KernelIdeal.τ).loc Cert.KernelIdeal.main_arg11))
        (m ((c.tc : Thread Cert.KernelIdeal.nD Cert.KernelIdeal.τ).loc Cert.KernelIdeal.main_arg12))
        (m ((c.tc : Thread Cert.KernelIdeal.nD Cert.KernelIdeal.τ).loc Cert.KernelIdeal.main_arg13)),
    kernel_run m ρ, ?_⟩
  refine (θ_run Cert.ReferenceIdeal.defs _ _).mono (fun _ h c => ⟨(h c).1.trans ?_, (h c).2⟩)
    (Cert.ReferenceIdeal.Value.run (F := Ideal) m' ρ')
  obtain ⟨e0, e1, e2, e3, e4, e5, e6, e7, e8, e9, e10, e11, e12, e13⟩ := hagree c
  rw [Cert.ReferenceIdeal.Read.val_main_v41_eq, e0, e1, e2, e3, e4, e5, e6, e7, e8, e9, e10, e11, e12, e13]
  funext i
  obtain ⟨n, j, rfl⟩ : ∃ (n : Fin 20000) (j : Fin 16), i = ix2 n j := ⟨i 0, i 1, eq_ix2 i⟩
  dsimp only
  rw [refTail_at, kernelOut_at]
  refine congrArg (fun a => netRow _ _ a j) (funext fun f => ?_)
  rw [refMean_at]
  exact (mean_eq _ _ _ (fun e => endpoints_in_range _ _ _ _ _ _ _ _ _ _ _ _ _ _ (hpre c) e) n f).symm

theorem claim : Cert.Claim :=
  ⟨Cert.Kernel.Gen.facts, Cert.KernelIdeal.Gen.facts, Cert.ReferenceIdeal.Gen.facts, Cert.Pre_finite_inputs.Gen.facts,
    frame_kernel, frame_kernelIdeal, frame_reference, preserves, algebraic⟩

end Cert.Proof

end
